-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x128 : Shape := ⟨2, ![25000, 128]⟩
abbrev S2x400000 : Shape := ⟨2, ![2, 400000]⟩
abbrev S25000x3 : Shape := ⟨2, ![25000, 3]⟩
abbrev S400000x1 : Shape := ⟨2, ![400000, 1]⟩
abbrev S258x128 : Shape := ⟨2, ![258, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩

class Facts : Prop where
  bcast_S_S25000x128 : S_.BroadcastsInDim S25000x128 (![] : Fin 0 → Fin S25000x128.rank)
  reducesTo_S25000x128_S_d0_1 : S25000x128.ReducesTo [0, 1] S_
  h_S_ : 0 < S_.numel
  bcast_S_S25000x3 : S_.BroadcastsInDim S25000x3 (![] : Fin 0 → Fin S25000x3.rank)
  reducesTo_S25000x3_S_d0_1 : S25000x3.ReducesTo [0, 1] S_
  bcast_S_S400000x1 : S_.BroadcastsInDim S400000x1 (![] : Fin 0 → Fin S400000x1.rank)
  reducesTo_S400000x1_S_d0_1 : S400000x1.ReducesTo [0, 1] S_
  bcast_S_S258x128 : S_.BroadcastsInDim S258x128 (![] : Fin 0 → Fin S258x128.rank)
  reducesTo_S258x128_S_d0_1 : S258x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S2x400000 : S_.BroadcastsInDim S2x400000 (![] : Fin 0 → Fin S2x400000.rank)
  reducesTo_S2x400000_S_d0_1 : S2x400000.ReducesTo [0, 1] S_

variable [Facts]

def fn_part6 {F : FTy → Type} [FloatOps F] (main_arg1 : IVec S2x400000 32) (main_arg22 : FVec F S128x1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x1 .f32 := Host.absf main_arg22
  let main_cst_40 : FVec F S_ .f32 := constant S_ .f32 0x7F800000#32
  let main_v105 : FVec F S128x1 .f32 := broadcastInDim S128x1 ![] bcast_S_S128x1 main_cst_40
  let main_v106 : IVec S128x1 1 := cmpf .olt main_v104 main_v105
  let main_c_41 : IVec S_ 1 := constantI S_ 1 1#1
  let main_v107 : IVec S_ 1 := (fun x v => Host.reduce IntOp.andi x v reducesTo_S128x1_S_d0_1 h_S_) main_v106 main_c_41
  let main_v108 : IVec S_ 1 := andi main_v103 main_v107
  let main_c_42 : IVec S_ 32 := constantI S_ 32 4294942296#32
  let main_v109 : IVec S2x400000 32 := broadcastInDim S2x400000 ![] bcast_S_S2x400000 main_c_42
  let main_v110 : IVec S2x400000 1 := cmpi .sge main_arg1 main_v109
  let main_c_43 : IVec S_ 32 := constantI S_ 32 25000#32
  let main_v111 : IVec S2x400000 32 := broadcastInDim S2x400000 ![] bcast_S_S2x400000 main_c_43
  let main_v112 : IVec S2x400000 1 := cmpi .slt main_arg1 main_v111
  let main_v113 : IVec S2x400000 1 := andi main_v110 main_v112
  let main_c_44 : IVec S_ 1 := constantI S_ 1 1#1
  let main_v114 : IVec S_ 1 := (fun x v => Host.reduce IntOp.andi x v reducesTo_S2x400000_S_d0_1 h_S_) main_v113 main_c_44
  let main_v115 : IVec S_ 1 := andi main_v108 main_v114
  main_v115

def fn_part5 {F : FTy → Type} [FloatOps F] (main_arg1 : IVec S2x400000 32) (main_arg19 : FVec F S128 .f32) (main_arg20 : FVec F S128 .f32) (main_arg21 : FVec F S128 .f32) (main_arg22 : FVec F S128x1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg1 main_arg22 main_v98 main_v101 main_c_39

def fn_part4 {F : FTy → Type} [FloatOps F] (main_arg1 : IVec S2x400000 32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128x1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg1 main_arg19 main_arg20 main_arg21 main_arg22 main_v83 main_v84 main_cst_32

def fn_part3 {F : FTy → Type} [FloatOps F] (main_arg1 : IVec S2x400000 32) (main_arg12 : FVec F S256x128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128x1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_arg19 main_arg20 main_arg21 main_arg22 main_v63 main_v67

def fn_part2 {F : FTy → Type} [FloatOps F] (main_arg1 : IVec S2x400000 32) (main_arg8 : FVec F S128x128 .f32) (main_arg9 : FVec F S128 .f32) (main_arg10 : FVec F S128 .f32) (main_arg11 : FVec F S128 .f32) (main_arg12 : FVec F S256x128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128x1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_arg14 main_arg15 main_arg16 main_arg17 main_arg18 main_arg19 main_arg20 main_arg21 main_arg22 main_v48 main_v49 main_v50

def fn_part1 {F : FTy → Type} [FloatOps F] (main_arg1 : IVec S2x400000 32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S256x128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128x1 .f32) (main_v13 : IVec S_ 1) (main_v16 : IVec S258x128 1) : IVec S_ 1 :=
  let main_c_5 : IVec S_ 1 := constantI S_ 1 1#1
  let main_v17 : IVec S_ 1 := (fun x v => Host.reduce IntOp.andi x v reducesTo_S258x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S25000x128 .f32) (main_arg1 : IVec S2x400000 32) (main_arg2 : FVec F S25000x3 .f32) (main_arg3 : FVec F S400000x1 .f32) (main_arg4 : FVec F S258x128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S256x128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128x1 .f32) : IVec S_ 1 :=
  let main_v0 : FVec F S25000x128 .f32 := Host.absf main_arg0
  let main_cst : FVec F S_ .f32 := constant S_ .f32 0x7F800000#32
  let main_v1 : FVec F S25000x128 .f32 := broadcastInDim S25000x128 ![] bcast_S_S25000x128 main_cst
  let main_v2 : IVec S25000x128 1 := cmpf .olt main_v0 main_v1
  let main_c : IVec S_ 1 := constantI S_ 1 1#1
  let main_v3 : IVec S_ 1 := (fun x v => Host.reduce IntOp.andi x v reducesTo_S25000x128_S_d0_1 h_S_) main_v2 main_c
  let main_v4 : FVec F S25000x3 .f32 := Host.absf main_arg2
  let main_cst_0 : FVec F S_ .f32 := constant S_ .f32 0x7F800000#32
  let main_v5 : FVec F S25000x3 .f32 := broadcastInDim S25000x3 ![] bcast_S_S25000x3 main_cst_0
  let main_v6 : IVec S25000x3 1 := cmpf .olt main_v4 main_v5
  let main_c_1 : IVec S_ 1 := constantI S_ 1 1#1
  let main_v7 : IVec S_ 1 := (fun x v => Host.reduce IntOp.andi x v reducesTo_S25000x3_S_d0_1 h_S_) main_v6 main_c_1
  let main_v8 : IVec S_ 1 := andi main_v3 main_v7
  let main_v9 : FVec F S400000x1 .f32 := Host.absf main_arg3
  let main_cst_2 : FVec F S_ .f32 := constant S_ .f32 0x7F800000#32
  let main_v10 : FVec F S400000x1 .f32 := broadcastInDim S400000x1 ![] bcast_S_S400000x1 main_cst_2
  let main_v11 : IVec S400000x1 1 := cmpf .olt main_v9 main_v10
  let main_c_3 : IVec S_ 1 := constantI S_ 1 1#1
  let main_v12 : IVec S_ 1 := (fun x v => Host.reduce IntOp.andi x v reducesTo_S400000x1_S_d0_1 h_S_) main_v11 main_c_3
  let main_v13 : IVec S_ 1 := andi main_v8 main_v12
  let main_v14 : FVec F S258x128 .f32 := Host.absf main_arg4
  let main_cst_4 : FVec F S_ .f32 := constant S_ .f32 0x7F800000#32
  let main_v15 : FVec F S258x128 .f32 := broadcastInDim S258x128 ![] bcast_S_S258x128 main_cst_4
  let main_v16 : IVec S258x128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S25000x128 : Shape := ⟨2, ![25000, 128]⟩
abbrev S2x400000 : Shape := ⟨2, ![2, 400000]⟩
abbrev S25000x3 : Shape := ⟨2, ![25000, 3]⟩
abbrev S400000x1 : Shape := ⟨2, ![400000, 1]⟩
abbrev S258x128 : Shape := ⟨2, ![258, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x400000 : Shape := ⟨2, ![1, 400000]⟩
abbrev S400000 : Shape := ⟨1, ![400000]⟩
abbrev S_ : Shape := ⟨0, ![]⟩
abbrev S1 : Shape := ⟨1, ![1]⟩
abbrev S1x1 : Shape := ⟨2, ![1, 1]⟩
abbrev S400000x128 : Shape := ⟨2, ![400000, 128]⟩
abbrev S400000x3 : Shape := ⟨2, ![400000, 3]⟩
abbrev S1x128 : Shape := ⟨2, ![1, 128]⟩
abbrev S2000x128 : Shape := ⟨2, ![2000, 128]⟩
abbrev S2000x1 : Shape := ⟨2, ![2000, 1]⟩
abbrev S2000x3 : Shape := ⟨2, ![2000, 3]⟩
abbrev S2000 : Shape := ⟨1, ![2000]⟩
abbrev S5000x128 : Shape := ⟨2, ![5000, 128]⟩
abbrev S5000x256 : Shape := ⟨2, ![5000, 256]⟩
abbrev S5000 : Shape := ⟨1, ![5000]⟩
abbrev S5000x1 : Shape := ⟨2, ![5000, 1]⟩

abbrev nBuf : Space → Nat
  | .hbm => 151
  | .vmem => 42
  | .smem => 0
  | _ => 0

abbrev hbmTy0_0 (i : Nat) : BufTy := match i % 128 with
  | 0 => ⟨S25000x128, .f32⟩
  | 1 => ⟨S2x400000, .i32⟩
  | 2 => ⟨S25000x3, .f32⟩
  | 3 => ⟨S400000x1, .f32⟩
  | 4 => ⟨S258x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S256x128, .f32⟩
  | 13 => ⟨S128, .f32⟩
  | 14 => ⟨S128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128, .f32⟩
  | 21 => ⟨S128, .f32⟩
  | 22 => ⟨S128x1, .f32⟩
  | 23 => ⟨S1x400000, .i32⟩
  | 24 => ⟨S400000, .i32⟩
  | 25 => ⟨S1x400000, .i32⟩
  | 26 => ⟨S400000, .i32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S1, .i32⟩
  | 36 => ⟨S_, .i32⟩
  | 37 => ⟨S400000x1, .i32⟩
  | 38 => ⟨S400000x1, .i1⟩
  | 39 => ⟨S1x1, .i32⟩
  | 40 => ⟨S400000x1, .i32⟩
  | 41 => ⟨S400000x1, .i1⟩
  | 42 => ⟨S400000x1, .i1⟩
  | 43 => ⟨S_, .i1⟩
  | 44 => ⟨S400000, .i1⟩
  | 45 => ⟨S400000x128, .f32⟩
  | 46 => ⟨S400000x128, .i1⟩
  | 47 => ⟨S_, .f32⟩
  | 48 => ⟨S400000x128, .f32⟩
  | 49 => ⟨S400000x128, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S1, .i32⟩
  | 59 => ⟨S_, .i32⟩
  | 60 => ⟨S400000x1, .i32⟩
  | 61 => ⟨S400000x1, .i1⟩
  | 62 => ⟨S1x1, .i32⟩
  | 63 => ⟨S400000x1, .i32⟩
  | 64 => ⟨S400000x1, .i1⟩
  | 65 => ⟨S400000x1, .i1⟩
  | 66 => ⟨S_, .i1⟩
  | 67 => ⟨S400000, .i1⟩
  | 68 => ⟨S400000x128, .f32⟩
  | 69 => ⟨S400000x128, .i1⟩
  | 70 => ⟨S_, .f32⟩
  | 71 => ⟨S400000x128, .f32⟩
  | 72 => ⟨S400000x128, .f32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S1, .i32⟩
  | 82 => ⟨S_, .i32⟩
  | 83 => ⟨S400000x1, .i32⟩
  | 84 => ⟨S400000x1, .i1⟩
  | 85 => ⟨S1x1, .i32⟩
  | 86 => ⟨S400000x1, .i32⟩
  | 87 => ⟨S400000x1, .i1⟩
  | 88 => ⟨S400000x1, .i1⟩
  | 89 => ⟨S_, .i1⟩
  | 90 => ⟨S400000, .i1⟩
  | 91 => ⟨S400000x3, .f32⟩
  | 92 => ⟨S400000x3, .i1⟩
  | 93 => ⟨S_, .f32⟩
  | 94 => ⟨S400000x3, .f32⟩
  | 95 => ⟨S400000x3, .f32⟩
  | 96 => ⟨S_, .i32⟩
  | 97 => ⟨S400000, .i32⟩
  | 98 => ⟨S400000, .i1⟩
  | 99 => ⟨S_, .i32⟩
  | 100 => ⟨S400000, .i32⟩
  | 101 => ⟨S400000, .i32⟩
  | 102 => ⟨S400000, .i32⟩
  | 103 => ⟨S400000x1, .i32⟩
  | 104 => ⟨S1, .i32⟩
  | 105 => ⟨S_, .i32⟩
  | 106 => ⟨S400000x1, .i32⟩
  | 107 => ⟨S400000x1, .i1⟩
  | 108 => ⟨S1x1, .i32⟩
  | 109 => ⟨S400000x1, .i32⟩
  | 110 => ⟨S400000x1, .i1⟩
  | 111 => ⟨S400000x1, .i1⟩
  | 112 => ⟨S_, .i1⟩
  | 113 => ⟨S400000, .i1⟩
  | 114 => ⟨S400000x3, .f32⟩
  | 115 => ⟨S400000x3, .i1⟩
  | 116 => ⟨S_, .f32⟩
  | 117 => ⟨S400000x3, .f32⟩
  | 118 => ⟨S400000x3, .f32⟩
  | 119 => ⟨S400000x3, .f32⟩
  | 120 => ⟨S400000x3, .f32⟩
  | 121 => ⟨S_, .f32⟩
  | 122 => ⟨S400000, .f32⟩
  | 123 => ⟨S400000x1, .f32⟩
  | 124 => ⟨S_, .f32⟩
  | 125 => ⟨S400000x1, .f32⟩
  | 126 => ⟨S400000x1, .f32⟩
  | 127 => ⟨S400000x1, .f32⟩
  | _ => ⟨S25000x128, .f32⟩

abbrev hbmTy0_1 (i : Nat) : BufTy := match i % 128 with
  | 0 => ⟨S_, .f32⟩
  | 1 => ⟨S400000x1, .f32⟩
  | 2 => ⟨S400000x1, .f32⟩
  | 3 => ⟨S400000x3, .f32⟩
  | 4 => ⟨S400000x3, .f32⟩
  | 5 => ⟨S128x128, .f32⟩
  | 6 => ⟨S128x128, .f32⟩
  | 7 => ⟨S1x128, .f32⟩
  | 8 => ⟨S128, .f32⟩
  | 9 => ⟨S1x128, .f32⟩
  | 10 => ⟨S128, .f32⟩
  | 11 => ⟨S400000x128, .f32⟩
  | 12 => ⟨S400000x3, .f32⟩
  | 13 => ⟨S_, .f32⟩
  | 14 => ⟨S25000x3, .f32⟩
  | 15 => ⟨S400000x1, .i32⟩
  | 16 => ⟨S25000x3, .f32⟩
  | 17 => ⟨S25000x3, .f32⟩
  | 18 => ⟨S_, .f32⟩
  | 19 => ⟨S25000x128, .f32⟩
  | 20 => ⟨S400000x1, .i32⟩
  | 21 => ⟨S25000x128, .f32⟩
  | 22 => ⟨S25000x128, .f32⟩
  | _ => ⟨S25000x128, .f32⟩

abbrev hbmTy (i : Nat) : BufTy := match i / 128 with
  | 0 => hbmTy0_0 i
  | 1 => hbmTy0_1 i
  | _ => ⟨S25000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S2000x1, .f32⟩
  | .local _ .vmem, ⟨7, _⟩ => ⟨S2000x1, .f32⟩
  | .local _ .vmem, ⟨8, _⟩ => ⟨S2000x3, .f32⟩
  | .local _ .vmem, ⟨9, _⟩ => ⟨S2000x3, .f32⟩
  | .local _ .vmem, ⟨10, _⟩ => ⟨S128x128, .f32⟩
  | .local _ .vmem, ⟨11, _⟩ => ⟨S128x128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128x128, .f32⟩
  | .local _ .vmem, ⟨18, _⟩ => ⟨S128, .f32⟩
  | .local _ .vmem, ⟨19, _⟩ => ⟨S128, .f32⟩
  | .local _ .vmem, ⟨20, _⟩ => ⟨S128, .f32⟩
  | .local _ .vmem, ⟨21, _⟩ => ⟨S128x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S128x1, .f32⟩
  | .local _ .vmem, ⟨26, _⟩ => ⟨S2000x128, .f32⟩
  | .local _ .vmem, ⟨27, _⟩ => ⟨S2000x128, .f32⟩
  | .local _ .vmem, ⟨28, _⟩ => ⟨S2000x3, .f32⟩
  | .local _ .vmem, ⟨29, _⟩ => ⟨S2000x3, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S256x128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S128x128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | _, _ => ⟨S25000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v4 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v5 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v6 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v7 : Ref sig .tc := ⟨.hbm, 118, rfl⟩
abbrev main_v8 : Ref sig .tc := ⟨.hbm, 119, rfl⟩
abbrev main_v9 : Ref sig .tc := ⟨.hbm, 120, rfl⟩
abbrev main_cst : Ref sig .tc := ⟨.hbm, 121, rfl⟩
abbrev main_v10 : Ref sig .tc := ⟨.hbm, 122, rfl⟩
abbrev main_v11 : Ref sig .tc := ⟨.hbm, 123, rfl⟩
abbrev main_cst_0 : Ref sig .tc := ⟨.hbm, 124, rfl⟩
abbrev main_v12 : Ref sig .tc := ⟨.hbm, 125, rfl⟩
abbrev main_v13 : Ref sig .tc := ⟨.hbm, 126, rfl⟩
abbrev main_v14 : Ref sig .tc := ⟨.hbm, 127, rfl⟩
abbrev main_cst_1 : Ref sig .tc := ⟨.hbm, 128, rfl⟩
abbrev main_v15 : Ref sig .tc := ⟨.hbm, 129, rfl⟩
abbrev main_v16 : Ref sig .tc := ⟨.hbm, 130, rfl⟩
abbrev main_v17 : Ref sig .tc := ⟨.hbm, 131, rfl⟩
abbrev main_v18 : Ref sig .tc := ⟨.hbm, 132, rfl⟩
abbrev main_v19 : Ref sig .tc := ⟨.hbm, 133, rfl⟩
abbrev main_v20 : Ref sig .tc := ⟨.hbm, 134, rfl⟩
abbrev main_v21 : Ref sig .tc := ⟨.hbm, 135, rfl⟩
abbrev main_v22 : Ref sig .tc := ⟨.hbm, 136, rfl⟩
abbrev main_v23 : Ref sig .tc := ⟨.hbm, 137, rfl⟩
abbrev main_v24 : Ref sig .tc := ⟨.hbm, 138, rfl⟩
abbrev main_v25_0 : Ref sig .tc := ⟨.hbm, 139, rfl⟩
abbrev main_v25_1 : Ref sig .tc := ⟨.hbm, 140, rfl⟩
abbrev main_cst_2 : Ref sig .tc := ⟨.hbm, 141, rfl⟩
abbrev main_v26 : Ref sig .tc := ⟨.hbm, 142, rfl⟩
abbrev main_v27 : Ref sig .tc := ⟨.hbm, 143, rfl⟩
abbrev main_v28 : Ref sig .tc := ⟨.hbm, 144, rfl⟩
abbrev main_v29 : Ref sig .tc := ⟨.hbm, 145, rfl⟩
abbrev main_cst_3 : Ref sig .tc := ⟨.hbm, 146, rfl⟩
abbrev main_v30 : Ref sig .tc := ⟨.hbm, 147, rfl⟩
abbrev main_v31 : Ref sig .tc := ⟨.hbm, 148, rfl⟩
abbrev main_v32 : Ref sig .tc := ⟨.hbm, 149, rfl⟩
abbrev main_v33 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg3_0 : Ref sig .tc := ⟨.vmem, 35, rfl⟩
abbrev cc1_stg4_0 : Ref sig .tc := ⟨.vmem, 36, rfl⟩
abbrev cc1_stg5_0 : Ref sig .tc := ⟨.vmem, 37, rfl⟩
abbrev cc1_stg6_0 : Ref sig .tc := ⟨.vmem, 38, rfl⟩
abbrev cc1_stg7_0 : Ref sig .tc := ⟨.vmem, 39, rfl⟩
abbrev cc1_stg8_0 : Ref sig .tc := ⟨.vmem, 40, rfl⟩
abbrev cc1_stg8_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem21_1 : DmaSem sig := 27
abbrev cc0_sem22_0 : DmaSem sig := 28
abbrev cc0_sem22_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem3_0 : DmaSem sig := 35
abbrev cc1_sem4_0 : DmaSem sig := 36
abbrev cc1_sem5_0 : DmaSem sig := 37
abbrev cc1_sem6_0 : DmaSem sig := 38
abbrev cc1_sem7_0 : DmaSem sig := 39
abbrev cc1_sem8_0 : DmaSem sig := 40
abbrev cc1_sem8_1 : DmaSem sig := 41

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S2000x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2000x3 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  bcast_S400000_S400000x3_0 : S400000.BroadcastsInDim S400000x3 (![0] : Fin 1 → Fin S400000x3.rank)
  bcast_S_S400000x3 : S_.BroadcastsInDim S400000x3 (![] : Fin 0 → Fin S400000x3.rank)
  reducesTo_S400000x3_S400000_d1 : S400000x3.ReducesTo [1] S400000
  bcast_S400000x1_S400000x3_0_1 : S400000x1.BroadcastsInDim S400000x3 (![0, 1] : Fin 2 → Fin S400000x3.rank)
  slices_S258x128_S128x128_0_0 : S258x128.Slices ![0, 0] S128x128
  slices_S258x128_S128x128_128_0 : S258x128.Slices ![128, 0] S128x128
  slices_S258x128_S1x128_256_0 : S258x128.Slices ![256, 0] S1x128
  shapeCasts_S1x128_S128 : S1x128.ShapeCasts S128
  slices_S258x128_S1x128_257_0 : S258x128.Slices ![257, 0] S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S2000x1_S2000x128 : S2000x1.Broadcasts S2000x128
  broadcasts_S1x128_S2000x128 : S1x128.Broadcasts S2000x128
  reduces_S2000x128_S2000 : S2000x128.Reduces [1] S2000
  shapeCasts_S2000_S2000x1 : S2000.ShapeCasts S2000x1
  inb_S128x1_S128x1_0_0 : ∀ a, (![0, 0] : Fin 2 → Nat) a + S128x1.size a ≤ S128x1.size a
  h_S128x1 : 0 < S128x1.numel
  broadcasts_S2000x1_S2000x3 : S2000x1.Broadcasts S2000x3
  bcast_S_S25000x3 : S_.BroadcastsInDim S25000x3 (![] : Fin 0 → Fin S25000x3.rank)
  bcast_S_S25000x128 : S_.BroadcastsInDim S25000x128 (![] : Fin 0 → Fin S25000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S25000x128_S400000x1_S400000x128_1_0_n_n_0_1_1128_wf : GatherDims.WF S25000x128 S400000x1 S400000x128 [1] [0] [] [0] [] 1 ![1, 128]
  gather_S25000x3_S400000x1_S400000x3_1_0_n_n_0_1_13_wf : GatherDims.WF S25000x3 S400000x1 S400000x3 [1] [0] [] [0] [] 1 ![1, 3]
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  scatter_S25000x3_S400000x1_S400000x3_1_0_0_1_wf : ScatterDims.WF S25000x3 S400000x1 S400000x3 [1] [0] [0] 1
  scatter_S25000x128_S400000x1_S400000x128_1_0_0_1_wf : ScatterDims.WF S25000x128 S400000x1 S400000x128 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S400000x128.size a
  hwx0_0 : ∀ i : grid0.Coords, EltTy.bits .f32 = 32 ∨ (Rect.block (s := S400000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S400000x128.size a
  hwx0_1 : ∀ i : grid0.Coords, EltTy.bits .f32 = 32 ∨ (Rect.block (s := S400000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S400000x1.size a
  hwx0_2 : ∀ i : grid0.Coords, EltTy.bits .f32 = 32 ∨ (Rect.block (s := S400000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S400000x1.size a
  hwx0_3 : ∀ i : grid0.Coords, EltTy.bits .f32 = 32 ∨ (Rect.block (s := S400000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x3.size a ≤ S400000x3.size a
  hwx0_4 : ∀ i : grid0.Coords, EltTy.bits .f32 = 32 ∨ (Rect.block (s := S400000x3) S2000x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x128.size a
  hwx0_16 : ∀ i : grid0.Coords, EltTy.bits .f32 = 32 ∨ (Rect.block (s := S128x128) S128x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128.size a ≤ S128.size a
  hwx0_18 : ∀ i : grid0.Coords, EltTy.bits .f32 = 32 ∨ (Rect.block (s := S128) S128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128.size a ≤ S128.size a
  hwx0_19 : ∀ i : grid0.Coords, EltTy.bits .f32 = 32 ∨ (Rect.block (s := S128) S128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x1.size a ≤ S128x1.size a
  hwx0_20 : ∀ i : grid0.Coords, EltTy.bits .f32 = 32 ∨ (Rect.block (s := S128x1) S128x1.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2000x128.size a ≤ S400000x128.size a
  hwx0_21 : ∀ i : grid0.Coords, EltTy.bits .f32 = 32 ∨ (Rect.block (s := S400000x128) S2000x128.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S2000x3.size a ≤ S400000x3.size a
  hwx0_22 : ∀ i : grid0.Coords, EltTy.bits .f32 = 32 ∨ (Rect.block (s := S400000x3) S2000x3.size (cc0_transform_22 i) (hinb0_22 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S25000x128.size a
  hwx1_1 : ∀ i : grid1.Coords, EltTy.bits .f32 = 32 ∨ (Rect.block (s := S25000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S25000x128.size a
  hwx1_8 : ∀ i : grid1.Coords, EltTy.bits .f32 = 32 ∨ (Rect.block (s := S25000x128) S5000x128.size (cc1_transform_8 i) (hinb1_8 i)).WholeWords (EltTy.packing .f32)

variable [Facts₀]

def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def gather_S25000x3_S400000x1_S400000x3_1_0_n_n_0_1_13 : GatherDims S25000x3 S400000x1 S400000x3 where
  offsetDims := [1]
  collapsedSliceDims := [0]
  operandBatchingDims := []
  startIndicesBatchingDims := []
  startIndexMap := [0]
  indexVectorDim := 1
  sliceSizes := ![1, 3]
  wf := gather_S25000x3_S400000x1_S400000x3_1_0_n_n_0_1_13_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def scatter_S25000x3_S400000x1_S400000x3_1_0_0_1 : ScatterDims S25000x3 S400000x1 S400000x3 where
  updateWindowDims := [1]
  insertedWindowDims := [0]
  scatterDimsToOperandDims := [0]
  indexVectorDim := 1
  wf := scatter_S25000x3_S400000x1_S400000x3_1_0_0_1_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S2000x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg7) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg8) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg9) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg10) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg11) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg18) S128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg19) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg20) S128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg21) S128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg22) S128x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v25_0) S2000x128.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v25_1) S2000x3.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v33) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S25000x128 : Shape := ⟨2, ![25000, 128]⟩
abbrev S2x400000 : Shape := ⟨2, ![2, 400000]⟩
abbrev S25000x3 : Shape := ⟨2, ![25000, 3]⟩
abbrev S400000x1 : Shape := ⟨2, ![400000, 1]⟩
abbrev S258x128 : Shape := ⟨2, ![258, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x400000 : Shape := ⟨2, ![1, 400000]⟩
abbrev S400000 : Shape := ⟨1, ![400000]⟩
abbrev S_ : Shape := ⟨0, ![]⟩
abbrev S400000x3 : Shape := ⟨2, ![400000, 3]⟩
abbrev S400000x128 : Shape := ⟨2, ![400000, 128]⟩
abbrev S400000x258 : Shape := ⟨2, ![400000, 258]⟩
abbrev S1x128 : Shape := ⟨2, ![1, 128]⟩
abbrev S25000x256 : Shape := ⟨2, ![25000, 256]⟩
abbrev S25000 : Shape := ⟨1, ![25000]⟩
abbrev S25000x1 : Shape := ⟨2, ![25000, 1]⟩

abbrev nBuf : Space → Nat
  | .hbm => 264
  | .vmem => 0
  | .smem => 0
  | _ => 0

abbrev hbmTy0_0 (i : Nat) : BufTy := match i % 128 with
  | 0 => ⟨S25000x128, .f32⟩
  | 1 => ⟨S2x400000, .i32⟩
  | 2 => ⟨S25000x3, .f32⟩
  | 3 => ⟨S400000x1, .f32⟩
  | 4 => ⟨S258x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S256x128, .f32⟩
  | 13 => ⟨S128, .f32⟩
  | 14 => ⟨S128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128, .f32⟩
  | 21 => ⟨S128, .f32⟩
  | 22 => ⟨S128x1, .f32⟩
  | 23 => ⟨S1x400000, .i32⟩
  | 24 => ⟨S400000, .i32⟩
  | 25 => ⟨S1x400000, .i32⟩
  | 26 => ⟨S400000, .i32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S400000x3, .f32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x3, .f32⟩
  | 45 => ⟨S400000x3, .f32⟩
  | 46 => ⟨S400000x3, .f32⟩
  | 47 => ⟨S_, .f32⟩
  | 48 => ⟨S400000, .f32⟩
  | 49 => ⟨S400000x1, .f32⟩
  | 50 => ⟨S_, .f32⟩
  | 51 => ⟨S400000x1, .f32⟩
  | 52 => ⟨S400000x1, .f32⟩
  | 53 => ⟨S400000x1, .f32⟩
  | 54 => ⟨S_, .f32⟩
  | 55 => ⟨S400000x1, .f32⟩
  | 56 => ⟨S400000x1, .f32⟩
  | 57 => ⟨S400000x3, .f32⟩
  | 58 => ⟨S400000x3, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x128, .f32⟩
  | 68 => ⟨S_, .i32⟩
  | 69 => ⟨S400000, .i32⟩
  | 70 => ⟨S400000, .i1⟩
  | 71 => ⟨S_, .i32⟩
  | 72 => ⟨S400000, .i32⟩
  | 73 => ⟨S400000, .i32⟩
  | 74 => ⟨S400000, .i32⟩
  | 75 => ⟨S400000x1, .i32⟩
  | 76 => ⟨S400000x128, .f32⟩
  | 77 => ⟨S400000x258, .f32⟩
  | 78 => ⟨S400000x128, .f32⟩
  | 79 => ⟨S1x128, .f32⟩
  | 80 => ⟨S400000x128, .f32⟩
  | 81 => ⟨S400000x128, .f32⟩
  | 82 => ⟨S_, .f32⟩
  | 83 => ⟨S400000, .f32⟩
  | 84 => ⟨S400000x1, .f32⟩
  | 85 => ⟨S_, .f32⟩
  | 86 => ⟨S400000x1, .f32⟩
  | 87 => ⟨S400000x1, .f32⟩
  | 88 => ⟨S400000x128, .f32⟩
  | 89 => ⟨S400000x128, .f32⟩
  | 90 => ⟨S400000x128, .f32⟩
  | 91 => ⟨S_, .f32⟩
  | 92 => ⟨S400000, .f32⟩
  | 93 => ⟨S400000x1, .f32⟩
  | 94 => ⟨S_, .f32⟩
  | 95 => ⟨S400000x1, .f32⟩
  | 96 => ⟨S400000x1, .f32⟩
  | 97 => ⟨S400000x128, .f32⟩
  | 98 => ⟨S400000x128, .f32⟩
  | 99 => ⟨S_, .f32⟩
  | 100 => ⟨S400000x1, .f32⟩
  | 101 => ⟨S400000x1, .f32⟩
  | 102 => ⟨S400000x1, .f32⟩
  | 103 => ⟨S400000x128, .f32⟩
  | 104 => ⟨S400000x128, .f32⟩
  | 105 => ⟨S1x128, .f32⟩
  | 106 => ⟨S400000x128, .f32⟩
  | 107 => ⟨S400000x128, .f32⟩
  | 108 => ⟨S1x128, .f32⟩
  | 109 => ⟨S400000x128, .f32⟩
  | 110 => ⟨S400000x128, .f32⟩
  | 111 => ⟨S400000x128, .f32⟩
  | 112 => ⟨S400000x128, .f32⟩
  | 113 => ⟨S_, .f32⟩
  | 114 => ⟨S400000x128, .f32⟩
  | 115 => ⟨S400000x128, .f32⟩
  | 116 => ⟨S_, .f32⟩
  | 117 => ⟨S400000x128, .f32⟩
  | 118 => ⟨S400000x128, .f32⟩
  | 119 => ⟨S400000x128, .f32⟩
  | 120 => ⟨S400000x128, .f32⟩
  | 121 => ⟨S1x128, .f32⟩
  | 122 => ⟨S400000x128, .f32⟩
  | 123 => ⟨S400000x128, .f32⟩
  | 124 => ⟨S_, .f32⟩
  | 125 => ⟨S400000, .f32⟩
  | 126 => ⟨S400000x1, .f32⟩
  | 127 => ⟨S_, .f32⟩
  | _ => ⟨S25000x128, .f32⟩

abbrev hbmTy0_1 (i : Nat) : BufTy := match i % 128 with
  | 0 => ⟨S400000x1, .f32⟩
  | 1 => ⟨S400000x1, .f32⟩
  | 2 => ⟨S400000x128, .f32⟩
  | 3 => ⟨S400000x128, .f32⟩
  | 4 => ⟨S400000x128, .f32⟩
  | 5 => ⟨S_, .f32⟩
  | 6 => ⟨S400000, .f32⟩
  | 7 => ⟨S400000x1, .f32⟩
  | 8 => ⟨S_, .f32⟩
  | 9 => ⟨S400000x1, .f32⟩
  | 10 => ⟨S400000x1, .f32⟩
  | 11 => ⟨S400000x128, .f32⟩
  | 12 => ⟨S400000x128, .f32⟩
  | 13 => ⟨S_, .f32⟩
  | 14 => ⟨S400000x1, .f32⟩
  | 15 => ⟨S400000x1, .f32⟩
  | 16 => ⟨S400000x1, .f32⟩
  | 17 => ⟨S400000x128, .f32⟩
  | 18 => ⟨S400000x128, .f32⟩
  | 19 => ⟨S1x128, .f32⟩
  | 20 => ⟨S400000x128, .f32⟩
  | 21 => ⟨S400000x128, .f32⟩
  | 22 => ⟨S1x128, .f32⟩
  | 23 => ⟨S400000x128, .f32⟩
  | 24 => ⟨S400000x128, .f32⟩
  | 25 => ⟨S400000x128, .f32⟩
  | 26 => ⟨S400000x128, .f32⟩
  | 27 => ⟨S_, .f32⟩
  | 28 => ⟨S400000x128, .f32⟩
  | 29 => ⟨S400000x128, .f32⟩
  | 30 => ⟨S_, .f32⟩
  | 31 => ⟨S400000x128, .f32⟩
  | 32 => ⟨S400000x128, .f32⟩
  | 33 => ⟨S400000x128, .f32⟩
  | 34 => ⟨S400000x128, .f32⟩
  | 35 => ⟨S1x128, .f32⟩
  | 36 => ⟨S400000x128, .f32⟩
  | 37 => ⟨S400000x128, .f32⟩
  | 38 => ⟨S_, .f32⟩
  | 39 => ⟨S400000, .f32⟩
  | 40 => ⟨S400000x1, .f32⟩
  | 41 => ⟨S_, .f32⟩
  | 42 => ⟨S400000x1, .f32⟩
  | 43 => ⟨S400000x1, .f32⟩
  | 44 => ⟨S400000x128, .f32⟩
  | 45 => ⟨S400000x128, .f32⟩
  | 46 => ⟨S400000x128, .f32⟩
  | 47 => ⟨S_, .f32⟩
  | 48 => ⟨S400000, .f32⟩
  | 49 => ⟨S400000x1, .f32⟩
  | 50 => ⟨S_, .f32⟩
  | 51 => ⟨S400000x1, .f32⟩
  | 52 => ⟨S400000x1, .f32⟩
  | 53 => ⟨S400000x128, .f32⟩
  | 54 => ⟨S400000x128, .f32⟩
  | 55 => ⟨S_, .f32⟩
  | 56 => ⟨S400000x1, .f32⟩
  | 57 => ⟨S400000x1, .f32⟩
  | 58 => ⟨S400000x1, .f32⟩
  | 59 => ⟨S400000x128, .f32⟩
  | 60 => ⟨S400000x128, .f32⟩
  | 61 => ⟨S1x128, .f32⟩
  | 62 => ⟨S400000x128, .f32⟩
  | 63 => ⟨S400000x128, .f32⟩
  | 64 => ⟨S1x128, .f32⟩
  | 65 => ⟨S400000x128, .f32⟩
  | 66 => ⟨S400000x128, .f32⟩
  | 67 => ⟨S400000x128, .f32⟩
  | 68 => ⟨S400000x128, .f32⟩
  | 69 => ⟨S_, .f32⟩
  | 70 => ⟨S400000x128, .f32⟩
  | 71 => ⟨S400000x128, .f32⟩
  | 72 => ⟨S_, .f32⟩
  | 73 => ⟨S400000x128, .f32⟩
  | 74 => ⟨S400000x128, .f32⟩
  | 75 => ⟨S400000x128, .f32⟩
  | 76 => ⟨S400000x1, .f32⟩
  | 77 => ⟨S400000x3, .f32⟩
  | 78 => ⟨S400000x3, .f32⟩
  | 79 => ⟨S_, .f32⟩
  | 80 => ⟨S25000x3, .f32⟩
  | 81 => ⟨S400000x1, .i32⟩
  | 82 => ⟨S25000x3, .f32⟩
  | 83 => ⟨S25000x3, .f32⟩
  | 84 => ⟨S_, .f32⟩
  | 85 => ⟨S25000x128, .f32⟩
  | 86 => ⟨S400000x1, .i32⟩
  | 87 => ⟨S25000x128, .f32⟩
  | 88 => ⟨S25000x256, .f32⟩
  | 89 => ⟨S25000x128, .f32⟩
  | 90 => ⟨S1x128, .f32⟩
  | 91 => ⟨S25000x128, .f32⟩
  | 92 => ⟨S25000x128, .f32⟩
  | 93 => ⟨S_, .f32⟩
  | 94 => ⟨S25000, .f32⟩
  | 95 => ⟨S25000x1, .f32⟩
  | 96 => ⟨S_, .f32⟩
  | 97 => ⟨S25000x1, .f32⟩
  | 98 => ⟨S25000x1, .f32⟩
  | 99 => ⟨S25000x128, .f32⟩
  | 100 => ⟨S25000x128, .f32⟩
  | 101 => ⟨S25000x128, .f32⟩
  | 102 => ⟨S_, .f32⟩
  | 103 => ⟨S25000, .f32⟩
  | 104 => ⟨S25000x1, .f32⟩
  | 105 => ⟨S_, .f32⟩
  | 106 => ⟨S25000x1, .f32⟩
  | 107 => ⟨S25000x1, .f32⟩
  | 108 => ⟨S25000x128, .f32⟩
  | 109 => ⟨S25000x128, .f32⟩
  | 110 => ⟨S_, .f32⟩
  | 111 => ⟨S25000x1, .f32⟩
  | 112 => ⟨S25000x1, .f32⟩
  | 113 => ⟨S25000x1, .f32⟩
  | 114 => ⟨S25000x128, .f32⟩
  | 115 => ⟨S25000x128, .f32⟩
  | 116 => ⟨S1x128, .f32⟩
  | 117 => ⟨S25000x128, .f32⟩
  | 118 => ⟨S25000x128, .f32⟩
  | 119 => ⟨S1x128, .f32⟩
  | 120 => ⟨S25000x128, .f32⟩
  | 121 => ⟨S25000x128, .f32⟩
  | 122 => ⟨S25000x128, .f32⟩
  | 123 => ⟨S25000x128, .f32⟩
  | 124 => ⟨S_, .f32⟩
  | 125 => ⟨S25000x128, .f32⟩
  | 126 => ⟨S25000x128, .f32⟩
  | 127 => ⟨S_, .f32⟩
  | _ => ⟨S25000x128, .f32⟩

abbrev hbmTy0_2 (i : Nat) : BufTy := match i % 128 with
  | 0 => ⟨S25000x128, .f32⟩
  | 1 => ⟨S25000x128, .f32⟩
  | 2 => ⟨S25000x128, .f32⟩
  | 3 => ⟨S25000x128, .f32⟩
  | 4 => ⟨S1x128, .f32⟩
  | 5 => ⟨S25000x128, .f32⟩
  | 6 => ⟨S25000x128, .f32⟩
  | 7 => ⟨S25000x128, .f32⟩
  | _ => ⟨S25000x128, .f32⟩

abbrev hbmTy (i : Nat) : BufTy := match i / 128 with
  | 0 => hbmTy0_0 i
  | 1 => hbmTy0_1 i
  | 2 => hbmTy0_2 i
  | _ => ⟨S25000x128, .f32⟩

abbrev bufTy : (tb : Table) → Fin (tcTables nBuf tb) → BufTy
  | .hbm, ⟨i, _⟩ => hbmTy i
  | _, _ => ⟨S25000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_4 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_5 : Ref sig .tc := ⟨.hbm, 59, rfl⟩
abbrev main_v29 : Ref sig .tc := ⟨.hbm, 60, rfl⟩
abbrev main_v30 : Ref sig .tc := ⟨.hbm, 61, rfl⟩
abbrev main_c_6 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_7 : Ref sig .tc := ⟨.hbm, 68, rfl⟩
abbrev main_v36 : Ref sig .tc := ⟨.hbm, 69, rfl⟩
abbrev main_v37 : Ref sig .tc := ⟨.hbm, 70, rfl⟩
abbrev main_c_8 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_9 : Ref sig .tc := ⟨.hbm, 82, rfl⟩
abbrev main_v48 : Ref sig .tc := ⟨.hbm, 83, rfl⟩
abbrev main_v49 : Ref sig .tc := ⟨.hbm, 84, rfl⟩
abbrev main_cst_10 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_11 : Ref sig .tc := ⟨.hbm, 91, rfl⟩
abbrev main_v55 : Ref sig .tc := ⟨.hbm, 92, rfl⟩
abbrev main_v56 : Ref sig .tc := ⟨.hbm, 93, rfl⟩
abbrev main_cst_12 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_13 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_call0_v0 : Ref sig .tc := ⟨.hbm, 111, rfl⟩
abbrev main_call0_v1 : Ref sig .tc := ⟨.hbm, 112, rfl⟩
abbrev main_call0_cst : Ref sig .tc := ⟨.hbm, 113, rfl⟩
abbrev main_call0_v2 : Ref sig .tc := ⟨.hbm, 114, rfl⟩
abbrev main_call0_v3 : Ref sig .tc := ⟨.hbm, 115, rfl⟩
abbrev main_call0_cst_0 : Ref sig .tc := ⟨.hbm, 116, rfl⟩
abbrev main_call0_v4 : Ref sig .tc := ⟨.hbm, 117, rfl⟩
abbrev main_call0_v5 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_cst_14 : Ref sig .tc := ⟨.hbm, 124, rfl⟩
abbrev main_v77 : Ref sig .tc := ⟨.hbm, 125, rfl⟩
abbrev main_v78 : Ref sig .tc := ⟨.hbm, 126, rfl⟩
abbrev main_cst_15 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_cst_16 : Ref sig .tc := ⟨.hbm, 133, rfl⟩
abbrev main_v84 : Ref sig .tc := ⟨.hbm, 134, rfl⟩
abbrev main_v85 : Ref sig .tc := ⟨.hbm, 135, rfl⟩
abbrev main_cst_17 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_18 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_call1_v0 : Ref sig .tc := ⟨.hbm, 153, rfl⟩
abbrev main_call1_v1 : Ref sig .tc := ⟨.hbm, 154, rfl⟩
abbrev main_call1_cst : Ref sig .tc := ⟨.hbm, 155, rfl⟩
abbrev main_call1_v2 : Ref sig .tc := ⟨.hbm, 156, rfl⟩
abbrev main_call1_v3 : Ref sig .tc := ⟨.hbm, 157, rfl⟩
abbrev main_call1_cst_0 : Ref sig .tc := ⟨.hbm, 158, rfl⟩
abbrev main_call1_v4 : Ref sig .tc := ⟨.hbm, 159, rfl⟩
abbrev main_call1_v5 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_cst_19 : Ref sig .tc := ⟨.hbm, 166, rfl⟩
abbrev main_v106 : Ref sig .tc := ⟨.hbm, 167, rfl⟩
abbrev main_v107 : Ref sig .tc := ⟨.hbm, 168, rfl⟩
abbrev main_cst_20 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_cst_21 : Ref sig .tc := ⟨.hbm, 175, rfl⟩
abbrev main_v113 : Ref sig .tc := ⟨.hbm, 176, rfl⟩
abbrev main_v114 : Ref sig .tc := ⟨.hbm, 177, rfl⟩
abbrev main_cst_22 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_cst_23 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_call2_v0 : Ref sig .tc := ⟨.hbm, 195, rfl⟩
abbrev main_call2_v1 : Ref sig .tc := ⟨.hbm, 196, rfl⟩
abbrev main_call2_cst : Ref sig .tc := ⟨.hbm, 197, rfl⟩
abbrev main_call2_v2 : Ref sig .tc := ⟨.hbm, 198, rfl⟩
abbrev main_call2_v3 : Ref sig .tc := ⟨.hbm, 199, rfl⟩
abbrev main_call2_cst_0 : Ref sig .tc := ⟨.hbm, 200, rfl⟩
abbrev main_call2_v4 : Ref sig .tc := ⟨.hbm, 201, rfl⟩
abbrev main_call2_v5 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_24 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_cst_25 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_cst_26 : Ref sig .tc := ⟨.hbm, 221, rfl⟩
abbrev main_v146 : Ref sig .tc := ⟨.hbm, 222, rfl⟩
abbrev main_v147 : Ref sig .tc := ⟨.hbm, 223, rfl⟩
abbrev main_cst_27 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_cst_28 : Ref sig .tc := ⟨.hbm, 230, rfl⟩
abbrev main_v153 : Ref sig .tc := ⟨.hbm, 231, rfl⟩
abbrev main_v154 : Ref sig .tc := ⟨.hbm, 232, rfl⟩
abbrev main_cst_29 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_cst_30 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_call3_v0 : Ref sig .tc := ⟨.hbm, 250, rfl⟩
abbrev main_call3_v1 : Ref sig .tc := ⟨.hbm, 251, rfl⟩
abbrev main_call3_cst : Ref sig .tc := ⟨.hbm, 252, rfl⟩
abbrev main_call3_v2 : Ref sig .tc := ⟨.hbm, 253, rfl⟩
abbrev main_call3_v3 : Ref sig .tc := ⟨.hbm, 254, rfl⟩
abbrev main_call3_cst_0 : Ref sig .tc := ⟨.hbm, 255, rfl⟩
abbrev main_call3_v4 : Ref sig .tc := ⟨.hbm, 256, rfl⟩
abbrev main_call3_v5 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  reducesTo_S400000x3_S400000_d1 : S400000x3.ReducesTo [1] S400000
  h_S_ : 0 < S_.numel
  bcast_S_S400000x1 : S_.BroadcastsInDim S400000x1 (![] : Fin 0 → Fin S400000x1.rank)
  bcast_S400000x1_S400000x3_0_1 : S400000x1.BroadcastsInDim S400000x3 (![0, 1] : Fin 2 → Fin S400000x3.rank)
  concatenates_S400000x128_S400000x128_S400000x1_S400000x1_S400000x258_d1 : Shape.Concatenates [S400000x128, S400000x128, S400000x1, S400000x1] S400000x258 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  reducesTo_S400000x128_S400000_d1 : S400000x128.ReducesTo [1] S400000
  bcast_S400000x1_S400000x128_0_1 : S400000x1.BroadcastsInDim S400000x128 (![0, 1] : Fin 2 → Fin S400000x128.rank)
  bcast_S_S400000x128 : S_.BroadcastsInDim S400000x128 (![] : Fin 0 → Fin S400000x128.rank)
  bcast_S_S25000x3 : S_.BroadcastsInDim S25000x3 (![] : Fin 0 → Fin S25000x3.rank)
  bcast_S_S25000x128 : S_.BroadcastsInDim S25000x128 (![] : Fin 0 → Fin S25000x128.rank)
  concatenates_S25000x128_S25000x128_S25000x256_d1 : Shape.Concatenates [S25000x128, S25000x128] S25000x256 1
  bcast_S1x128_S25000x128_0_1 : S1x128.BroadcastsInDim S25000x128 (![0, 1] : Fin 2 → Fin S25000x128.rank)
  reducesTo_S25000x128_S25000_d1 : S25000x128.ReducesTo [1] S25000
  bcast_S25000_S25000x1_0 : S25000.BroadcastsInDim S25000x1 (![0] : Fin 1 → Fin S25000x1.rank)
  bcast_S_S25000x1 : S_.BroadcastsInDim S25000x1 (![] : Fin 0 → Fin S25000x1.rank)
  bcast_S25000x1_S25000x128_0_1 : S25000x1.BroadcastsInDim S25000x128 (![0, 1] : Fin 2 → Fin S25000x128.rank)
  gather_S25000x3_S400000x1_S400000x3_1_0_n_n_0_1_13_wf : GatherDims.WF S25000x3 S400000x1 S400000x3 [1] [0] [] [0] [] 1 ![1, 3]
  gather_S25000x128_S400000x1_S400000x128_1_0_n_n_0_1_1128_wf : GatherDims.WF S25000x128 S400000x1 S400000x128 [1] [0] [] [0] [] 1 ![1, 128]
  dot_S400000x258_S258x128_S400000x128_1_0_0_1_n_n_wf : DotDims.WF S400000x258 S258x128 S400000x128 [1] [0] [0] [1] [] []
  dot_S400000x128_S128x128_S400000x128_1_0_0_1_n_n_wf : DotDims.WF S400000x128 S128x128 S400000x128 [1] [0] [0] [1] [] []
  dot_S400000x128_S128x1_S400000x1_1_0_0_1_n_n_wf : DotDims.WF S400000x128 S128x1 S400000x1 [1] [0] [0] [1] [] []
  scatter_S25000x3_S400000x1_S400000x3_1_0_0_1_wf : ScatterDims.WF S25000x3 S400000x1 S400000x3 [1] [0] [0] 1
  scatter_S25000x128_S400000x1_S400000x128_1_0_0_1_wf : ScatterDims.WF S25000x128 S400000x1 S400000x128 [1] [0] [0] 1
  dot_S25000x256_S256x128_S25000x128_1_0_0_1_n_n_wf : DotDims.WF S25000x256 S256x128 S25000x128 [1] [0] [0] [1] [] []
  dot_S25000x128_S128x128_S25000x128_1_0_0_1_n_n_wf : DotDims.WF S25000x128 S128x128 S25000x128 [1] [0] [0] [1] [] []

variable [Facts₀]

def gather_S25000x3_S400000x1_S400000x3_1_0_n_n_0_1_13 : GatherDims S25000x3 S400000x1 S400000x3 where
  offsetDims := [1]
  collapsedSliceDims := [0]
  operandBatchingDims := []
  startIndicesBatchingDims := []
  startIndexMap := [0]
  indexVectorDim := 1
  sliceSizes := ![1, 3]
  wf := gather_S25000x3_S400000x1_S400000x3_1_0_n_n_0_1_13_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def dot_S400000x258_S258x128_S400000x128_1_0_0_1_n_n : DotDims S400000x258 S258x128 S400000x128 where
  lhsContracting := [1]
  rhsContracting := [0]
  lhsNonContracting := [0]
  rhsNonContracting := [1]
  lhsBatch := []
  rhsBatch := []
  wf := dot_S400000x258_S258x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf
def scatter_S25000x3_S400000x1_S400000x3_1_0_0_1 : ScatterDims S25000x3 S400000x1 S400000x3 where
  updateWindowDims := [1]
  insertedWindowDims := [0]
  scatterDimsToOperandDims := [0]
  indexVectorDim := 1
  wf := scatter_S25000x3_S400000x1_S400000x3_1_0_0_1_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def dot_S25000x256_S256x128_S25000x128_1_0_0_1_n_n : DotDims S25000x256 S256x128 S25000x128 where
  lhsContracting := [1]
  rhsContracting := [0]
  lhsNonContracting := [0]
  rhsNonContracting := [1]
  lhsBatch := []
  rhsBatch := []
  wf := dot_S25000x256_S256x128_S25000x128_1_0_0_1_n_n_wf
def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf

class Facts : Prop extends Facts₀ where

variable [Facts]
-- ==== Proof.LibSsa.lean ====
/-
  General lemmas about a straight line of host operations in static single assignment: every operation writes one
  buffer of its own, and no buffer is written twice. In such a line the contents a buffer holds at the end are decided
  where it is written: the operation's function applied to what its operands hold AT THE END, since nothing after an
  operand's own writer writes it again. One equation per operation, each about the fold of the whole line, none
  mentioning the rest of the line.
-/
import Idealize.ShloMosaic.Lib.StableHlo.Run

namespace Idealize.ShloMosaic.StableHlo

open Idealize.ShloMosaic Idealize.SL.Sem

variable {τ : Topo} {sig : RefSig} {Val : EltTy → Type}

/-- The line's operations write, one each and in order, exactly the references of the list `W`: the `k`-th operation
    writes the `k`-th reference and nothing else. -/
def WritesAre (ops : List (HloOp τ sig Val)) (W : List (Ref sig .tc)) : Prop :=
  List.Forall₂ (fun op w => op.writes = {(Proc.devRef .tc w : DevRef τ sig)}) ops W

/-- The fold over two lines one after the other is the second line's fold from where the first ends. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- What remains of the line after its first `j` operations writes what remains of the list. -/
theorem WritesAre.drop {ops : List (HloOp τ sig Val)} {W : List (Ref sig .tc)} (hW : WritesAre ops W) (j : ℕ) :
    WritesAre (ops.drop j) (W.drop j) := by
  unfold WritesAre at hW ⊢
  induction hW generalizing j with
  | nil => simp only [List.drop_nil]; exact List.Forall₂.nil
  | cons h t ih =>
    cases j with
    | zero => exact List.Forall₂.cons h t
    | succ j => simpa only [List.drop_succ_cons] using ih j

/-- A reference the line never writes holds at the end what it held at the start. -/
theorem after_keep {ops : List (HloOp τ sig Val)} {W : List (Ref sig .tc)} (hW : WritesAre ops W)
    (F0 : Valuation τ sig Val) {r : Ref sig .tc} (hr : r ∉ W) :
    after ops F0 (Proc.devRef .tc r) = F0 (Proc.devRef .tc r) := by
  unfold WritesAre at hW
  induction hW generalizing F0 with
  | nil => rfl
  | cons h _ ih =>
    rw [after_cons, ih _ fun hm => hr (List.mem_cons_of_mem _ hm), HloOp.result_of_not_mem]
    rw [h, Finset.mem_singleton]
    exact fun e => hr (Proc.devRef_injective _ e ▸ List.mem_cons_self)

/-- A reference no operation from the `k`-th on writes holds at the end what it held after the first `k` operations. -/
theorem after_eq_take {ops : List (HloOp τ sig Val)} {W : List (Ref sig .tc)} (hW : WritesAre ops W)
    (F0 : Valuation τ sig Val) (k : ℕ) {r : Ref sig .tc} (hr : r ∉ W.drop k) :
    after ops F0 (Proc.devRef .tc r) = after (ops.take k) F0 (Proc.devRef .tc r) := by
  conv_lhs => rw [← List.take_append_drop k ops, after_append]
  exact after_keep (hW.drop k) _ hr

/-- The reference the `k`-th operation writes, written by none after it, holds at the end that operation's result over
    what the first `k` operations leave. -/
theorem after_eq_result {ops : List (HloOp τ sig Val)} {W : List (Ref sig .tc)} (hW : WritesAre ops W)
    (F0 : Valuation τ sig Val) (k : ℕ) {op : HloOp τ sig Val} (hk : ops[k]? = some op) {y : Ref sig .tc}
    (hy' : y ∉ W.drop (k + 1)) :
    after ops F0 (Proc.devRef .tc y) = op.result (after (ops.take k) F0) (Proc.devRef .tc y) := by
  obtain ⟨hlt, rfl⟩ := List.getElem?_eq_some_iff.mp hk
  conv_lhs => rw [← List.take_append_drop k ops, after_append, List.drop_eq_getElem_cons hlt, after_cons]
  exact after_keep (hW.drop (k + 1)) _ hy'

/-- A constant: written by the `k`-th operation and by none after it, the reference ends at the constant. -/
theorem ssa_nullary {ops : List (HloOp τ sig Val)} {W : List (Ref sig .tc)} (hW : WritesAre ops W)
    (F0 : Valuation τ sig Val) (k : ℕ) {y : Ref sig .tc} {v : y.ty.Contents Val} {hy}
    (hk : ops[k]? = some (nullary y v hy)) (hy' : y ∉ W.drop (k + 1)) :
    after ops F0 (Proc.devRef .tc y) = v := by
  rw [after_eq_result hW F0 k hk hy']
  exact nullary_result y v hy _

/-- One operand: the result, written by the `k`-th operation and by none after it, ends at the function of what the
    operand ends at, the operand being written by no operation from the `k`-th on. -/
theorem ssa_unary {ops : List (HloOp τ sig Val)} {W : List (Ref sig .tc)} (hW : WritesAre ops W)
    (F0 : Valuation τ sig Val) (k : ℕ) {x y : Ref sig .tc} {f : x.ty.Contents Val → y.ty.Contents Val} {hx hy}
    (hk : ops[k]? = some (unary x y f hx hy)) (hx' : x ∉ W.drop k) (hy' : y ∉ W.drop (k + 1)) :
    after ops F0 (Proc.devRef .tc y) = f (after ops F0 (Proc.devRef .tc x)) := by
  rw [after_eq_result hW F0 k hk hy', after_eq_take hW F0 k hx']
  exact unary_result x y f hx hy _

/-- Two operands: as `ssa_unary`, both operands written by no operation from the `k`-th on. -/
theorem ssa_binary {ops : List (HloOp τ sig Val)} {W : List (Ref sig .tc)} (hW : WritesAre ops W)
    (F0 : Valuation τ sig Val) (k : ℕ) {a b y : Ref sig .tc}
    {f : a.ty.Contents Val → b.ty.Contents Val → y.ty.Contents Val} {ha hb hy}
    (hk : ops[k]? = some (binary a b y f ha hb hy)) (ha' : a ∉ W.drop k) (hb' : b ∉ W.drop k)
    (hy' : y ∉ W.drop (k + 1)) :
    after ops F0 (Proc.devRef .tc y) = f (after ops F0 (Proc.devRef .tc a)) (after ops F0 (Proc.devRef .tc b)) := by
  rw [after_eq_result hW F0 k hk hy', after_eq_take hW F0 k ha', after_eq_take hW F0 k hb']
  exact binary_result a b y f ha hb hy _

/-- Three operands: as `ssa_unary`, the three operands written by no operation from the `k`-th on. -/
theorem ssa_ternary {ops : List (HloOp τ sig Val)} {W : List (Ref sig .tc)} (hW : WritesAre ops W)
    (F0 : Valuation τ sig Val) (k : ℕ) {c a b y : Ref sig .tc}
    {f : c.ty.Contents Val → a.ty.Contents Val → b.ty.Contents Val → y.ty.Contents Val} {hc ha hb hy}
    (hk : ops[k]? = some (ternary c a b y f hc ha hb hy)) (hc' : c ∉ W.drop k) (ha' : a ∉ W.drop k)
    (hb' : b ∉ W.drop k) (hy' : y ∉ W.drop (k + 1)) :
    after ops F0 (Proc.devRef .tc y)
      = f (after ops F0 (Proc.devRef .tc c)) (after ops F0 (Proc.devRef .tc a)) (after ops F0 (Proc.devRef .tc b)) := by
  rw [after_eq_result hW F0 k hk hy', after_eq_take hW F0 k hc', after_eq_take hW F0 k ha', after_eq_take hW F0 k hb']
  exact ternary_result c a b y f hc ha hb hy _

/-- A reshape: the result ends at the operand's final contents, read in row-major order at the result's shape. -/
theorem ssa_reshape {ops : List (HloOp τ sig Val)} {W : List (Ref sig .tc)} (hW : WritesAre ops W)
    (F0 : Valuation τ sig Val) (k : ℕ) {x y : Ref sig .tc} {he : x.ty.elt = y.ty.elt}
    {hn : x.ty.shape.ShapeCasts y.ty.shape} {hx hy}
    (hk : ops[k]? = some (reshape x y he hn hx hy)) (hx' : x ∉ W.drop k) (hy' : y ∉ W.drop (k + 1)) :
    after ops F0 (Proc.devRef .tc y)
      = fun i => he ▸ shapeCast y.ty.shape (after ops F0 (Proc.devRef .tc x)) hn i := by
  rw [after_eq_result hW F0 k hk hy', after_eq_take hW F0 k hx']
  exact reshape_result x y he hn hx hy _

/-- A family of operands: the result ends at the function of the family of what the operands end at, every operand
    written by no operation from the `k`-th on. -/
theorem ssa_nary {n : ℕ} {ops : List (HloOp τ sig Val)} {W : List (Ref sig .tc)} (hW : WritesAre ops W)
    (F0 : Valuation τ sig Val) (k : ℕ) {xs : Fin n → Ref sig .tc} {y : Ref sig .tc}
    {f : ((j : Fin n) → (xs j).ty.Contents Val) → y.ty.Contents Val} {hxs hy}
    (hk : ops[k]? = some (nary xs y f hxs hy)) (hxs' : ∀ j, xs j ∉ W.drop k) (hy' : y ∉ W.drop (k + 1)) :
    after ops F0 (Proc.devRef .tc y) = f (fun j => after ops F0 (Proc.devRef .tc (xs j))) := by
  have hops : (fun j => after ops F0 (Proc.devRef .tc (xs j)))
      = fun j => after (ops.take k) F0 (Proc.devRef .tc (xs j)) :=
    funext fun j => after_eq_take hW F0 k (hxs' j)
  rw [after_eq_result hW F0 k hk hy', hops]
  exact nary_result xs y f hxs hy _

section Test

/- A line of three operations over any four distinct references: a constant into `a`, a function of `x` into `y`, a
   function of `y` and `a` into `z`. The stage equations, in program order, give `z`'s final contents in terms of
   what `x` held at the start. -/
example {x a y z : Ref sig .tc} (hxa : x ≠ a) (hxy : x ≠ y) (hxz : x ≠ z) (hay : a ≠ y) (haz : a ≠ z) (hyz : y ≠ z)
    (v : a.ty.Contents Val) (f : x.ty.Contents Val → y.ty.Contents Val)
    (g : y.ty.Contents Val → a.ty.Contents Val → z.ty.Contents Val) (hx ha hy hz) (F0 : Valuation τ sig Val) :
    after [nullary (τ := τ) a v ha, unary x y f hx hy, binary y a z g hy ha hz] F0 (Proc.devRef .tc z)
      = g (f (F0 (Proc.devRef .tc x))) v := by
  have hW : WritesAre [nullary (τ := τ) a v ha, unary x y f hx hy, binary y a z g hy ha hz] [a, y, z] :=
    .cons rfl (.cons rfl (.cons rfl .nil))
  have e0 := after_keep hW F0 (r := x) (by simp [hxa, hxy, hxz])
  have e1 := ssa_nullary hW F0 0 rfl (by simp [hay, haz])
  have e2 := ssa_unary hW F0 1 rfl (by simp [hxy, hxz]) (by simp [hyz])
  have e3 := ssa_binary hW F0 2 rfl (by simp [hyz]) (by simp [haz]) (by simp)
  rw [e3, e2, e1, e0]

end Test

end Idealize.ShloMosaic.StableHlo
-- ==== Proof.RefRun.lean ====
/-
  The reference program's run, one host operation at a time. Its @main is a straight line of host operations in single
  assignment: every operation writes one buffer of its own and no buffer is written twice. So what a buffer holds when the
  line ends is decided where it is written: the operation's function of what its operands hold at the end. Stage by stage,
  in program order, every buffer ends at its stage as a function of the arguments, and every weakly fair execution
  terminates with the two results at their stages and the arguments unchanged. -/
import proofs.«419454_j9414568313009_1_alg».proof.Proof.RunCut
import proofs.«419454_j9414568313009_1_alg».proof.Proof.ReadP
import proofs.«419454_j9414568313009_1_alg».proof.Proof.LibSsa

set_option maxRecDepth 65536

noncomputable section

namespace Cert.ReferenceIdeal.Line

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The buffers the line writes, in order. -/
abbrev wr : List (Ref sig .tc) :=
  [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_cst, main_v20, main_v21, main_cst_3, main_v22, main_v23, main_v24, main_cst_4, main_v25, main_v26, main_v27, main_v28, main_c_5, main_v29, main_v30, main_c_6, main_v31, main_v32, main_v33, main_v34, main_v35, main_c_7, main_v36, main_v37, main_c_8, main_v38, main_v39, main_v40, main_v41, main_v42, main_v43, main_v44, main_v45, main_v46, main_v47, main_cst_9, main_v48, main_v49, main_cst_10, main_v50, main_v51, main_v52, main_v53, main_v54, main_cst_11, main_v55, main_v56, main_cst_12, main_v57, main_v58, main_v59, main_v60, main_cst_13, main_v61, main_v62, main_v63, main_v64, main_v65, main_v66, main_v67, main_v68, main_v69, main_v70, main_v71, main_call0_v0, main_call0_v1, main_call0_cst, main_call0_v2, main_call0_v3, main_call0_cst_0, main_call0_v4, main_call0_v5, main_v72, main_v73, main_v74, main_v75, main_v76, main_cst_14, main_v77, main_v78, main_cst_15, main_v79, main_v80, main_v81, main_v82, main_v83, main_cst_16, main_v84, main_v85, main_cst_17, main_v86, main_v87, main_v88, main_v89, main_cst_18, main_v90, main_v91, main_v92, main_v93, main_v94, main_v95, main_v96, main_v97, main_v98, main_v99, main_v100, main_call1_v0, main_call1_v1, main_call1_cst, main_call1_v2, main_call1_v3, main_call1_cst_0, main_call1_v4, main_call1_v5, main_v101, main_v102, main_v103, main_v104, main_v105, main_cst_19, main_v106, main_v107, main_cst_20, main_v108, main_v109, main_v110, main_v111, main_v112, main_cst_21, main_v113, main_v114, main_cst_22, main_v115, main_v116, main_v117, main_v118, main_cst_23, main_v119, main_v120, main_v121, main_v122, main_v123, main_v124, main_v125, main_v126, main_v127, main_v128, main_v129, main_call2_v0, main_call2_v1, main_call2_cst, main_call2_v2, main_call2_v3, main_call2_cst_0, main_call2_v4, main_call2_v5, main_v130, main_v131, main_v132, main_v133, main_cst_24, main_v134, main_v135, main_v136, main_v137, main_cst_25, main_v138, main_v139, main_v140, main_v141, main_v142, main_v143, main_v144, main_v145, main_cst_26, main_v146, main_v147, main_cst_27, main_v148, main_v149, main_v150, main_v151, main_v152, main_cst_28, main_v153, main_v154, main_cst_29, main_v155, main_v156, main_v157, main_v158, main_cst_30, main_v159, main_v160, main_v161, main_v162, main_v163, main_v164, main_v165, main_v166, main_v167, main_v168, main_v169, main_call3_v0, main_call3_v1, main_call3_cst, main_call3_v2, main_call3_v3, main_call3_cst_0, main_call3_v4, main_call3_v5, main_v170, main_v171, main_v172, main_v173, main_v174, main_v175]

/-- Operation k writes buffer k of the list and nothing else. -/
theorem hW : WritesAre (ops (F := F)) wr :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))))))))))))))))))))))))))))))))))))))))))))))))))))))))))))))))))))))))))))))))))))))))))))))))))))))))))))))))))))))))))))))))))))))))))))))))))))))))))))))

/-- No operation allocates a buffer. -/
theorem ops_fresh : (ops : List (HloOp τ sig (Elt F))).Forall fun op => op.fresh = ∅ := by
  simp only [List.Forall]; repeat' constructor

variable (m : (ℓ : Loc nD τ sig) → Buf (Elt F) ℓ) (c : Dev nD)

/-! ## No operation writes an argument -/

theorem a_arg0 : after ops (launchContents m c) (Proc.devRef .tc main_arg0) = m ((c.tc : Thread nD τ).loc main_arg0) := after_keep hW _ (by decide)
theorem a_arg1 : after ops (launchContents m c) (Proc.devRef .tc main_arg1) = m ((c.tc : Thread nD τ).loc main_arg1) := after_keep hW _ (by decide)
theorem a_arg2 : after ops (launchContents m c) (Proc.devRef .tc main_arg2) = m ((c.tc : Thread nD τ).loc main_arg2) := after_keep hW _ (by decide)
theorem a_arg3 : after ops (launchContents m c) (Proc.devRef .tc main_arg3) = m ((c.tc : Thread nD τ).loc main_arg3) := after_keep hW _ (by decide)
theorem a_arg4 : after ops (launchContents m c) (Proc.devRef .tc main_arg4) = m ((c.tc : Thread nD τ).loc main_arg4) := after_keep hW _ (by decide)
theorem a_arg5 : after ops (launchContents m c) (Proc.devRef .tc main_arg5) = m ((c.tc : Thread nD τ).loc main_arg5) := after_keep hW _ (by decide)
theorem a_arg6 : after ops (launchContents m c) (Proc.devRef .tc main_arg6) = m ((c.tc : Thread nD τ).loc main_arg6) := after_keep hW _ (by decide)
theorem a_arg7 : after ops (launchContents m c) (Proc.devRef .tc main_arg7) = m ((c.tc : Thread nD τ).loc main_arg7) := after_keep hW _ (by decide)
theorem a_arg8 : after ops (launchContents m c) (Proc.devRef .tc main_arg8) = m ((c.tc : Thread nD τ).loc main_arg8) := after_keep hW _ (by decide)
theorem a_arg9 : after ops (launchContents m c) (Proc.devRef .tc main_arg9) = m ((c.tc : Thread nD τ).loc main_arg9) := after_keep hW _ (by decide)
theorem a_arg10 : after ops (launchContents m c) (Proc.devRef .tc main_arg10) = m ((c.tc : Thread nD τ).loc main_arg10) := after_keep hW _ (by decide)
theorem a_arg11 : after ops (launchContents m c) (Proc.devRef .tc main_arg11) = m ((c.tc : Thread nD τ).loc main_arg11) := after_keep hW _ (by decide)
theorem a_arg12 : after ops (launchContents m c) (Proc.devRef .tc main_arg12) = m ((c.tc : Thread nD τ).loc main_arg12) := after_keep hW _ (by decide)
theorem a_arg13 : after ops (launchContents m c) (Proc.devRef .tc main_arg13) = m ((c.tc : Thread nD τ).loc main_arg13) := after_keep hW _ (by decide)
theorem a_arg14 : after ops (launchContents m c) (Proc.devRef .tc main_arg14) = m ((c.tc : Thread nD τ).loc main_arg14) := after_keep hW _ (by decide)
theorem a_arg15 : after ops (launchContents m c) (Proc.devRef .tc main_arg15) = m ((c.tc : Thread nD τ).loc main_arg15) := after_keep hW _ (by decide)
theorem a_arg16 : after ops (launchContents m c) (Proc.devRef .tc main_arg16) = m ((c.tc : Thread nD τ).loc main_arg16) := after_keep hW _ (by decide)
theorem a_arg17 : after ops (launchContents m c) (Proc.devRef .tc main_arg17) = m ((c.tc : Thread nD τ).loc main_arg17) := after_keep hW _ (by decide)
theorem a_arg18 : after ops (launchContents m c) (Proc.devRef .tc main_arg18) = m ((c.tc : Thread nD τ).loc main_arg18) := after_keep hW _ (by decide)
theorem a_arg19 : after ops (launchContents m c) (Proc.devRef .tc main_arg19) = m ((c.tc : Thread nD τ).loc main_arg19) := after_keep hW _ (by decide)
theorem a_arg20 : after ops (launchContents m c) (Proc.devRef .tc main_arg20) = m ((c.tc : Thread nD τ).loc main_arg20) := after_keep hW _ (by decide)
theorem a_arg21 : after ops (launchContents m c) (Proc.devRef .tc main_arg21) = m ((c.tc : Thread nD τ).loc main_arg21) := after_keep hW _ (by decide)
theorem a_arg22 : after ops (launchContents m c) (Proc.devRef .tc main_arg22) = m ((c.tc : Thread nD τ).loc main_arg22) := after_keep hW _ (by decide)

/-! ## The stages, in program order -/

theorem s_v0 : (after ops (launchContents m c) (Proc.devRef .tc main_v0) : (⟨S1x400000, .i32⟩ : BufTy).Contents (Elt F)) = val_main_v0 (F := F) (m ((c.tc : Thread nD τ).loc main_arg1)) :=
  (ssa_unary hW _ 0 rfl (by decide) (by decide)).trans (by rw [a_arg1 m c]; rfl)
theorem s_v1 : (after ops (launchContents m c) (Proc.devRef .tc main_v1) : (⟨S400000, .i32⟩ : BufTy).Contents (Elt F)) = val_main_v1 (F := F) (m ((c.tc : Thread nD τ).loc main_arg1)) :=
  (ssa_reshape hW _ 1 rfl (by decide) (by decide)).trans (by rw [s_v0 m c]; rfl)
theorem s_v2 : (after ops (launchContents m c) (Proc.devRef .tc main_v2) : (⟨S1x400000, .i32⟩ : BufTy).Contents (Elt F)) = val_main_v2 (F := F) (m ((c.tc : Thread nD τ).loc main_arg1)) :=
  (ssa_unary hW _ 2 rfl (by decide) (by decide)).trans (by rw [a_arg1 m c]; rfl)
theorem s_v3 : (after ops (launchContents m c) (Proc.devRef .tc main_v3) : (⟨S400000, .i32⟩ : BufTy).Contents (Elt F)) = val_main_v3 (F := F) (m ((c.tc : Thread nD τ).loc main_arg1)) :=
  (ssa_reshape hW _ 3 rfl (by decide) (by decide)).trans (by rw [s_v2 m c]; rfl)
theorem s_c : (after ops (launchContents m c) (Proc.devRef .tc main_c) : (⟨S_, .i32⟩ : BufTy).Contents (Elt F)) = val_main_c (F := F) :=
  (ssa_nullary hW _ 4 rfl (by decide)).trans (by rfl)
theorem s_v4 : (after ops (launchContents m c) (Proc.devRef .tc main_v4) : (⟨S400000, .i32⟩ : BufTy).Contents (Elt F)) = val_main_v4 (F := F) :=
  (ssa_unary hW _ 5 rfl (by decide) (by decide)).trans (by rw [s_c m c]; rfl)
theorem s_v5 : (after ops (launchContents m c) (Proc.devRef .tc main_v5) : (⟨S400000, .i1⟩ : BufTy).Contents (Elt F)) = val_main_v5 (F := F) (m ((c.tc : Thread nD τ).loc main_arg1)) :=
  (ssa_binary hW _ 6 rfl (by decide) (by decide) (by decide)).trans (by rw [s_v1 m c, s_v4 m c]; rfl)
theorem s_c_0 : (after ops (launchContents m c) (Proc.devRef .tc main_c_0) : (⟨S_, .i32⟩ : BufTy).Contents (Elt F)) = val_main_c_0 (F := F) :=
  (ssa_nullary hW _ 7 rfl (by decide)).trans (by rfl)
theorem s_v6 : (after ops (launchContents m c) (Proc.devRef .tc main_v6) : (⟨S400000, .i32⟩ : BufTy).Contents (Elt F)) = val_main_v6 (F := F) :=
  (ssa_unary hW _ 8 rfl (by decide) (by decide)).trans (by rw [s_c_0 m c]; rfl)
theorem s_v7 : (after ops (launchContents m c) (Proc.devRef .tc main_v7) : (⟨S400000, .i32⟩ : BufTy).Contents (Elt F)) = val_main_v7 (F := F) (m ((c.tc : Thread nD τ).loc main_arg1)) :=
  (ssa_binary hW _ 9 rfl (by decide) (by decide) (by decide)).trans (by rw [s_v1 m c, s_v6 m c]; rfl)
theorem s_v8 : (after ops (launchContents m c) (Proc.devRef .tc main_v8) : (⟨S400000, .i32⟩ : BufTy).Contents (Elt F)) = val_main_v8 (F := F) (m ((c.tc : Thread nD τ).loc main_arg1)) :=
  (ssa_ternary hW _ 10 rfl (by decide) (by decide) (by decide) (by decide)).trans (by rw [s_v5 m c, s_v7 m c, s_v1 m c]; rfl)
theorem s_v9 : (after ops (launchContents m c) (Proc.devRef .tc main_v9) : (⟨S400000x1, .i32⟩ : BufTy).Contents (Elt F)) = val_main_v9 (F := F) (m ((c.tc : Thread nD τ).loc main_arg1)) :=
  (ssa_unary hW _ 11 rfl (by decide) (by decide)).trans (by rw [s_v8 m c]; rfl)
theorem s_v10 : (after ops (launchContents m c) (Proc.devRef .tc main_v10) : (⟨S400000x3, .f32⟩ : BufTy).Contents (Elt F)) = val_main_v10 (F := F) (m ((c.tc : Thread nD τ).loc main_arg1)) (m ((c.tc : Thread nD τ).loc main_arg2)) :=
  (ssa_binary hW _ 12 rfl (by decide) (by decide) (by decide)).trans (by rw [a_arg2 m c, s_v9 m c]; rfl)
theorem s_c_1 : (after ops (launchContents m c) (Proc.devRef .tc main_c_1) : (⟨S_, .i32⟩ : BufTy).Contents (Elt F)) = val_main_c_1 (F := F) :=
  (ssa_nullary hW _ 13 rfl (by decide)).trans (by rfl)
theorem s_v11 : (after ops (launchContents m c) (Proc.devRef .tc main_v11) : (⟨S400000, .i32⟩ : BufTy).Contents (Elt F)) = val_main_v11 (F := F) :=
  (ssa_unary hW _ 14 rfl (by decide) (by decide)).trans (by rw [s_c_1 m c]; rfl)
theorem s_v12 : (after ops (launchContents m c) (Proc.devRef .tc main_v12) : (⟨S400000, .i1⟩ : BufTy).Contents (Elt F)) = val_main_v12 (F := F) (m ((c.tc : Thread nD τ).loc main_arg1)) :=
  (ssa_binary hW _ 15 rfl (by decide) (by decide) (by decide)).trans (by rw [s_v3 m c, s_v11 m c]; rfl)
theorem s_c_2 : (after ops (launchContents m c) (Proc.devRef .tc main_c_2) : (⟨S_, .i32⟩ : BufTy).Contents (Elt F)) = val_main_c_2 (F := F) :=
  (ssa_nullary hW _ 16 rfl (by decide)).trans (by rfl)
theorem s_v13 : (after ops (launchContents m c) (Proc.devRef .tc main_v13) : (⟨S400000, .i32⟩ : BufTy).Contents (Elt F)) = val_main_v13 (F := F) :=
  (ssa_unary hW _ 17 rfl (by decide) (by decide)).trans (by rw [s_c_2 m c]; rfl)
theorem s_v14 : (after ops (launchContents m c) (Proc.devRef .tc main_v14) : (⟨S400000, .i32⟩ : BufTy).Contents (Elt F)) = val_main_v14 (F := F) (m ((c.tc : Thread nD τ).loc main_arg1)) :=
  (ssa_binary hW _ 18 rfl (by decide) (by decide) (by decide)).trans (by rw [s_v3 m c, s_v13 m c]; rfl)
theorem s_v15 : (after ops (launchContents m c) (Proc.devRef .tc main_v15) : (⟨S400000, .i32⟩ : BufTy).Contents (Elt F)) = val_main_v15 (F := F) (m ((c.tc : Thread nD τ).loc main_arg1)) :=
  (ssa_ternary hW _ 19 rfl (by decide) (by decide) (by decide) (by decide)).trans (by rw [s_v12 m c, s_v14 m c, s_v3 m c]; rfl)
theorem s_v16 : (after ops (launchContents m c) (Proc.devRef .tc main_v16) : (⟨S400000x1, .i32⟩ : BufTy).Contents (Elt F)) = val_main_v16 (F := F) (m ((c.tc : Thread nD τ).loc main_arg1)) :=
  (ssa_unary hW _ 20 rfl (by decide) (by decide)).trans (by rw [s_v15 m c]; rfl)
theorem s_v17 : (after ops (launchContents m c) (Proc.devRef .tc main_v17) : (⟨S400000x3, .f32⟩ : BufTy).Contents (Elt F)) = val_main_v17 (F := F) (m ((c.tc : Thread nD τ).loc main_arg1)) (m ((c.tc : Thread nD τ).loc main_arg2)) :=
  (ssa_binary hW _ 21 rfl (by decide) (by decide) (by decide)).trans (by rw [a_arg2 m c, s_v16 m c]; rfl)
theorem s_v18 : (after ops (launchContents m c) (Proc.devRef .tc main_v18) : (⟨S400000x3, .f32⟩ : BufTy).Contents (Elt F)) = val_main_v18 (F := F) (m ((c.tc : Thread nD τ).loc main_arg1)) (m ((c.tc : Thread nD τ).loc main_arg2)) :=
  (ssa_binary hW _ 22 rfl (by decide) (by decide) (by decide)).trans (by rw [s_v10 m c, s_v17 m c]; rfl)
theorem s_v19 : (after ops (launchContents m c) (Proc.devRef .tc main_v19) : (⟨S400000x3, .f32⟩ : BufTy).Contents (Elt F)) = val_main_v19 (F := F) (m ((c.tc : Thread nD τ).loc main_arg1)) (m ((c.tc : Thread nD τ).loc main_arg2)) :=
  (ssa_binary hW _ 23 rfl (by decide) (by decide) (by decide)).trans (by rw [s_v18 m c]; rfl)
theorem s_cst : (after ops (launchContents m c) (Proc.devRef .tc main_cst) : (⟨S_, .f32⟩ : BufTy).Contents (Elt F)) = val_main_cst (F := F) :=
  (ssa_nullary hW _ 24 rfl (by decide)).trans (by rfl)
theorem s_v20 : (after ops (launchContents m c) (Proc.devRef .tc main_v20) : (⟨S400000, .f32⟩ : BufTy).Contents (Elt F)) = val_main_v20 (F := F) (m ((c.tc : Thread nD τ).loc main_arg1)) (m ((c.tc : Thread nD τ).loc main_arg2)) :=
  (ssa_binary hW _ 25 rfl (by decide) (by decide) (by decide)).trans (by rw [s_v19 m c, s_cst m c]; rfl)
theorem s_v21 : (after ops (launchContents m c) (Proc.devRef .tc main_v21) : (⟨S400000x1, .f32⟩ : BufTy).Contents (Elt F)) = val_main_v21 (F := F) (m ((c.tc : Thread nD τ).loc main_arg1)) (m ((c.tc : Thread nD τ).loc main_arg2)) :=
  (ssa_unary hW _ 26 rfl (by decide) (by decide)).trans (by rw [s_v20 m c]; rfl)
theorem s_cst_3 : (after ops (launchContents m c) (Proc.devRef .tc main_cst_3) : (⟨S_, .f32⟩ : BufTy).Contents (Elt F)) = val_main_cst_3 (F := F) :=
  (ssa_nullary hW _ 27 rfl (by decide)).trans (by rfl)
theorem s_v22 : (after ops (launchContents m c) (Proc.devRef .tc main_v22) : (⟨S400000x1, .f32⟩ : BufTy).Contents (Elt F)) = val_main_v22 (F := F) :=
  (ssa_unary hW _ 28 rfl (by decide) (by decide)).trans (by rw [s_cst_3 m c]; rfl)
theorem s_v23 : (after ops (launchContents m c) (Proc.devRef .tc main_v23) : (⟨S400000x1, .f32⟩ : BufTy).Contents (Elt F)) = val_main_v23 (F := F) (m ((c.tc : Thread nD τ).loc main_arg1)) (m ((c.tc : Thread nD τ).loc main_arg2)) :=
  (ssa_binary hW _ 29 rfl (by decide) (by decide) (by decide)).trans (by rw [s_v21 m c, s_v22 m c]; rfl)
theorem s_v24 : (after ops (launchContents m c) (Proc.devRef .tc main_v24) : (⟨S400000x1, .f32⟩ : BufTy).Contents (Elt F)) = val_main_v24 (F := F) (m ((c.tc : Thread nD τ).loc main_arg1)) (m ((c.tc : Thread nD τ).loc main_arg2)) :=
  (ssa_unary hW _ 30 rfl (by decide) (by decide)).trans (by rw [s_v23 m c]; rfl)
theorem s_cst_4 : (after ops (launchContents m c) (Proc.devRef .tc main_cst_4) : (⟨S_, .f32⟩ : BufTy).Contents (Elt F)) = val_main_cst_4 (F := F) :=
  (ssa_nullary hW _ 31 rfl (by decide)).trans (by rfl)
theorem s_v25 : (after ops (launchContents m c) (Proc.devRef .tc main_v25) : (⟨S400000x1, .f32⟩ : BufTy).Contents (Elt F)) = val_main_v25 (F := F) :=
  (ssa_unary hW _ 32 rfl (by decide) (by decide)).trans (by rw [s_cst_4 m c]; rfl)
theorem s_v26 : (after ops (launchContents m c) (Proc.devRef .tc main_v26) : (⟨S400000x1, .f32⟩ : BufTy).Contents (Elt F)) = val_main_v26 (F := F) (m ((c.tc : Thread nD τ).loc main_arg1)) (m ((c.tc : Thread nD τ).loc main_arg2)) :=
  (ssa_binary hW _ 33 rfl (by decide) (by decide) (by decide)).trans (by rw [s_v24 m c, s_v25 m c]; rfl)
theorem s_v27 : (after ops (launchContents m c) (Proc.devRef .tc main_v27) : (⟨S400000x3, .f32⟩ : BufTy).Contents (Elt F)) = val_main_v27 (F := F) (m ((c.tc : Thread nD τ).loc main_arg1)) (m ((c.tc : Thread nD τ).loc main_arg2)) :=
  (ssa_unary hW _ 34 rfl (by decide) (by decide)).trans (by rw [s_v26 m c]; rfl)
theorem s_v28 : (after ops (launchContents m c) (Proc.devRef .tc main_v28) : (⟨S400000x3, .f32⟩ : BufTy).Contents (Elt F)) = val_main_v28 (F := F) (m ((c.tc : Thread nD τ).loc main_arg1)) (m ((c.tc : Thread nD τ).loc main_arg2)) :=
  (ssa_binary hW _ 35 rfl (by decide) (by decide) (by decide)).trans (by rw [s_v18 m c, s_v27 m c]; rfl)
theorem s_c_5 : (after ops (launchContents m c) (Proc.devRef .tc main_c_5) : (⟨S_, .i32⟩ : BufTy).Contents (Elt F)) = val_main_c_5 (F := F) :=
  (ssa_nullary hW _ 36 rfl (by decide)).trans (by rfl)
theorem s_v29 : (after ops (launchContents m c) (Proc.devRef .tc main_v29) : (⟨S400000, .i32⟩ : BufTy).Contents (Elt F)) = val_main_v29 (F := F) :=
  (ssa_unary hW _ 37 rfl (by decide) (by decide)).trans (by rw [s_c_5 m c]; rfl)
theorem s_v30 : (after ops (launchContents m c) (Proc.devRef .tc main_v30) : (⟨S400000, .i1⟩ : BufTy).Contents (Elt F)) = val_main_v30 (F := F) (m ((c.tc : Thread nD τ).loc main_arg1)) :=
  (ssa_binary hW _ 38 rfl (by decide) (by decide) (by decide)).trans (by rw [s_v1 m c, s_v29 m c]; rfl)
theorem s_c_6 : (after ops (launchContents m c) (Proc.devRef .tc main_c_6) : (⟨S_, .i32⟩ : BufTy).Contents (Elt F)) = val_main_c_6 (F := F) :=
  (ssa_nullary hW _ 39 rfl (by decide)).trans (by rfl)
theorem s_v31 : (after ops (launchContents m c) (Proc.devRef .tc main_v31) : (⟨S400000, .i32⟩ : BufTy).Contents (Elt F)) = val_main_v31 (F := F) :=
  (ssa_unary hW _ 40 rfl (by decide) (by decide)).trans (by rw [s_c_6 m c]; rfl)
theorem s_v32 : (after ops (launchContents m c) (Proc.devRef .tc main_v32) : (⟨S400000, .i32⟩ : BufTy).Contents (Elt F)) = val_main_v32 (F := F) (m ((c.tc : Thread nD τ).loc main_arg1)) :=
  (ssa_binary hW _ 41 rfl (by decide) (by decide) (by decide)).trans (by rw [s_v1 m c, s_v31 m c]; rfl)
theorem s_v33 : (after ops (launchContents m c) (Proc.devRef .tc main_v33) : (⟨S400000, .i32⟩ : BufTy).Contents (Elt F)) = val_main_v33 (F := F) (m ((c.tc : Thread nD τ).loc main_arg1)) :=
  (ssa_ternary hW _ 42 rfl (by decide) (by decide) (by decide) (by decide)).trans (by rw [s_v30 m c, s_v32 m c, s_v1 m c]; rfl)
theorem s_v34 : (after ops (launchContents m c) (Proc.devRef .tc main_v34) : (⟨S400000x1, .i32⟩ : BufTy).Contents (Elt F)) = val_main_v34 (F := F) (m ((c.tc : Thread nD τ).loc main_arg1)) :=
  (ssa_unary hW _ 43 rfl (by decide) (by decide)).trans (by rw [s_v33 m c]; rfl)
theorem s_v35 : (after ops (launchContents m c) (Proc.devRef .tc main_v35) : (⟨S400000x128, .f32⟩ : BufTy).Contents (Elt F)) = val_main_v35 (F := F) (m ((c.tc : Thread nD τ).loc main_arg0)) (m ((c.tc : Thread nD τ).loc main_arg1)) :=
  (ssa_binary hW _ 44 rfl (by decide) (by decide) (by decide)).trans (by rw [a_arg0 m c, s_v34 m c]; rfl)
theorem s_c_7 : (after ops (launchContents m c) (Proc.devRef .tc main_c_7) : (⟨S_, .i32⟩ : BufTy).Contents (Elt F)) = val_main_c_7 (F := F) :=
  (ssa_nullary hW _ 45 rfl (by decide)).trans (by rfl)
theorem s_v36 : (after ops (launchContents m c) (Proc.devRef .tc main_v36) : (⟨S400000, .i32⟩ : BufTy).Contents (Elt F)) = val_main_v36 (F := F) :=
  (ssa_unary hW _ 46 rfl (by decide) (by decide)).trans (by rw [s_c_7 m c]; rfl)
theorem s_v37 : (after ops (launchContents m c) (Proc.devRef .tc main_v37) : (⟨S400000, .i1⟩ : BufTy).Contents (Elt F)) = val_main_v37 (F := F) (m ((c.tc : Thread nD τ).loc main_arg1)) :=
  (ssa_binary hW _ 47 rfl (by decide) (by decide) (by decide)).trans (by rw [s_v3 m c, s_v36 m c]; rfl)
theorem s_c_8 : (after ops (launchContents m c) (Proc.devRef .tc main_c_8) : (⟨S_, .i32⟩ : BufTy).Contents (Elt F)) = val_main_c_8 (F := F) :=
  (ssa_nullary hW _ 48 rfl (by decide)).trans (by rfl)
theorem s_v38 : (after ops (launchContents m c) (Proc.devRef .tc main_v38) : (⟨S400000, .i32⟩ : BufTy).Contents (Elt F)) = val_main_v38 (F := F) :=
  (ssa_unary hW _ 49 rfl (by decide) (by decide)).trans (by rw [s_c_8 m c]; rfl)
theorem s_v39 : (after ops (launchContents m c) (Proc.devRef .tc main_v39) : (⟨S400000, .i32⟩ : BufTy).Contents (Elt F)) = val_main_v39 (F := F) (m ((c.tc : Thread nD τ).loc main_arg1)) :=
  (ssa_binary hW _ 50 rfl (by decide) (by decide) (by decide)).trans (by rw [s_v3 m c, s_v38 m c]; rfl)
theorem s_v40 : (after ops (launchContents m c) (Proc.devRef .tc main_v40) : (⟨S400000, .i32⟩ : BufTy).Contents (Elt F)) = val_main_v40 (F := F) (m ((c.tc : Thread nD τ).loc main_arg1)) :=
  (ssa_ternary hW _ 51 rfl (by decide) (by decide) (by decide) (by decide)).trans (by rw [s_v37 m c, s_v39 m c, s_v3 m c]; rfl)
theorem s_v41 : (after ops (launchContents m c) (Proc.devRef .tc main_v41) : (⟨S400000x1, .i32⟩ : BufTy).Contents (Elt F)) = val_main_v41 (F := F) (m ((c.tc : Thread nD τ).loc main_arg1)) :=
  (ssa_unary hW _ 52 rfl (by decide) (by decide)).trans (by rw [s_v40 m c]; rfl)
theorem s_v42 : (after ops (launchContents m c) (Proc.devRef .tc main_v42) : (⟨S400000x128, .f32⟩ : BufTy).Contents (Elt F)) = val_main_v42 (F := F) (m ((c.tc : Thread nD τ).loc main_arg0)) (m ((c.tc : Thread nD τ).loc main_arg1)) :=
  (ssa_binary hW _ 53 rfl (by decide) (by decide) (by decide)).trans (by rw [a_arg0 m c, s_v41 m c]; rfl)
theorem s_v43 : (after ops (launchContents m c) (Proc.devRef .tc main_v43) : (⟨S400000x258, .f32⟩ : BufTy).Contents (Elt F)) = val_main_v43 (F := F) (m ((c.tc : Thread nD τ).loc main_arg0)) (m ((c.tc : Thread nD τ).loc main_arg1)) (m ((c.tc : Thread nD τ).loc main_arg2)) (m ((c.tc : Thread nD τ).loc main_arg3)) :=
  (ssa_nary hW _ 54 rfl (fun j => by fin_cases j <;> decide) (by decide)).trans (by
    show concatenate S400000x258 1 [⟨S400000x128, after ops (launchContents m c) (Proc.devRef .tc main_v35)⟩, ⟨S400000x128, after ops (launchContents m c) (Proc.devRef .tc main_v42)⟩, ⟨S400000x1, after ops (launchContents m c) (Proc.devRef .tc main_v21)⟩, ⟨S400000x1, after ops (launchContents m c) (Proc.devRef .tc main_arg3)⟩] concatenates_S400000x128_S400000x128_S400000x1_S400000x1_S400000x258_d1 = _
    rw [s_v35 m c, s_v42 m c, s_v21 m c, a_arg3 m c]; rfl)
theorem s_v44 : (after ops (launchContents m c) (Proc.devRef .tc main_v44) : (⟨S400000x128, .f32⟩ : BufTy).Contents (Elt F)) = val_main_v44 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (ssa_binary hW _ 55 rfl (by decide) (by decide) (by decide)).trans (by rw [s_v43 m c, a_arg4 m c]; rfl)
theorem s_v45 : (after ops (launchContents m c) (Proc.devRef .tc main_v45) : (⟨S1x128, .f32⟩ : BufTy).Contents (Elt F)) = val_main_v45 (F := F) (m ((c.tc : Thread nD τ).loc main_arg5)) :=
  (ssa_unary hW _ 56 rfl (by decide) (by decide)).trans (by rw [a_arg5 m c]; rfl)
theorem s_v46 : (after ops (launchContents m c) (Proc.devRef .tc main_v46) : (⟨S400000x128, .f32⟩ : BufTy).Contents (Elt F)) = val_main_v46 (F := F) (m ((c.tc : Thread nD τ).loc main_arg5)) :=
  (ssa_unary hW _ 57 rfl (by decide) (by decide)).trans (by rw [s_v45 m c]; rfl)
theorem s_v47 : (after ops (launchContents m c) (Proc.devRef .tc main_v47) : (⟨S400000x128, .f32⟩ : BufTy).Contents (Elt F)) = val_main_v47 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_binary hW _ 58 rfl (by decide) (by decide) (by decide)).trans (by rw [s_v44 m c, s_v46 m c]; rfl)
theorem s_cst_9 : (after ops (launchContents m c) (Proc.devRef .tc main_cst_9) : (⟨S_, .f32⟩ : BufTy).Contents (Elt F)) = val_main_cst_9 (F := F) :=
  (ssa_nullary hW _ 59 rfl (by decide)).trans (by rfl)
theorem s_v48 : (after ops (launchContents m c) (Proc.devRef .tc main_v48) : (⟨S400000, .f32⟩ : BufTy).Contents (Elt F)) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_binary hW _ 60 rfl (by decide) (by decide) (by decide)).trans (by rw [s_v47 m c, s_cst_9 m c]; rfl)
theorem s_v49 : (after ops (launchContents m c) (Proc.devRef .tc main_v49) : (⟨S400000x1, .f32⟩ : BufTy).Contents (Elt F)) = val_main_v49 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_unary hW _ 61 rfl (by decide) (by decide)).trans (by rw [s_v48 m c]; rfl)
theorem s_cst_10 : (after ops (launchContents m c) (Proc.devRef .tc main_cst_10) : (⟨S_, .f32⟩ : BufTy).Contents (Elt F)) = val_main_cst_10 (F := F) :=
  (ssa_nullary hW _ 62 rfl (by decide)).trans (by rfl)
theorem s_v50 : (after ops (launchContents m c) (Proc.devRef .tc main_v50) : (⟨S400000x1, .f32⟩ : BufTy).Contents (Elt F)) = val_main_v50 (F := F) :=
  (ssa_unary hW _ 63 rfl (by decide) (by decide)).trans (by rw [s_cst_10 m c]; rfl)
theorem s_v51 : (after ops (launchContents m c) (Proc.devRef .tc main_v51) : (⟨S400000x1, .f32⟩ : BufTy).Contents (Elt F)) = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_binary hW _ 64 rfl (by decide) (by decide) (by decide)).trans (by rw [s_v49 m c, s_v50 m c]; rfl)
theorem s_v52 : (after ops (launchContents m c) (Proc.devRef .tc main_v52) : (⟨S400000x128, .f32⟩ : BufTy).Contents (Elt F)) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_unary hW _ 65 rfl (by decide) (by decide)).trans (by rw [s_v51 m c]; rfl)
theorem s_v53 : (after ops (launchContents m c) (Proc.devRef .tc main_v53) : (⟨S400000x128, .f32⟩ : BufTy).Contents (Elt F)) = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_binary hW _ 66 rfl (by decide) (by decide) (by decide)).trans (by rw [s_v47 m c, s_v52 m c]; rfl)
theorem s_v54 : (after ops (launchContents m c) (Proc.devRef .tc main_v54) : (⟨S400000x128, .f32⟩ : BufTy).Contents (Elt F)) = val_main_v54 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_binary hW _ 67 rfl (by decide) (by decide) (by decide)).trans (by rw [s_v53 m c]; rfl)
theorem s_cst_11 : (after ops (launchContents m c) (Proc.devRef .tc main_cst_11) : (⟨S_, .f32⟩ : BufTy).Contents (Elt F)) = val_main_cst_11 (F := F) :=
  (ssa_nullary hW _ 68 rfl (by decide)).trans (by rfl)
theorem s_v55 : (after ops (launchContents m c) (Proc.devRef .tc main_v55) : (⟨S400000, .f32⟩ : BufTy).Contents (Elt F)) = val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_binary hW _ 69 rfl (by decide) (by decide) (by decide)).trans (by rw [s_v54 m c, s_cst_11 m c]; rfl)
theorem s_v56 : (after ops (launchContents m c) (Proc.devRef .tc main_v56) : (⟨S400000x1, .f32⟩ : BufTy).Contents (Elt F)) = val_main_v56 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_unary hW _ 70 rfl (by decide) (by decide)).trans (by rw [s_v55 m c]; rfl)
theorem s_cst_12 : (after ops (launchContents m c) (Proc.devRef .tc main_cst_12) : (⟨S_, .f32⟩ : BufTy).Contents (Elt F)) = val_main_cst_12 (F := F) :=
  (ssa_nullary hW _ 71 rfl (by decide)).trans (by rfl)
theorem s_v57 : (after ops (launchContents m c) (Proc.devRef .tc main_v57) : (⟨S400000x1, .f32⟩ : BufTy).Contents (Elt F)) = val_main_v57 (F := F) :=
  (ssa_unary hW _ 72 rfl (by decide) (by decide)).trans (by rw [s_cst_12 m c]; rfl)
theorem s_v58 : (after ops (launchContents m c) (Proc.devRef .tc main_v58) : (⟨S400000x1, .f32⟩ : BufTy).Contents (Elt F)) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_binary hW _ 73 rfl (by decide) (by decide) (by decide)).trans (by rw [s_v56 m c, s_v57 m c]; rfl)
theorem s_v59 : (after ops (launchContents m c) (Proc.devRef .tc main_v59) : (⟨S400000x128, .f32⟩ : BufTy).Contents (Elt F)) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_unary hW _ 74 rfl (by decide) (by decide)).trans (by rw [s_v51 m c]; rfl)
theorem s_v60 : (after ops (launchContents m c) (Proc.devRef .tc main_v60) : (⟨S400000x128, .f32⟩ : BufTy).Contents (Elt F)) = val_main_v60 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_binary hW _ 75 rfl (by decide) (by decide) (by decide)).trans (by rw [s_v47 m c, s_v59 m c]; rfl)
theorem s_cst_13 : (after ops (launchContents m c) (Proc.devRef .tc main_cst_13) : (⟨S_, .f32⟩ : BufTy).Contents (Elt F)) = val_main_cst_13 (F := F) :=
  (ssa_nullary hW _ 76 rfl (by decide)).trans (by rfl)
theorem s_v61 : (after ops (launchContents m c) (Proc.devRef .tc main_v61) : (⟨S400000x1, .f32⟩ : BufTy).Contents (Elt F)) = val_main_v61 (F := F) :=
  (ssa_unary hW _ 77 rfl (by decide) (by decide)).trans (by rw [s_cst_13 m c]; rfl)
theorem s_v62 : (after ops (launchContents m c) (Proc.devRef .tc main_v62) : (⟨S400000x1, .f32⟩ : BufTy).Contents (Elt F)) = val_main_v62 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_binary hW _ 78 rfl (by decide) (by decide) (by decide)).trans (by rw [s_v58 m c, s_v61 m c]; rfl)
theorem s_v63 : (after ops (launchContents m c) (Proc.devRef .tc main_v63) : (⟨S400000x1, .f32⟩ : BufTy).Contents (Elt F)) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_unary hW _ 79 rfl (by decide) (by decide)).trans (by rw [s_v62 m c]; rfl)
theorem s_v64 : (after ops (launchContents m c) (Proc.devRef .tc main_v64) : (⟨S400000x128, .f32⟩ : BufTy).Contents (Elt F)) = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_unary hW _ 80 rfl (by decide) (by decide)).trans (by rw [s_v63 m c]; rfl)
theorem s_v65 : (after ops (launchContents m c) (Proc.devRef .tc main_v65) : (⟨S400000x128, .f32⟩ : BufTy).Contents (Elt F)) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ssa_binary hW _ 81 rfl (by decide) (by decide) (by decide)).trans (by rw [s_v60 m c, s_v64 m c]; rfl)
theorem s_v66 : (after ops (launchContents m c) (Proc.devRef .tc main_v66) : (⟨S1x128, .f32⟩ : BufTy).Contents (Elt F)) = val_main_v66 (F := F) (m ((c.tc : Thread nD τ).loc main_arg6)) :=
  (ssa_unary hW _ 82 rfl (by decide) (by decide)).trans (by rw [a_arg6 m c]; rfl)
theorem s_v67 : (after ops (launchContents m c) (Proc.devRef .tc main_v67) : (⟨S400000x128, .f32⟩ : BufTy).Contents (Elt F)) = val_main_v67 (F := F) (m ((c.tc : Thread nD τ).loc main_arg6)) :=
  (ssa_unary hW _ 83 rfl (by decide) (by decide)).trans (by rw [s_v66 m c]; rfl)
theorem s_v68 : (after ops (launchContents m c) (Proc.devRef .tc main_v68) : (⟨S400000x128, .f32⟩ : BufTy).Contents (Elt F)) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (ssa_binary hW _ 84 rfl (by decide) (by decide) (by decide)).trans (by rw [s_v65 m c, s_v67 m c]; rfl)
theorem s_v69 : (after ops (launchContents m c) (Proc.devRef .tc main_v69) : (⟨S1x128, .f32⟩ : BufTy).Contents (Elt F)) = val_main_v69 (F := F) (m ((c.tc : Thread nD τ).loc main_arg7)) :=
  (ssa_unary hW _ 85 rfl (by decide) (by decide)).trans (by rw [a_arg7 m c]; rfl)
theorem s_v70 : (after ops (launchContents m c) (Proc.devRef .tc main_v70) : (⟨S400000x128, .f32⟩ : BufTy).Contents (Elt F)) = val_main_v70 (F := F) (m ((c.tc : Thread nD τ).loc main_arg7)) :=
  (ssa_unary hW _ 86 rfl (by decide) (by decide)).trans (by rw [s_v69 m c]; rfl)
theorem s_v71 : (after ops (launchContents m c) (Proc.devRef .tc main_v71) : (⟨S400000x128, .f32⟩ : BufTy).Contents (Elt F)) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (ssa_binary hW _ 87 rfl (by decide) (by decide) (by decide)).trans (by rw [s_v68 m c, s_v70 m c]; rfl)
theorem s_call0_v0 : (after ops (launchContents m c) (Proc.devRef .tc main_call0_v0) : (⟨S400000x128, .f32⟩ : BufTy).Contents (Elt F)) = val_main_call0_v0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (ssa_unary hW _ 88 rfl (by decide) (by decide)).trans (by rw [s_v71 m c]; (try simp only [TRef.ofBuf, TRef.toBuf, cast_eq]); rfl)
theorem s_call0_v1 : (after ops (launchContents m c) (Proc.devRef .tc main_call0_v1) : (⟨S400000x128, .f32⟩ : BufTy).Contents (Elt F)) = val_main_call0_v1 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (ssa_unary hW _ 89 rfl (by decide) (by decide)).trans (by rw [s_call0_v0 m c]; (try simp only [TRef.ofBuf, TRef.toBuf, cast_eq]); rfl)
theorem s_call0_cst : (after ops (launchContents m c) (Proc.devRef .tc main_call0_cst) : (⟨S_, .f32⟩ : BufTy).Contents (Elt F)) = val_main_call0_cst (F := F) :=
  (ssa_nullary hW _ 90 rfl (by decide)).trans (by (try simp only [TRef.ofBuf, TRef.toBuf, cast_eq]); rfl)
theorem s_call0_v2 : (after ops (launchContents m c) (Proc.devRef .tc main_call0_v2) : (⟨S400000x128, .f32⟩ : BufTy).Contents (Elt F)) = val_main_call0_v2 (F := F) :=
  (ssa_unary hW _ 91 rfl (by decide) (by decide)).trans (by rw [s_call0_cst m c]; (try simp only [TRef.ofBuf, TRef.toBuf, cast_eq]); rfl)
theorem s_call0_v3 : (after ops (launchContents m c) (Proc.devRef .tc main_call0_v3) : (⟨S400000x128, .f32⟩ : BufTy).Contents (Elt F)) = val_main_call0_v3 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (ssa_binary hW _ 92 rfl (by decide) (by decide) (by decide)).trans (by rw [s_call0_v2 m c, s_call0_v1 m c]; (try simp only [TRef.ofBuf, TRef.toBuf, cast_eq]); rfl)
theorem s_call0_cst_0 : (after ops (launchContents m c) (Proc.devRef .tc main_call0_cst_0) : (⟨S_, .f32⟩ : BufTy).Contents (Elt F)) = val_main_call0_cst_0 (F := F) :=
  (ssa_nullary hW _ 93 rfl (by decide)).trans (by (try simp only [TRef.ofBuf, TRef.toBuf, cast_eq]); rfl)
theorem s_call0_v4 : (after ops (launchContents m c) (Proc.devRef .tc main_call0_v4) : (⟨S400000x128, .f32⟩ : BufTy).Contents (Elt F)) = val_main_call0_v4 (F := F) :=
  (ssa_unary hW _ 94 rfl (by decide) (by decide)).trans (by rw [s_call0_cst_0 m c]; (try simp only [TRef.ofBuf, TRef.toBuf, cast_eq]); rfl)
theorem s_call0_v5 : (after ops (launchContents m c) (Proc.devRef .tc main_call0_v5) : (⟨S400000x128, .f32⟩ : BufTy).Contents (Elt F)) = val_main_call0_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (ssa_binary hW _ 95 rfl (by decide) (by decide) (by decide)).trans (by rw [s_call0_v4 m c, s_call0_v3 m c]; (try simp only [TRef.ofBuf, TRef.toBuf, cast_eq]); rfl)
theorem s_v72 : (after ops (launchContents m c) (Proc.devRef .tc main_v72) : (⟨S400000x128, .f32⟩ : BufTy).Contents (Elt F)) = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (ssa_binary hW _ 96 rfl (by decide) (by decide) (by decide)).trans (by rw [s_v71 m c, s_call0_v5 m c]; (try simp only [TRef.ofBuf, TRef.toBuf, cast_eq]); rfl)
theorem s_v73 : (after ops (launchContents m c) (Proc.devRef .tc main_v73) : (⟨S400000x128, .f32⟩ : BufTy).Contents (Elt F)) = val_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (ssa_binary hW _ 97 rfl (by decide) (by decide) (by decide)).trans (by rw [s_v72 m c, a_arg8 m c]; rfl)
theorem s_v74 : (after ops (launchContents m c) (Proc.devRef .tc main_v74) : (⟨S1x128, .f32⟩ : BufTy).Contents (Elt F)) = val_main_v74 (F := F) (m ((c.tc : Thread nD τ).loc main_arg9)) :=
  (ssa_unary hW _ 98 rfl (by decide) (by decide)).trans (by rw [a_arg9 m c]; rfl)
theorem s_v75 : (after ops (launchContents m c) (Proc.devRef .tc main_v75) : (⟨S400000x128, .f32⟩ : BufTy).Contents (Elt F)) = val_main_v75 (F := F) (m ((c.tc : Thread nD τ).loc main_arg9)) :=
  (ssa_unary hW _ 99 rfl (by decide) (by decide)).trans (by rw [s_v74 m c]; rfl)
theorem s_v76 : (after ops (launchContents m c) (Proc.devRef .tc main_v76) : (⟨S400000x128, .f32⟩ : BufTy).Contents (Elt F)) = val_main_v76 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_binary hW _ 100 rfl (by decide) (by decide) (by decide)).trans (by rw [s_v73 m c, s_v75 m c]; rfl)
theorem s_cst_14 : (after ops (launchContents m c) (Proc.devRef .tc main_cst_14) : (⟨S_, .f32⟩ : BufTy).Contents (Elt F)) = val_main_cst_14 (F := F) :=
  (ssa_nullary hW _ 101 rfl (by decide)).trans (by rfl)
theorem s_v77 : (after ops (launchContents m c) (Proc.devRef .tc main_v77) : (⟨S400000, .f32⟩ : BufTy).Contents (Elt F)) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_binary hW _ 102 rfl (by decide) (by decide) (by decide)).trans (by rw [s_v76 m c, s_cst_14 m c]; rfl)
theorem s_v78 : (after ops (launchContents m c) (Proc.devRef .tc main_v78) : (⟨S400000x1, .f32⟩ : BufTy).Contents (Elt F)) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_unary hW _ 103 rfl (by decide) (by decide)).trans (by rw [s_v77 m c]; rfl)
theorem s_cst_15 : (after ops (launchContents m c) (Proc.devRef .tc main_cst_15) : (⟨S_, .f32⟩ : BufTy).Contents (Elt F)) = val_main_cst_15 (F := F) :=
  (ssa_nullary hW _ 104 rfl (by decide)).trans (by rfl)
theorem s_v79 : (after ops (launchContents m c) (Proc.devRef .tc main_v79) : (⟨S400000x1, .f32⟩ : BufTy).Contents (Elt F)) = val_main_v79 (F := F) :=
  (ssa_unary hW _ 105 rfl (by decide) (by decide)).trans (by rw [s_cst_15 m c]; rfl)
theorem s_v80 : (after ops (launchContents m c) (Proc.devRef .tc main_v80) : (⟨S400000x1, .f32⟩ : BufTy).Contents (Elt F)) = val_main_v80 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_binary hW _ 106 rfl (by decide) (by decide) (by decide)).trans (by rw [s_v78 m c, s_v79 m c]; rfl)
theorem s_v81 : (after ops (launchContents m c) (Proc.devRef .tc main_v81) : (⟨S400000x128, .f32⟩ : BufTy).Contents (Elt F)) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_unary hW _ 107 rfl (by decide) (by decide)).trans (by rw [s_v80 m c]; rfl)
theorem s_v82 : (after ops (launchContents m c) (Proc.devRef .tc main_v82) : (⟨S400000x128, .f32⟩ : BufTy).Contents (Elt F)) = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_binary hW _ 108 rfl (by decide) (by decide) (by decide)).trans (by rw [s_v76 m c, s_v81 m c]; rfl)
theorem s_v83 : (after ops (launchContents m c) (Proc.devRef .tc main_v83) : (⟨S400000x128, .f32⟩ : BufTy).Contents (Elt F)) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_binary hW _ 109 rfl (by decide) (by decide) (by decide)).trans (by rw [s_v82 m c]; rfl)
theorem s_cst_16 : (after ops (launchContents m c) (Proc.devRef .tc main_cst_16) : (⟨S_, .f32⟩ : BufTy).Contents (Elt F)) = val_main_cst_16 (F := F) :=
  (ssa_nullary hW _ 110 rfl (by decide)).trans (by rfl)
theorem s_v84 : (after ops (launchContents m c) (Proc.devRef .tc main_v84) : (⟨S400000, .f32⟩ : BufTy).Contents (Elt F)) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_binary hW _ 111 rfl (by decide) (by decide) (by decide)).trans (by rw [s_v83 m c, s_cst_16 m c]; rfl)
theorem s_v85 : (after ops (launchContents m c) (Proc.devRef .tc main_v85) : (⟨S400000x1, .f32⟩ : BufTy).Contents (Elt F)) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_unary hW _ 112 rfl (by decide) (by decide)).trans (by rw [s_v84 m c]; rfl)
theorem s_cst_17 : (after ops (launchContents m c) (Proc.devRef .tc main_cst_17) : (⟨S_, .f32⟩ : BufTy).Contents (Elt F)) = val_main_cst_17 (F := F) :=
  (ssa_nullary hW _ 113 rfl (by decide)).trans (by rfl)
theorem s_v86 : (after ops (launchContents m c) (Proc.devRef .tc main_v86) : (⟨S400000x1, .f32⟩ : BufTy).Contents (Elt F)) = val_main_v86 (F := F) :=
  (ssa_unary hW _ 114 rfl (by decide) (by decide)).trans (by rw [s_cst_17 m c]; rfl)
theorem s_v87 : (after ops (launchContents m c) (Proc.devRef .tc main_v87) : (⟨S400000x1, .f32⟩ : BufTy).Contents (Elt F)) = val_main_v87 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_binary hW _ 115 rfl (by decide) (by decide) (by decide)).trans (by rw [s_v85 m c, s_v86 m c]; rfl)
theorem s_v88 : (after ops (launchContents m c) (Proc.devRef .tc main_v88) : (⟨S400000x128, .f32⟩ : BufTy).Contents (Elt F)) = val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_unary hW _ 116 rfl (by decide) (by decide)).trans (by rw [s_v80 m c]; rfl)
theorem s_v89 : (after ops (launchContents m c) (Proc.devRef .tc main_v89) : (⟨S400000x128, .f32⟩ : BufTy).Contents (Elt F)) = val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_binary hW _ 117 rfl (by decide) (by decide) (by decide)).trans (by rw [s_v76 m c, s_v88 m c]; rfl)
theorem s_cst_18 : (after ops (launchContents m c) (Proc.devRef .tc main_cst_18) : (⟨S_, .f32⟩ : BufTy).Contents (Elt F)) = val_main_cst_18 (F := F) :=
  (ssa_nullary hW _ 118 rfl (by decide)).trans (by rfl)
theorem s_v90 : (after ops (launchContents m c) (Proc.devRef .tc main_v90) : (⟨S400000x1, .f32⟩ : BufTy).Contents (Elt F)) = val_main_v90 (F := F) :=
  (ssa_unary hW _ 119 rfl (by decide) (by decide)).trans (by rw [s_cst_18 m c]; rfl)
theorem s_v91 : (after ops (launchContents m c) (Proc.devRef .tc main_v91) : (⟨S400000x1, .f32⟩ : BufTy).Contents (Elt F)) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_binary hW _ 120 rfl (by decide) (by decide) (by decide)).trans (by rw [s_v87 m c, s_v90 m c]; rfl)
theorem s_v92 : (after ops (launchContents m c) (Proc.devRef .tc main_v92) : (⟨S400000x1, .f32⟩ : BufTy).Contents (Elt F)) = val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_unary hW _ 121 rfl (by decide) (by decide)).trans (by rw [s_v91 m c]; rfl)
theorem s_v93 : (after ops (launchContents m c) (Proc.devRef .tc main_v93) : (⟨S400000x128, .f32⟩ : BufTy).Contents (Elt F)) = val_main_v93 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_unary hW _ 122 rfl (by decide) (by decide)).trans (by rw [s_v92 m c]; rfl)
theorem s_v94 : (after ops (launchContents m c) (Proc.devRef .tc main_v94) : (⟨S400000x128, .f32⟩ : BufTy).Contents (Elt F)) = val_main_v94 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (ssa_binary hW _ 123 rfl (by decide) (by decide) (by decide)).trans (by rw [s_v89 m c, s_v93 m c]; rfl)
theorem s_v95 : (after ops (launchContents m c) (Proc.devRef .tc main_v95) : (⟨S1x128, .f32⟩ : BufTy).Contents (Elt F)) = val_main_v95 (F := F) (m ((c.tc : Thread nD τ).loc main_arg10)) :=
  (ssa_unary hW _ 124 rfl (by decide) (by decide)).trans (by rw [a_arg10 m c]; rfl)
theorem s_v96 : (after ops (launchContents m c) (Proc.devRef .tc main_v96) : (⟨S400000x128, .f32⟩ : BufTy).Contents (Elt F)) = val_main_v96 (F := F) (m ((c.tc : Thread nD τ).loc main_arg10)) :=
  (ssa_unary hW _ 125 rfl (by decide) (by decide)).trans (by rw [s_v95 m c]; rfl)
theorem s_v97 : (after ops (launchContents m c) (Proc.devRef .tc main_v97) : (⟨S400000x128, .f32⟩ : BufTy).Contents (Elt F)) = val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (ssa_binary hW _ 126 rfl (by decide) (by decide) (by decide)).trans (by rw [s_v94 m c, s_v96 m c]; rfl)
theorem s_v98 : (after ops (launchContents m c) (Proc.devRef .tc main_v98) : (⟨S1x128, .f32⟩ : BufTy).Contents (Elt F)) = val_main_v98 (F := F) (m ((c.tc : Thread nD τ).loc main_arg11)) :=
  (ssa_unary hW _ 127 rfl (by decide) (by decide)).trans (by rw [a_arg11 m c]; rfl)
theorem s_v99 : (after ops (launchContents m c) (Proc.devRef .tc main_v99) : (⟨S400000x128, .f32⟩ : BufTy).Contents (Elt F)) = val_main_v99 (F := F) (m ((c.tc : Thread nD τ).loc main_arg11)) :=
  (ssa_unary hW _ 128 rfl (by decide) (by decide)).trans (by rw [s_v98 m c]; rfl)
theorem s_v100 : (after ops (launchContents m c) (Proc.devRef .tc main_v100) : (⟨S400000x128, .f32⟩ : BufTy).Contents (Elt F)) = val_main_v100 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (ssa_binary hW _ 129 rfl (by decide) (by decide) (by decide)).trans (by rw [s_v97 m c, s_v99 m c]; rfl)
theorem s_call1_v0 : (after ops (launchContents m c) (Proc.devRef .tc main_call1_v0) : (⟨S400000x128, .f32⟩ : BufTy).Contents (Elt F)) = val_main_call1_v0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (ssa_unary hW _ 130 rfl (by decide) (by decide)).trans (by rw [s_v100 m c]; (try simp only [TRef.ofBuf, TRef.toBuf, cast_eq]); rfl)
theorem s_call1_v1 : (after ops (launchContents m c) (Proc.devRef .tc main_call1_v1) : (⟨S400000x128, .f32⟩ : BufTy).Contents (Elt F)) = val_main_call1_v1 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (ssa_unary hW _ 131 rfl (by decide) (by decide)).trans (by rw [s_call1_v0 m c]; (try simp only [TRef.ofBuf, TRef.toBuf, cast_eq]); rfl)
theorem s_call1_cst : (after ops (launchContents m c) (Proc.devRef .tc main_call1_cst) : (⟨S_, .f32⟩ : BufTy).Contents (Elt F)) = val_main_call1_cst (F := F) :=
  (ssa_nullary hW _ 132 rfl (by decide)).trans (by (try simp only [TRef.ofBuf, TRef.toBuf, cast_eq]); rfl)
theorem s_call1_v2 : (after ops (launchContents m c) (Proc.devRef .tc main_call1_v2) : (⟨S400000x128, .f32⟩ : BufTy).Contents (Elt F)) = val_main_call1_v2 (F := F) :=
  (ssa_unary hW _ 133 rfl (by decide) (by decide)).trans (by rw [s_call1_cst m c]; (try simp only [TRef.ofBuf, TRef.toBuf, cast_eq]); rfl)
theorem s_call1_v3 : (after ops (launchContents m c) (Proc.devRef .tc main_call1_v3) : (⟨S400000x128, .f32⟩ : BufTy).Contents (Elt F)) = val_main_call1_v3 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (ssa_binary hW _ 134 rfl (by decide) (by decide) (by decide)).trans (by rw [s_call1_v2 m c, s_call1_v1 m c]; (try simp only [TRef.ofBuf, TRef.toBuf, cast_eq]); rfl)
theorem s_call1_cst_0 : (after ops (launchContents m c) (Proc.devRef .tc main_call1_cst_0) : (⟨S_, .f32⟩ : BufTy).Contents (Elt F)) = val_main_call1_cst_0 (F := F) :=
  (ssa_nullary hW _ 135 rfl (by decide)).trans (by (try simp only [TRef.ofBuf, TRef.toBuf, cast_eq]); rfl)
theorem s_call1_v4 : (after ops (launchContents m c) (Proc.devRef .tc main_call1_v4) : (⟨S400000x128, .f32⟩ : BufTy).Contents (Elt F)) = val_main_call1_v4 (F := F) :=
  (ssa_unary hW _ 136 rfl (by decide) (by decide)).trans (by rw [s_call1_cst_0 m c]; (try simp only [TRef.ofBuf, TRef.toBuf, cast_eq]); rfl)
theorem s_call1_v5 : (after ops (launchContents m c) (Proc.devRef .tc main_call1_v5) : (⟨S400000x128, .f32⟩ : BufTy).Contents (Elt F)) = val_main_call1_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (ssa_binary hW _ 137 rfl (by decide) (by decide) (by decide)).trans (by rw [s_call1_v4 m c, s_call1_v3 m c]; (try simp only [TRef.ofBuf, TRef.toBuf, cast_eq]); rfl)
theorem s_v101 : (after ops (launchContents m c) (Proc.devRef .tc main_v101) : (⟨S400000x128, .f32⟩ : BufTy).Contents (Elt F)) = val_main_v101 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (ssa_binary hW _ 138 rfl (by decide) (by decide) (by decide)).trans (by rw [s_v100 m c, s_call1_v5 m c]; (try simp only [TRef.ofBuf, TRef.toBuf, cast_eq]); rfl)
theorem s_v102 : (after ops (launchContents m c) (Proc.devRef .tc main_v102) : (⟨S400000x128, .f32⟩ : BufTy).Contents (Elt F)) = val_main_v102 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) :=
  (ssa_binary hW _ 139 rfl (by decide) (by decide) (by decide)).trans (by rw [s_v101 m c, a_arg18 m c]; rfl)
theorem s_v103 : (after ops (launchContents m c) (Proc.devRef .tc main_v103) : (⟨S1x128, .f32⟩ : BufTy).Contents (Elt F)) = val_main_v103 (F := F) (m ((c.tc : Thread nD τ).loc main_arg19)) :=
  (ssa_unary hW _ 140 rfl (by decide) (by decide)).trans (by rw [a_arg19 m c]; rfl)
theorem s_v104 : (after ops (launchContents m c) (Proc.devRef .tc main_v104) : (⟨S400000x128, .f32⟩ : BufTy).Contents (Elt F)) = val_main_v104 (F := F) (m ((c.tc : Thread nD τ).loc main_arg19)) :=
  (ssa_unary hW _ 141 rfl (by decide) (by decide)).trans (by rw [s_v103 m c]; rfl)
theorem s_v105 : (after ops (launchContents m c) (Proc.devRef .tc main_v105) : (⟨S400000x128, .f32⟩ : BufTy).Contents (Elt F)) = val_main_v105 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_binary hW _ 142 rfl (by decide) (by decide) (by decide)).trans (by rw [s_v102 m c, s_v104 m c]; rfl)
theorem s_cst_19 : (after ops (launchContents m c) (Proc.devRef .tc main_cst_19) : (⟨S_, .f32⟩ : BufTy).Contents (Elt F)) = val_main_cst_19 (F := F) :=
  (ssa_nullary hW _ 143 rfl (by decide)).trans (by rfl)
theorem s_v106 : (after ops (launchContents m c) (Proc.devRef .tc main_v106) : (⟨S400000, .f32⟩ : BufTy).Contents (Elt F)) = val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_binary hW _ 144 rfl (by decide) (by decide) (by decide)).trans (by rw [s_v105 m c, s_cst_19 m c]; rfl)
theorem s_v107 : (after ops (launchContents m c) (Proc.devRef .tc main_v107) : (⟨S400000x1, .f32⟩ : BufTy).Contents (Elt F)) = val_main_v107 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_unary hW _ 145 rfl (by decide) (by decide)).trans (by rw [s_v106 m c]; rfl)
theorem s_cst_20 : (after ops (launchContents m c) (Proc.devRef .tc main_cst_20) : (⟨S_, .f32⟩ : BufTy).Contents (Elt F)) = val_main_cst_20 (F := F) :=
  (ssa_nullary hW _ 146 rfl (by decide)).trans (by rfl)
theorem s_v108 : (after ops (launchContents m c) (Proc.devRef .tc main_v108) : (⟨S400000x1, .f32⟩ : BufTy).Contents (Elt F)) = val_main_v108 (F := F) :=
  (ssa_unary hW _ 147 rfl (by decide) (by decide)).trans (by rw [s_cst_20 m c]; rfl)
theorem s_v109 : (after ops (launchContents m c) (Proc.devRef .tc main_v109) : (⟨S400000x1, .f32⟩ : BufTy).Contents (Elt F)) = val_main_v109 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_binary hW _ 148 rfl (by decide) (by decide) (by decide)).trans (by rw [s_v107 m c, s_v108 m c]; rfl)
theorem s_v110 : (after ops (launchContents m c) (Proc.devRef .tc main_v110) : (⟨S400000x128, .f32⟩ : BufTy).Contents (Elt F)) = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_unary hW _ 149 rfl (by decide) (by decide)).trans (by rw [s_v109 m c]; rfl)
theorem s_v111 : (after ops (launchContents m c) (Proc.devRef .tc main_v111) : (⟨S400000x128, .f32⟩ : BufTy).Contents (Elt F)) = val_main_v111 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_binary hW _ 150 rfl (by decide) (by decide) (by decide)).trans (by rw [s_v105 m c, s_v110 m c]; rfl)
theorem s_v112 : (after ops (launchContents m c) (Proc.devRef .tc main_v112) : (⟨S400000x128, .f32⟩ : BufTy).Contents (Elt F)) = val_main_v112 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_binary hW _ 151 rfl (by decide) (by decide) (by decide)).trans (by rw [s_v111 m c]; rfl)
theorem s_cst_21 : (after ops (launchContents m c) (Proc.devRef .tc main_cst_21) : (⟨S_, .f32⟩ : BufTy).Contents (Elt F)) = val_main_cst_21 (F := F) :=
  (ssa_nullary hW _ 152 rfl (by decide)).trans (by rfl)
theorem s_v113 : (after ops (launchContents m c) (Proc.devRef .tc main_v113) : (⟨S400000, .f32⟩ : BufTy).Contents (Elt F)) = val_main_v113 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_binary hW _ 153 rfl (by decide) (by decide) (by decide)).trans (by rw [s_v112 m c, s_cst_21 m c]; rfl)
theorem s_v114 : (after ops (launchContents m c) (Proc.devRef .tc main_v114) : (⟨S400000x1, .f32⟩ : BufTy).Contents (Elt F)) = val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_unary hW _ 154 rfl (by decide) (by decide)).trans (by rw [s_v113 m c]; rfl)
theorem s_cst_22 : (after ops (launchContents m c) (Proc.devRef .tc main_cst_22) : (⟨S_, .f32⟩ : BufTy).Contents (Elt F)) = val_main_cst_22 (F := F) :=
  (ssa_nullary hW _ 155 rfl (by decide)).trans (by rfl)
theorem s_v115 : (after ops (launchContents m c) (Proc.devRef .tc main_v115) : (⟨S400000x1, .f32⟩ : BufTy).Contents (Elt F)) = val_main_v115 (F := F) :=
  (ssa_unary hW _ 156 rfl (by decide) (by decide)).trans (by rw [s_cst_22 m c]; rfl)
theorem s_v116 : (after ops (launchContents m c) (Proc.devRef .tc main_v116) : (⟨S400000x1, .f32⟩ : BufTy).Contents (Elt F)) = val_main_v116 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_binary hW _ 157 rfl (by decide) (by decide) (by decide)).trans (by rw [s_v114 m c, s_v115 m c]; rfl)
theorem s_v117 : (after ops (launchContents m c) (Proc.devRef .tc main_v117) : (⟨S400000x128, .f32⟩ : BufTy).Contents (Elt F)) = val_main_v117 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_unary hW _ 158 rfl (by decide) (by decide)).trans (by rw [s_v109 m c]; rfl)
theorem s_v118 : (after ops (launchContents m c) (Proc.devRef .tc main_v118) : (⟨S400000x128, .f32⟩ : BufTy).Contents (Elt F)) = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_binary hW _ 159 rfl (by decide) (by decide) (by decide)).trans (by rw [s_v105 m c, s_v117 m c]; rfl)
theorem s_cst_23 : (after ops (launchContents m c) (Proc.devRef .tc main_cst_23) : (⟨S_, .f32⟩ : BufTy).Contents (Elt F)) = val_main_cst_23 (F := F) :=
  (ssa_nullary hW _ 160 rfl (by decide)).trans (by rfl)
theorem s_v119 : (after ops (launchContents m c) (Proc.devRef .tc main_v119) : (⟨S400000x1, .f32⟩ : BufTy).Contents (Elt F)) = val_main_v119 (F := F) :=
  (ssa_unary hW _ 161 rfl (by decide) (by decide)).trans (by rw [s_cst_23 m c]; rfl)
theorem s_v120 : (after ops (launchContents m c) (Proc.devRef .tc main_v120) : (⟨S400000x1, .f32⟩ : BufTy).Contents (Elt F)) = val_main_v120 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_binary hW _ 162 rfl (by decide) (by decide) (by decide)).trans (by rw [s_v116 m c, s_v119 m c]; rfl)
theorem s_v121 : (after ops (launchContents m c) (Proc.devRef .tc main_v121) : (⟨S400000x1, .f32⟩ : BufTy).Contents (Elt F)) = val_main_v121 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_unary hW _ 163 rfl (by decide) (by decide)).trans (by rw [s_v120 m c]; rfl)
theorem s_v122 : (after ops (launchContents m c) (Proc.devRef .tc main_v122) : (⟨S400000x128, .f32⟩ : BufTy).Contents (Elt F)) = val_main_v122 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_unary hW _ 164 rfl (by decide) (by decide)).trans (by rw [s_v121 m c]; rfl)
theorem s_v123 : (after ops (launchContents m c) (Proc.devRef .tc main_v123) : (⟨S400000x128, .f32⟩ : BufTy).Contents (Elt F)) = val_main_v123 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) :=
  (ssa_binary hW _ 165 rfl (by decide) (by decide) (by decide)).trans (by rw [s_v118 m c, s_v122 m c]; rfl)
theorem s_v124 : (after ops (launchContents m c) (Proc.devRef .tc main_v124) : (⟨S1x128, .f32⟩ : BufTy).Contents (Elt F)) = val_main_v124 (F := F) (m ((c.tc : Thread nD τ).loc main_arg20)) :=
  (ssa_unary hW _ 166 rfl (by decide) (by decide)).trans (by rw [a_arg20 m c]; rfl)
theorem s_v125 : (after ops (launchContents m c) (Proc.devRef .tc main_v125) : (⟨S400000x128, .f32⟩ : BufTy).Contents (Elt F)) = val_main_v125 (F := F) (m ((c.tc : Thread nD τ).loc main_arg20)) :=
  (ssa_unary hW _ 167 rfl (by decide) (by decide)).trans (by rw [s_v124 m c]; rfl)
theorem s_v126 : (after ops (launchContents m c) (Proc.devRef .tc main_v126) : (⟨S400000x128, .f32⟩ : BufTy).Contents (Elt F)) = val_main_v126 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) :=
  (ssa_binary hW _ 168 rfl (by decide) (by decide) (by decide)).trans (by rw [s_v123 m c, s_v125 m c]; rfl)
theorem s_v127 : (after ops (launchContents m c) (Proc.devRef .tc main_v127) : (⟨S1x128, .f32⟩ : BufTy).Contents (Elt F)) = val_main_v127 (F := F) (m ((c.tc : Thread nD τ).loc main_arg21)) :=
  (ssa_unary hW _ 169 rfl (by decide) (by decide)).trans (by rw [a_arg21 m c]; rfl)
theorem s_v128 : (after ops (launchContents m c) (Proc.devRef .tc main_v128) : (⟨S400000x128, .f32⟩ : BufTy).Contents (Elt F)) = val_main_v128 (F := F) (m ((c.tc : Thread nD τ).loc main_arg21)) :=
  (ssa_unary hW _ 170 rfl (by decide) (by decide)).trans (by rw [s_v127 m c]; rfl)
theorem s_v129 : (after ops (launchContents m c) (Proc.devRef .tc main_v129) : (⟨S400000x128, .f32⟩ : BufTy).Contents (Elt F)) = val_main_v129 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) (m ((c.tc : Thread nD τ).loc main_arg21)) :=
  (ssa_binary hW _ 171 rfl (by decide) (by decide) (by decide)).trans (by rw [s_v126 m c, s_v128 m c]; rfl)
theorem s_call2_v0 : (after ops (launchContents m c) (Proc.devRef .tc main_call2_v0) : (⟨S400000x128, .f32⟩ : BufTy).Contents (Elt F)) = val_main_call2_v0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) (m ((c.tc : Thread nD τ).loc main_arg21)) :=
  (ssa_unary hW _ 172 rfl (by decide) (by decide)).trans (by rw [s_v129 m c]; (try simp only [TRef.ofBuf, TRef.toBuf, cast_eq]); rfl)
theorem s_call2_v1 : (after ops (launchContents m c) (Proc.devRef .tc main_call2_v1) : (⟨S400000x128, .f32⟩ : BufTy).Contents (Elt F)) = val_main_call2_v1 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) (m ((c.tc : Thread nD τ).loc main_arg21)) :=
  (ssa_unary hW _ 173 rfl (by decide) (by decide)).trans (by rw [s_call2_v0 m c]; (try simp only [TRef.ofBuf, TRef.toBuf, cast_eq]); rfl)
theorem s_call2_cst : (after ops (launchContents m c) (Proc.devRef .tc main_call2_cst) : (⟨S_, .f32⟩ : BufTy).Contents (Elt F)) = val_main_call2_cst (F := F) :=
  (ssa_nullary hW _ 174 rfl (by decide)).trans (by (try simp only [TRef.ofBuf, TRef.toBuf, cast_eq]); rfl)
theorem s_call2_v2 : (after ops (launchContents m c) (Proc.devRef .tc main_call2_v2) : (⟨S400000x128, .f32⟩ : BufTy).Contents (Elt F)) = val_main_call2_v2 (F := F) :=
  (ssa_unary hW _ 175 rfl (by decide) (by decide)).trans (by rw [s_call2_cst m c]; (try simp only [TRef.ofBuf, TRef.toBuf, cast_eq]); rfl)
theorem s_call2_v3 : (after ops (launchContents m c) (Proc.devRef .tc main_call2_v3) : (⟨S400000x128, .f32⟩ : BufTy).Contents (Elt F)) = val_main_call2_v3 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) (m ((c.tc : Thread nD τ).loc main_arg21)) :=
  (ssa_binary hW _ 176 rfl (by decide) (by decide) (by decide)).trans (by rw [s_call2_v2 m c, s_call2_v1 m c]; (try simp only [TRef.ofBuf, TRef.toBuf, cast_eq]); rfl)
theorem s_call2_cst_0 : (after ops (launchContents m c) (Proc.devRef .tc main_call2_cst_0) : (⟨S_, .f32⟩ : BufTy).Contents (Elt F)) = val_main_call2_cst_0 (F := F) :=
  (ssa_nullary hW _ 177 rfl (by decide)).trans (by (try simp only [TRef.ofBuf, TRef.toBuf, cast_eq]); rfl)
theorem s_call2_v4 : (after ops (launchContents m c) (Proc.devRef .tc main_call2_v4) : (⟨S400000x128, .f32⟩ : BufTy).Contents (Elt F)) = val_main_call2_v4 (F := F) :=
  (ssa_unary hW _ 178 rfl (by decide) (by decide)).trans (by rw [s_call2_cst_0 m c]; (try simp only [TRef.ofBuf, TRef.toBuf, cast_eq]); rfl)
theorem s_call2_v5 : (after ops (launchContents m c) (Proc.devRef .tc main_call2_v5) : (⟨S400000x128, .f32⟩ : BufTy).Contents (Elt F)) = val_main_call2_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) (m ((c.tc : Thread nD τ).loc main_arg21)) :=
  (ssa_binary hW _ 179 rfl (by decide) (by decide) (by decide)).trans (by rw [s_call2_v4 m c, s_call2_v3 m c]; (try simp only [TRef.ofBuf, TRef.toBuf, cast_eq]); rfl)
theorem s_v130 : (after ops (launchContents m c) (Proc.devRef .tc main_v130) : (⟨S400000x128, .f32⟩ : BufTy).Contents (Elt F)) = val_main_v130 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) (m ((c.tc : Thread nD τ).loc main_arg21)) :=
  (ssa_binary hW _ 180 rfl (by decide) (by decide) (by decide)).trans (by rw [s_v129 m c, s_call2_v5 m c]; (try simp only [TRef.ofBuf, TRef.toBuf, cast_eq]); rfl)
theorem s_v131 : (after ops (launchContents m c) (Proc.devRef .tc main_v131) : (⟨S400000x1, .f32⟩ : BufTy).Contents (Elt F)) = val_main_v131 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (ssa_binary hW _ 181 rfl (by decide) (by decide) (by decide)).trans (by rw [s_v130 m c, a_arg22 m c]; rfl)
theorem s_v132 : (after ops (launchContents m c) (Proc.devRef .tc main_v132) : (⟨S400000x3, .f32⟩ : BufTy).Contents (Elt F)) = val_main_v132 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (ssa_unary hW _ 182 rfl (by decide) (by decide)).trans (by rw [s_v131 m c]; rfl)
theorem s_v133 : (after ops (launchContents m c) (Proc.devRef .tc main_v133) : (⟨S400000x3, .f32⟩ : BufTy).Contents (Elt F)) = val_main_v133 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (ssa_binary hW _ 183 rfl (by decide) (by decide) (by decide)).trans (by rw [s_v28 m c, s_v132 m c]; rfl)
theorem s_cst_24 : (after ops (launchContents m c) (Proc.devRef .tc main_cst_24) : (⟨S_, .f32⟩ : BufTy).Contents (Elt F)) = val_main_cst_24 (F := F) :=
  (ssa_nullary hW _ 184 rfl (by decide)).trans (by rfl)
theorem s_v134 : (after ops (launchContents m c) (Proc.devRef .tc main_v134) : (⟨S25000x3, .f32⟩ : BufTy).Contents (Elt F)) = val_main_v134 (F := F) :=
  (ssa_unary hW _ 185 rfl (by decide) (by decide)).trans (by rw [s_cst_24 m c]; rfl)
theorem s_v135 : (after ops (launchContents m c) (Proc.devRef .tc main_v135) : (⟨S400000x1, .i32⟩ : BufTy).Contents (Elt F)) = val_main_v135 (F := F) (m ((c.tc : Thread nD τ).loc main_arg1)) :=
  (ssa_unary hW _ 186 rfl (by decide) (by decide)).trans (by rw [s_v1 m c]; rfl)
theorem s_v136 : (after ops (launchContents m c) (Proc.devRef .tc main_v136) : (⟨S25000x3, .f32⟩ : BufTy).Contents (Elt F)) = val_main_v136 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (ssa_ternary hW _ 187 rfl (by decide) (by decide) (by decide) (by decide)).trans (by rw [s_v134 m c, s_v135 m c, s_v133 m c]; rfl)
theorem s_v137 : (after ops (launchContents m c) (Proc.devRef .tc main_v137) : (⟨S25000x3, .f32⟩ : BufTy).Contents (Elt F)) = val_main_v137 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (ssa_binary hW _ 188 rfl (by decide) (by decide) (by decide)).trans (by rw [a_arg2 m c, s_v136 m c]; rfl)
theorem s_cst_25 : (after ops (launchContents m c) (Proc.devRef .tc main_cst_25) : (⟨S_, .f32⟩ : BufTy).Contents (Elt F)) = val_main_cst_25 (F := F) :=
  (ssa_nullary hW _ 189 rfl (by decide)).trans (by rfl)
theorem s_v138 : (after ops (launchContents m c) (Proc.devRef .tc main_v138) : (⟨S25000x128, .f32⟩ : BufTy).Contents (Elt F)) = val_main_v138 (F := F) :=
  (ssa_unary hW _ 190 rfl (by decide) (by decide)).trans (by rw [s_cst_25 m c]; rfl)
theorem s_v139 : (after ops (launchContents m c) (Proc.devRef .tc main_v139) : (⟨S400000x1, .i32⟩ : BufTy).Contents (Elt F)) = val_main_v139 (F := F) (m ((c.tc : Thread nD τ).loc main_arg1)) :=
  (ssa_unary hW _ 191 rfl (by decide) (by decide)).trans (by rw [s_v1 m c]; rfl)
theorem s_v140 : (after ops (launchContents m c) (Proc.devRef .tc main_v140) : (⟨S25000x128, .f32⟩ : BufTy).Contents (Elt F)) = val_main_v140 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (ssa_ternary hW _ 192 rfl (by decide) (by decide) (by decide) (by decide)).trans (by rw [s_v138 m c, s_v139 m c, s_v101 m c]; rfl)
theorem s_v141 : (after ops (launchContents m c) (Proc.devRef .tc main_v141) : (⟨S25000x256, .f32⟩ : BufTy).Contents (Elt F)) = val_main_v141 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (ssa_binary hW _ 193 rfl (by decide) (by decide) (by decide)).trans (by rw [a_arg0 m c, s_v140 m c]; rfl)
theorem s_v142 : (after ops (launchContents m c) (Proc.devRef .tc main_v142) : (⟨S25000x128, .f32⟩ : BufTy).Contents (Elt F)) = val_main_v142 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (ssa_binary hW _ 194 rfl (by decide) (by decide) (by decide)).trans (by rw [s_v141 m c, a_arg12 m c]; rfl)
theorem s_v143 : (after ops (launchContents m c) (Proc.devRef .tc main_v143) : (⟨S1x128, .f32⟩ : BufTy).Contents (Elt F)) = val_main_v143 (F := F) (m ((c.tc : Thread nD τ).loc main_arg13)) :=
  (ssa_unary hW _ 195 rfl (by decide) (by decide)).trans (by rw [a_arg13 m c]; rfl)
theorem s_v144 : (after ops (launchContents m c) (Proc.devRef .tc main_v144) : (⟨S25000x128, .f32⟩ : BufTy).Contents (Elt F)) = val_main_v144 (F := F) (m ((c.tc : Thread nD τ).loc main_arg13)) :=
  (ssa_unary hW _ 196 rfl (by decide) (by decide)).trans (by rw [s_v143 m c]; rfl)
theorem s_v145 : (after ops (launchContents m c) (Proc.devRef .tc main_v145) : (⟨S25000x128, .f32⟩ : BufTy).Contents (Elt F)) = val_main_v145 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_binary hW _ 197 rfl (by decide) (by decide) (by decide)).trans (by rw [s_v142 m c, s_v144 m c]; rfl)
theorem s_cst_26 : (after ops (launchContents m c) (Proc.devRef .tc main_cst_26) : (⟨S_, .f32⟩ : BufTy).Contents (Elt F)) = val_main_cst_26 (F := F) :=
  (ssa_nullary hW _ 198 rfl (by decide)).trans (by rfl)
theorem s_v146 : (after ops (launchContents m c) (Proc.devRef .tc main_v146) : (⟨S25000, .f32⟩ : BufTy).Contents (Elt F)) = val_main_v146 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_binary hW _ 199 rfl (by decide) (by decide) (by decide)).trans (by rw [s_v145 m c, s_cst_26 m c]; rfl)
theorem s_v147 : (after ops (launchContents m c) (Proc.devRef .tc main_v147) : (⟨S25000x1, .f32⟩ : BufTy).Contents (Elt F)) = val_main_v147 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_unary hW _ 200 rfl (by decide) (by decide)).trans (by rw [s_v146 m c]; rfl)
theorem s_cst_27 : (after ops (launchContents m c) (Proc.devRef .tc main_cst_27) : (⟨S_, .f32⟩ : BufTy).Contents (Elt F)) = val_main_cst_27 (F := F) :=
  (ssa_nullary hW _ 201 rfl (by decide)).trans (by rfl)
theorem s_v148 : (after ops (launchContents m c) (Proc.devRef .tc main_v148) : (⟨S25000x1, .f32⟩ : BufTy).Contents (Elt F)) = val_main_v148 (F := F) :=
  (ssa_unary hW _ 202 rfl (by decide) (by decide)).trans (by rw [s_cst_27 m c]; rfl)
theorem s_v149 : (after ops (launchContents m c) (Proc.devRef .tc main_v149) : (⟨S25000x1, .f32⟩ : BufTy).Contents (Elt F)) = val_main_v149 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_binary hW _ 203 rfl (by decide) (by decide) (by decide)).trans (by rw [s_v147 m c, s_v148 m c]; rfl)
theorem s_v150 : (after ops (launchContents m c) (Proc.devRef .tc main_v150) : (⟨S25000x128, .f32⟩ : BufTy).Contents (Elt F)) = val_main_v150 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_unary hW _ 204 rfl (by decide) (by decide)).trans (by rw [s_v149 m c]; rfl)
theorem s_v151 : (after ops (launchContents m c) (Proc.devRef .tc main_v151) : (⟨S25000x128, .f32⟩ : BufTy).Contents (Elt F)) = val_main_v151 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_binary hW _ 205 rfl (by decide) (by decide) (by decide)).trans (by rw [s_v145 m c, s_v150 m c]; rfl)
theorem s_v152 : (after ops (launchContents m c) (Proc.devRef .tc main_v152) : (⟨S25000x128, .f32⟩ : BufTy).Contents (Elt F)) = val_main_v152 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_binary hW _ 206 rfl (by decide) (by decide) (by decide)).trans (by rw [s_v151 m c]; rfl)
theorem s_cst_28 : (after ops (launchContents m c) (Proc.devRef .tc main_cst_28) : (⟨S_, .f32⟩ : BufTy).Contents (Elt F)) = val_main_cst_28 (F := F) :=
  (ssa_nullary hW _ 207 rfl (by decide)).trans (by rfl)
theorem s_v153 : (after ops (launchContents m c) (Proc.devRef .tc main_v153) : (⟨S25000, .f32⟩ : BufTy).Contents (Elt F)) = val_main_v153 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_binary hW _ 208 rfl (by decide) (by decide) (by decide)).trans (by rw [s_v152 m c, s_cst_28 m c]; rfl)
theorem s_v154 : (after ops (launchContents m c) (Proc.devRef .tc main_v154) : (⟨S25000x1, .f32⟩ : BufTy).Contents (Elt F)) = val_main_v154 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_unary hW _ 209 rfl (by decide) (by decide)).trans (by rw [s_v153 m c]; rfl)
theorem s_cst_29 : (after ops (launchContents m c) (Proc.devRef .tc main_cst_29) : (⟨S_, .f32⟩ : BufTy).Contents (Elt F)) = val_main_cst_29 (F := F) :=
  (ssa_nullary hW _ 210 rfl (by decide)).trans (by rfl)
theorem s_v155 : (after ops (launchContents m c) (Proc.devRef .tc main_v155) : (⟨S25000x1, .f32⟩ : BufTy).Contents (Elt F)) = val_main_v155 (F := F) :=
  (ssa_unary hW _ 211 rfl (by decide) (by decide)).trans (by rw [s_cst_29 m c]; rfl)
theorem s_v156 : (after ops (launchContents m c) (Proc.devRef .tc main_v156) : (⟨S25000x1, .f32⟩ : BufTy).Contents (Elt F)) = val_main_v156 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_binary hW _ 212 rfl (by decide) (by decide) (by decide)).trans (by rw [s_v154 m c, s_v155 m c]; rfl)
theorem s_v157 : (after ops (launchContents m c) (Proc.devRef .tc main_v157) : (⟨S25000x128, .f32⟩ : BufTy).Contents (Elt F)) = val_main_v157 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_unary hW _ 213 rfl (by decide) (by decide)).trans (by rw [s_v149 m c]; rfl)
theorem s_v158 : (after ops (launchContents m c) (Proc.devRef .tc main_v158) : (⟨S25000x128, .f32⟩ : BufTy).Contents (Elt F)) = val_main_v158 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_binary hW _ 214 rfl (by decide) (by decide) (by decide)).trans (by rw [s_v145 m c, s_v157 m c]; rfl)
theorem s_cst_30 : (after ops (launchContents m c) (Proc.devRef .tc main_cst_30) : (⟨S_, .f32⟩ : BufTy).Contents (Elt F)) = val_main_cst_30 (F := F) :=
  (ssa_nullary hW _ 215 rfl (by decide)).trans (by rfl)
theorem s_v159 : (after ops (launchContents m c) (Proc.devRef .tc main_v159) : (⟨S25000x1, .f32⟩ : BufTy).Contents (Elt F)) = val_main_v159 (F := F) :=
  (ssa_unary hW _ 216 rfl (by decide) (by decide)).trans (by rw [s_cst_30 m c]; rfl)
theorem s_v160 : (after ops (launchContents m c) (Proc.devRef .tc main_v160) : (⟨S25000x1, .f32⟩ : BufTy).Contents (Elt F)) = val_main_v160 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_binary hW _ 217 rfl (by decide) (by decide) (by decide)).trans (by rw [s_v156 m c, s_v159 m c]; rfl)
theorem s_v161 : (after ops (launchContents m c) (Proc.devRef .tc main_v161) : (⟨S25000x1, .f32⟩ : BufTy).Contents (Elt F)) = val_main_v161 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_unary hW _ 218 rfl (by decide) (by decide)).trans (by rw [s_v160 m c]; rfl)
theorem s_v162 : (after ops (launchContents m c) (Proc.devRef .tc main_v162) : (⟨S25000x128, .f32⟩ : BufTy).Contents (Elt F)) = val_main_v162 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_unary hW _ 219 rfl (by decide) (by decide)).trans (by rw [s_v161 m c]; rfl)
theorem s_v163 : (after ops (launchContents m c) (Proc.devRef .tc main_v163) : (⟨S25000x128, .f32⟩ : BufTy).Contents (Elt F)) = val_main_v163 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (ssa_binary hW _ 220 rfl (by decide) (by decide) (by decide)).trans (by rw [s_v158 m c, s_v162 m c]; rfl)
theorem s_v164 : (after ops (launchContents m c) (Proc.devRef .tc main_v164) : (⟨S1x128, .f32⟩ : BufTy).Contents (Elt F)) = val_main_v164 (F := F) (m ((c.tc : Thread nD τ).loc main_arg14)) :=
  (ssa_unary hW _ 221 rfl (by decide) (by decide)).trans (by rw [a_arg14 m c]; rfl)
theorem s_v165 : (after ops (launchContents m c) (Proc.devRef .tc main_v165) : (⟨S25000x128, .f32⟩ : BufTy).Contents (Elt F)) = val_main_v165 (F := F) (m ((c.tc : Thread nD τ).loc main_arg14)) :=
  (ssa_unary hW _ 222 rfl (by decide) (by decide)).trans (by rw [s_v164 m c]; rfl)
theorem s_v166 : (after ops (launchContents m c) (Proc.devRef .tc main_v166) : (⟨S25000x128, .f32⟩ : BufTy).Contents (Elt F)) = val_main_v166 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (ssa_binary hW _ 223 rfl (by decide) (by decide) (by decide)).trans (by rw [s_v163 m c, s_v165 m c]; rfl)
theorem s_v167 : (after ops (launchContents m c) (Proc.devRef .tc main_v167) : (⟨S1x128, .f32⟩ : BufTy).Contents (Elt F)) = val_main_v167 (F := F) (m ((c.tc : Thread nD τ).loc main_arg15)) :=
  (ssa_unary hW _ 224 rfl (by decide) (by decide)).trans (by rw [a_arg15 m c]; rfl)
theorem s_v168 : (after ops (launchContents m c) (Proc.devRef .tc main_v168) : (⟨S25000x128, .f32⟩ : BufTy).Contents (Elt F)) = val_main_v168 (F := F) (m ((c.tc : Thread nD τ).loc main_arg15)) :=
  (ssa_unary hW _ 225 rfl (by decide) (by decide)).trans (by rw [s_v167 m c]; rfl)
theorem s_v169 : (after ops (launchContents m c) (Proc.devRef .tc main_v169) : (⟨S25000x128, .f32⟩ : BufTy).Contents (Elt F)) = val_main_v169 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (ssa_binary hW _ 226 rfl (by decide) (by decide) (by decide)).trans (by rw [s_v166 m c, s_v168 m c]; rfl)
theorem s_call3_v0 : (after ops (launchContents m c) (Proc.devRef .tc main_call3_v0) : (⟨S25000x128, .f32⟩ : BufTy).Contents (Elt F)) = val_main_call3_v0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (ssa_unary hW _ 227 rfl (by decide) (by decide)).trans (by rw [s_v169 m c]; (try simp only [TRef.ofBuf, TRef.toBuf, cast_eq]); rfl)
theorem s_call3_v1 : (after ops (launchContents m c) (Proc.devRef .tc main_call3_v1) : (⟨S25000x128, .f32⟩ : BufTy).Contents (Elt F)) = val_main_call3_v1 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (ssa_unary hW _ 228 rfl (by decide) (by decide)).trans (by rw [s_call3_v0 m c]; (try simp only [TRef.ofBuf, TRef.toBuf, cast_eq]); rfl)
theorem s_call3_cst : (after ops (launchContents m c) (Proc.devRef .tc main_call3_cst) : (⟨S_, .f32⟩ : BufTy).Contents (Elt F)) = val_main_call3_cst (F := F) :=
  (ssa_nullary hW _ 229 rfl (by decide)).trans (by (try simp only [TRef.ofBuf, TRef.toBuf, cast_eq]); rfl)
theorem s_call3_v2 : (after ops (launchContents m c) (Proc.devRef .tc main_call3_v2) : (⟨S25000x128, .f32⟩ : BufTy).Contents (Elt F)) = val_main_call3_v2 (F := F) :=
  (ssa_unary hW _ 230 rfl (by decide) (by decide)).trans (by rw [s_call3_cst m c]; (try simp only [TRef.ofBuf, TRef.toBuf, cast_eq]); rfl)
theorem s_call3_v3 : (after ops (launchContents m c) (Proc.devRef .tc main_call3_v3) : (⟨S25000x128, .f32⟩ : BufTy).Contents (Elt F)) = val_main_call3_v3 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (ssa_binary hW _ 231 rfl (by decide) (by decide) (by decide)).trans (by rw [s_call3_v2 m c, s_call3_v1 m c]; (try simp only [TRef.ofBuf, TRef.toBuf, cast_eq]); rfl)
theorem s_call3_cst_0 : (after ops (launchContents m c) (Proc.devRef .tc main_call3_cst_0) : (⟨S_, .f32⟩ : BufTy).Contents (Elt F)) = val_main_call3_cst_0 (F := F) :=
  (ssa_nullary hW _ 232 rfl (by decide)).trans (by (try simp only [TRef.ofBuf, TRef.toBuf, cast_eq]); rfl)
theorem s_call3_v4 : (after ops (launchContents m c) (Proc.devRef .tc main_call3_v4) : (⟨S25000x128, .f32⟩ : BufTy).Contents (Elt F)) = val_main_call3_v4 (F := F) :=
  (ssa_unary hW _ 233 rfl (by decide) (by decide)).trans (by rw [s_call3_cst_0 m c]; (try simp only [TRef.ofBuf, TRef.toBuf, cast_eq]); rfl)
theorem s_call3_v5 : (after ops (launchContents m c) (Proc.devRef .tc main_call3_v5) : (⟨S25000x128, .f32⟩ : BufTy).Contents (Elt F)) = val_main_call3_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (ssa_binary hW _ 234 rfl (by decide) (by decide) (by decide)).trans (by rw [s_call3_v4 m c, s_call3_v3 m c]; (try simp only [TRef.ofBuf, TRef.toBuf, cast_eq]); rfl)
theorem s_v170 : (after ops (launchContents m c) (Proc.devRef .tc main_v170) : (⟨S25000x128, .f32⟩ : BufTy).Contents (Elt F)) = val_main_v170 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (ssa_binary hW _ 235 rfl (by decide) (by decide) (by decide)).trans (by rw [s_v169 m c, s_call3_v5 m c]; (try simp only [TRef.ofBuf, TRef.toBuf, cast_eq]); rfl)
theorem s_v171 : (after ops (launchContents m c) (Proc.devRef .tc main_v171) : (⟨S25000x128, .f32⟩ : BufTy).Contents (Elt F)) = val_main_v171 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  (ssa_binary hW _ 236 rfl (by decide) (by decide) (by decide)).trans (by rw [s_v170 m c, a_arg16 m c]; rfl)
theorem s_v172 : (after ops (launchContents m c) (Proc.devRef .tc main_v172) : (⟨S1x128, .f32⟩ : BufTy).Contents (Elt F)) = val_main_v172 (F := F) (m ((c.tc : Thread nD τ).loc main_arg17)) :=
  (ssa_unary hW _ 237 rfl (by decide) (by decide)).trans (by rw [a_arg17 m c]; rfl)
theorem s_v173 : (after ops (launchContents m c) (Proc.devRef .tc main_v173) : (⟨S25000x128, .f32⟩ : BufTy).Contents (Elt F)) = val_main_v173 (F := F) (m ((c.tc : Thread nD τ).loc main_arg17)) :=
  (ssa_unary hW _ 238 rfl (by decide) (by decide)).trans (by rw [s_v172 m c]; rfl)
theorem s_v174 : (after ops (launchContents m c) (Proc.devRef .tc main_v174) : (⟨S25000x128, .f32⟩ : BufTy).Contents (Elt F)) = val_main_v174 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (ssa_binary hW _ 239 rfl (by decide) (by decide) (by decide)).trans (by rw [s_v171 m c, s_v173 m c]; rfl)
theorem s_v175 : (after ops (launchContents m c) (Proc.devRef .tc main_v175) : (⟨S25000x128, .f32⟩ : BufTy).Contents (Elt F)) = val_main_v175 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (ssa_binary hW _ 240 rfl (by decide) (by decide) (by decide)).trans (by rw [a_arg0 m c, s_v174 m c]; rfl)

/-! ## The run -/

/-- Every weakly fair execution of the reference's @main terminates with the two results at their stages of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v175) = val_main_v175 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v137) = val_main_v137 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v175).trans (s_v175 m c),
      (h c main_v137).trans (s_v137 m c),
      (h c main_arg0).trans (a_arg0 m c),
      (h c main_arg1).trans (a_arg1 m c),
      (h c main_arg2).trans (a_arg2 m c),
      (h c main_arg3).trans (a_arg3 m c),
      (h c main_arg4).trans (a_arg4 m c),
      (h c main_arg5).trans (a_arg5 m c),
      (h c main_arg6).trans (a_arg6 m c),
      (h c main_arg7).trans (a_arg7 m c),
      (h c main_arg8).trans (a_arg8 m c),
      (h c main_arg9).trans (a_arg9 m c),
      (h c main_arg10).trans (a_arg10 m c),
      (h c main_arg11).trans (a_arg11 m c),
      (h c main_arg12).trans (a_arg12 m c),
      (h c main_arg13).trans (a_arg13 m c),
      (h c main_arg14).trans (a_arg14 m c),
      (h c main_arg15).trans (a_arg15 m c),
      (h c main_arg16).trans (a_arg16 m c),
      (h c main_arg17).trans (a_arg17 m c),
      (h c main_arg18).trans (a_arg18 m c),
      (h c main_arg19).trans (a_arg19 m c),
      (h c main_arg20).trans (a_arg20 m c),
      (h c main_arg21).trans (a_arg21 m c),
      (h c main_arg22).trans (a_arg22 m c)⟩)
    (run_seq scopedRefs_eq scopedSems_eq defs main (fun _ => ops) main_eq (fun _ => ops_sub) m ρ
      (hfresh := fun _ => List.forall_iff_forall_mem.mp ops_fresh))

end Cert.ReferenceIdeal.Line

end
-- ==== Proof.PreIdx.lean ====
/-
  The edge table's entries as node indices. Under the precondition every entry of the edge table lies in
  [-25000, 25000): an entry below zero wraps once to a row of the node table and no entry names a row past its end.
  For such an index vector the gather that fills out-of-range reads with a placeholder never fills: the wrapped index
  lies in [0, 24999] at every edge, the mask is all ones, and the filled gather is the plain gather of the wrapped
  index.
-/
import proofs.«419454_j9414568313009_1_alg».proof.Defs
import proofs.«419454_j9414568313009_1_alg».proof.Proof.Gen.KernelIdeal
import proofs.«419454_j9414568313009_1_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value

noncomputable section

namespace Cert.KernelIdeal.Take

open Idealize.ShloMosaic Idealize.ShloMosaic.ValueIdx Idealize.SL.Sem Cert.KernelIdeal Cert.KernelIdeal.Facts₀ Cert.KernelIdeal.Facts

/-- Row 0 of the edge table (the edges' first ends) as a vector of 400000 words. -/
def edgeRow0 (x : IVec S2x400000 32) : IVec S400000 32 :=
  shapeCast S400000 (extractStridedSlice S1x400000 ![0, 0] x slices_S2x400000_S1x400000_0_0) shapeCasts_S1x400000_S400000

/-- Row 1 of the edge table (the edges' second ends). -/
def edgeRow1 (x : IVec S2x400000 32) : IVec S400000 32 :=
  shapeCast S400000 (extractStridedSlice S1x400000 ![1, 0] x slices_S2x400000_S1x400000_1_0) shapeCasts_S1x400000_S400000

/-- An index vector with its negative entries wrapped once by 25000, as a column. -/
def wrap (rv : IVec S400000 32) : IVec S400000x1 32 :=
  broadcastInDim S400000x1 ![0] bcast_S400000_S400000x1_0
    (select (cmpi .slt rv (broadcastInDim S400000 ![] bcast_S_S400000 (constantI S_ 32 0#32)))
      (addi rv (broadcastInDim S400000 ![] bcast_S_S400000 (constantI S_ 32 25000#32))) rv)

/-- Per edge: does the wrapped index lie in [0, 24999]? -/
def mask (rv : IVec S400000 32) : IVec S400000 1 :=
  Host.reduce IntOp.andi
    (andi (cmpi .sge (wrap rv) (broadcastInDim S400000x1 ![] bcast_S_S400000x1 (constantI S_ 32 0#32)))
      (cmpi .sle (wrap rv) (broadcastInDim S400000x1 ![0, 1] bcast_S1x1_S400000x1_0_1
        (broadcastInDim S1x1 ![1] bcast_S1_S1x1_1 (constantI S1 32 24999#32)))))
    (constantI S_ 1 1#1) reducesTo_S400000x1_S400000_d1 h_S_

variable {F : FTy → Type} [FloatOps F]

/-- The gather of rows of a [25000, 128] table that fills the rows whose wrapped index is out of range. -/
def take128 (x : FVec F S25000x128 .f32) (rv : IVec S400000 32) : FVec F S400000x128 .f32 :=
  select (broadcastInDim S400000x128 ![0] bcast_S400000_S400000x128_0 (mask rv))
    (Host.gather gather_S25000x128_S400000x1_S400000x128_1_0_n_n_0_1_1128 x (wrap rv))
    (broadcastInDim S400000x128 ![] bcast_S_S400000x128 (constant S_ .f32 0x7FC00000#32))

/-- The same for a [25000, 3] table. -/
def take3 (x : FVec F S25000x3 .f32) (rv : IVec S400000 32) : FVec F S400000x3 .f32 :=
  select (broadcastInDim S400000x3 ![0] bcast_S400000_S400000x3_0 (mask rv))
    (Host.gather gather_S25000x3_S400000x1_S400000x3_1_0_n_n_0_1_13 x (wrap rv))
    (broadcastInDim S400000x3 ![] bcast_S_S400000x3 (constant S_ .f32 0x7FC00000#32))

/-- Every entry of an index vector lies in [-25000, 25000). -/
def InRange (rv : IVec S400000 32) : Prop := ∀ i : S400000.Idx, -25000 ≤ (rv i).toInt ∧ (rv i).toInt < 25000

/-- A word in [-25000, 25000), wrapped once when negative, lies in [0, 24999]. -/
theorem wrapWord_inRange (x : BitVec 32) (h1 : -25000 ≤ x.toInt) (h2 : x.toInt < 25000) :
    IntOp.andi
      (IntOp.cmpi .sge (Scalar.select (IntOp.cmpi .slt x 0#32) (IntOp.addi x 25000#32) x) 0#32)
      (IntOp.cmpi .sle (Scalar.select (IntOp.cmpi .slt x 0#32) (IntOp.addi x 25000#32) x) 24999#32) = 1#1 := by
  have h0 : (0#32 : BitVec 32).toInt = 0 := by decide
  have h9 : (24999#32 : BitVec 32).toInt = 24999 := by decide
  have h5 : (25000#32 : BitVec 32).toInt = 25000 := by decide
  rw [IntOp.andi_eq_one, IntOp.cmpi_sge, IntOp.cmpi_sle, h0, h9]
  by_cases hc : x.toInt < 0
  · have hb : IntOp.cmpi .slt x 0#32 = 1#1 := IntOp.cmpi_slt.2 (by rw [h0]; exact hc)
    rw [hb, select_one]
    have ha : (IntOp.addi x 25000#32).toInt = x.toInt + 25000 := by
      unfold IntOp.addi
      rw [BitVec.toInt_add, h5]
      exact Int.bmod_eq_of_le_mul_two (by omega) (by omega)
    rw [ha]; omega
  · have hb : IntOp.cmpi .slt x 0#32 = 0#1 := eq_zero_of_ne_one (fun e => hc (by have := IntOp.cmpi_slt.1 e; rwa [h0] at this))
    rw [hb, select_zero]; omega

theorem foldl_andi_ones {ι : Type} (l : List ι) : l.foldl (fun r (_ : ι) => IntOp.andi r 1#1) 1#1 = 1#1 := by
  induction l with
  | nil => rfl
  | cons a l ih => exact ih

/-- For an index vector in range the mask is all ones. -/
theorem mask_of_inRange (rv : IVec S400000 32) (h : InRange rv) : mask rv = fun _ => 1#1 := by
  have hx : (andi (cmpi .sge (wrap rv) (broadcastInDim S400000x1 ![] bcast_S_S400000x1 (constantI S_ 32 0#32)))
      (cmpi .sle (wrap rv) (broadcastInDim S400000x1 ![0, 1] bcast_S1x1_S400000x1_0_1
        (broadcastInDim S1x1 ![1] bcast_S1_S1x1_1 (constantI S1 32 24999#32))))) = fun _ => 1#1 := by
    funext j
    exact wrapWord_inRange _ (h _).1 (h _).2
  funext e
  unfold mask
  rw [hx, Host.reduce_eq_foldl]
  exact foldl_andi_ones _

/-- For an index vector in range the filling gather of a [25000, 128] table is the plain gather. -/
theorem take128_of_inRange (x : FVec F S25000x128 .f32) (rv : IVec S400000 32) (h : InRange rv) :
    take128 x rv = Host.gather gather_S25000x128_S400000x1_S400000x128_1_0_n_n_0_1_1128 x (wrap rv) := by
  funext i
  have hm : broadcastInDim S400000x128 ![0] bcast_S400000_S400000x128_0 (mask rv) i = 1#1 := by
    rw [mask_of_inRange rv h]; rfl
  unfold take128
  rw [select_apply, hm, select_one]

/-- The same for a [25000, 3] table. -/
theorem take3_of_inRange (x : FVec F S25000x3 .f32) (rv : IVec S400000 32) (h : InRange rv) :
    take3 x rv = Host.gather gather_S25000x3_S400000x1_S400000x3_1_0_n_n_0_1_13 x (wrap rv) := by
  funext i
  have hm : broadcastInDim S400000x3 ![0] bcast_S400000_S400000x3_0 (mask rv) i = 1#1 := by
    rw [mask_of_inRange rv h]; rfl
  unfold take3
  rw [select_apply, hm, select_one]

/-- The last conjunct of the precondition's tail, read at an entry of the edge table: the entry lies in [-25000, 25000). -/
theorem part6_range (a1 : IVec S2x400000 32) (a22 : FVec Ideal S128x1 .f32) (v98 : IVec S_ 1) (v101 : IVec S128 1) (c39 : IVec S_ 1)
    (j : S_.Idx) (e : Cert.Pre_finite_inputs.fn_part6 (F := Ideal) a1 a22 v98 v101 c39 j = 1#1) (i : S2x400000.Idx) :
    -25000 ≤ (a1 i).toInt ∧ (a1 i).toInt < 25000 := by
  unfold Cert.Pre_finite_inputs.fn_part6 at e
  dsimp only at e
  have e2 := (IntOp.andi_eq_one.1 e).2
  have e3 := Host.reduce_andi_eq_one _ _ _ _ j e2 i (funext fun d => d.elim0)
  obtain ⟨hge, hlt⟩ := IntOp.andi_eq_one.1 e3
  have hm : (4294942296#32 : BitVec 32).toInt = -25000 := by decide
  have h5 : (25000#32 : BitVec 32).toInt = 25000 := by decide
  have h1 := IntOp.cmpi_sge.1 hge
  have h2 := IntOp.cmpi_slt.1 hlt
  change (4294942296#32 : BitVec 32).toInt ≤ _ at h1
  change _ < (25000#32 : BitVec 32).toInt at h2
  rw [hm] at h1
  rw [h5] at h2
  exact ⟨h1, h2⟩

/-- Under the precondition both rows of the edge table are in range, on every device. -/
theorem inRange_of_pre (m : (ℓ : Loc nD τ sig) → Buf (Elt Ideal) ℓ) (hpre : Cert.Pre_KernelIdeal m) (c : Dev nD) :
    InRange (edgeRow0 (m ((c.tc : Thread nD τ).loc main_arg1))) ∧ InRange (edgeRow1 (m ((c.tc : Thread nD τ).loc main_arg1))) := by
  have key : ∀ i : S2x400000.Idx, -25000 ≤ ((m ((c.tc : Thread nD τ).loc main_arg1) : IVec S2x400000 32) i).toInt
      ∧ ((m ((c.tc : Thread nD τ).loc main_arg1) : IVec S2x400000 32) i).toInt < 25000 := by
    intro i
    have e := congrFun (hpre c) (fun d => d.elim0)
    exact part6_range _ _ _ _ _ _ e i
  exact ⟨fun i => key _, fun i => key _⟩

end Cert.KernelIdeal.Take

end
-- ==== Proof.KerHost.lean ====
/-
  The kernel program's host side, buffer by buffer. Between the launch memory and the first region the program
  gathers the rows of the node table and of the coordinate table at the edges' two ends, forms the coordinate
  difference, its squared length and the scaled difference, and cuts the first edge weight into its four row blocks;
  between the regions it sums the edge messages and the weighted differences into their first end's row; no host
  operation and no region writes an argument. Each lemma reads one buffer at one boundary as a term of the launch
  memory, one stretch of host operations at a time.
-/
import proofs.«419454_j9414568313009_1_alg».proof.Proof.Gen.KernelIdeal.Frame
import proofs.«419454_j9414568313009_1_alg».proof.Proof.PreIdx
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo
open Cert.KernelIdeal.Take

variable {F : FTy → Type} [FloatOps F]

/-! ## The host terms between the gathers and the first region -/

/-- The squared length of the coordinate difference of the two gathered ends, as a column. -/
def radial (p q : FVec F S400000x3 .f32) : FVec F S400000x1 .f32 :=
  broadcastInDim S400000x1 ![0] bcast_S400000_S400000x1_0
    (Host.reduceAdd (mulf (subf p q) (subf p q)) (constant S_ .f32 0x00000000#32) reducesTo_S400000x3_S400000_d1 h_S_)

/-- The coordinate difference over one plus the root of its guarded squared length. -/
def cdiff (p q : FVec F S400000x3 .f32) : FVec F S400000x3 .f32 :=
  Host.divf (subf p q)
    (broadcastInDim S400000x3 ![0, 1] bcast_S400000x1_S400000x3_0_1
      (addf (Host.sqrt (addf (radial p q) (broadcastInDim S400000x1 ![] bcast_S_S400000x1 (constant S_ .f32 0x322BCC77#32))))
        (broadcastInDim S400000x1 ![] bcast_S_S400000x1 (constant S_ .f32 0x3F800000#32))))

/-- Rows 0 … 127 of the first edge weight. -/
def w1h (x : FVec F S258x128 .f32) : FVec F S128x128 .f32 := extractStridedSlice S128x128 ![0, 0] x slices_S258x128_S128x128_0_0
/-- Rows 128 … 255 of the first edge weight. -/
def w1c (x : FVec F S258x128 .f32) : FVec F S128x128 .f32 := extractStridedSlice S128x128 ![128, 0] x slices_S258x128_S128x128_128_0
/-- Row 256 of the first edge weight. -/
def w1r (x : FVec F S258x128 .f32) : FVec F S128 .f32 :=
  shapeCast S128 (extractStridedSlice S1x128 ![256, 0] x slices_S258x128_S1x128_256_0) shapeCasts_S1x128_S128
/-- Row 257 of the first edge weight. -/
def w1e (x : FVec F S258x128 .f32) : FVec F S128 .f32 :=
  shapeCast S128 (extractStridedSlice S1x128 ![257, 0] x slices_S258x128_S1x128_257_0) shapeCasts_S1x128_S128

/-- The sum of the rows of `u` into the rows the index vector names, from zero: a table of 128 columns. -/
def segSum128 (rv : IVec S400000 32) (u : FVec F S400000x128 .f32) : FVec F S25000x128 .f32 :=
  Host.scatterAdd scatter_S25000x128_S400000x1_S400000x128_1_0_0_1
    (broadcastInDim S25000x128 ![] bcast_S_S25000x128 (constant S_ .f32 0x00000000#32))
    (broadcastInDim S400000x1 ![0] bcast_S400000_S400000x1_0 rv) u

/-- The same for a table of 3 columns. -/
def segSum3 (rv : IVec S400000 32) (u : FVec F S400000x3 .f32) : FVec F S25000x3 .f32 :=
  Host.scatterAdd scatter_S25000x3_S400000x1_S400000x3_1_0_0_1
    (broadcastInDim S25000x3 ![] bcast_S_S25000x3 (constant S_ .f32 0x00000000#32))
    (broadcastInDim S400000x1 ![0] bcast_S400000_S400000x1_0 rv) u

variable (m : (ℓ : Loc nD τ sig) → Buf (Elt F) ℓ) (ρ : Dev nD → PrngReg)

/-- No operation of a stretch writes the buffer: the stretch keeps its contents. -/
macro "nw" ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The first stretch: the two rows of the edge table -/

theorem W1_v1 (c : Dev nD) : W1 m ρ c (Proc.devRef .tc main_v1) = edgeRow0 (m ((c : Thread nD τ).loc main_arg1)) := by
  show StableHlo.after hostOps0 (W0 m ρ c) (Proc.devRef .tc main_v1) = _
  after_results
  rfl

theorem W1_v3 (c : Dev nD) : W1 m ρ c (Proc.devRef .tc main_v3) = edgeRow1 (m ((c : Thread nD τ).loc main_arg1)) := by
  show StableHlo.after hostOps0 (W0 m ρ c) (Proc.devRef .tc main_v3) = _
  after_results
  rfl

theorem W1_arg0 (c : Dev nD) : W1 m ρ c (Proc.devRef .tc main_arg0) = m ((c : Thread nD τ).loc main_arg0) := nw hostOps0 main_arg0
theorem W1_arg2 (c : Dev nD) : W1 m ρ c (Proc.devRef .tc main_arg2) = m ((c : Thread nD τ).loc main_arg2) := nw hostOps0 main_arg2

/-! ## The four gathers -/

set_option maxHeartbeats 4000000 in
theorem W2_v4 (c : Dev nD) : (W2 m ρ c (Proc.devRef .tc main_v4) : S400000x128.Idx → Elt F .f32)
    = take128 (m ((c : Thread nD τ).loc main_arg0)) (edgeRow0 (m ((c : Thread nD τ).loc main_arg1))) := by
  rw [← W1_arg0 m ρ c, ← W1_v1 m ρ c]
  show StableHlo.after hostOps0_1 (W1 m ρ c) (Proc.devRef .tc main_v4) = _
  generalize W1 m ρ c = W
  after_results_simp
  simp only [TRef.ofBuf, TRef.toBuf, cast_eq]
  rfl

theorem W2_v3 (c : Dev nD) : W2 m ρ c (Proc.devRef .tc main_v3) = edgeRow1 (m ((c : Thread nD τ).loc main_arg1)) :=
  (nw hostOps0_1 main_v3).trans (W1_v3 m ρ c)
theorem W2_v1 (c : Dev nD) : W2 m ρ c (Proc.devRef .tc main_v1) = edgeRow0 (m ((c : Thread nD τ).loc main_arg1)) :=
  (nw hostOps0_1 main_v1).trans (W1_v1 m ρ c)
theorem W2_arg0 (c : Dev nD) : W2 m ρ c (Proc.devRef .tc main_arg0) = m ((c : Thread nD τ).loc main_arg0) :=
  (nw hostOps0_1 main_arg0).trans (W1_arg0 m ρ c)
theorem W2_arg2 (c : Dev nD) : W2 m ρ c (Proc.devRef .tc main_arg2) = m ((c : Thread nD τ).loc main_arg2) :=
  (nw hostOps0_1 main_arg2).trans (W1_arg2 m ρ c)

set_option maxHeartbeats 4000000 in
theorem W3_v5 (c : Dev nD) : (W3 m ρ c (Proc.devRef .tc main_v5) : S400000x128.Idx → Elt F .f32)
    = take128 (m ((c : Thread nD τ).loc main_arg0)) (edgeRow1 (m ((c : Thread nD τ).loc main_arg1))) := by
  rw [← W2_arg0 m ρ c, ← W2_v3 m ρ c]
  show StableHlo.after hostOps0_2 (W2 m ρ c) (Proc.devRef .tc main_v5) = _
  generalize W2 m ρ c = W
  after_results_simp
  simp only [TRef.ofBuf, TRef.toBuf, cast_eq]
  rfl

theorem W3_v1 (c : Dev nD) : W3 m ρ c (Proc.devRef .tc main_v1) = edgeRow0 (m ((c : Thread nD τ).loc main_arg1)) :=
  (nw hostOps0_2 main_v1).trans (W2_v1 m ρ c)
theorem W3_v3 (c : Dev nD) : W3 m ρ c (Proc.devRef .tc main_v3) = edgeRow1 (m ((c : Thread nD τ).loc main_arg1)) :=
  (nw hostOps0_2 main_v3).trans (W2_v3 m ρ c)
theorem W3_arg2 (c : Dev nD) : W3 m ρ c (Proc.devRef .tc main_arg2) = m ((c : Thread nD τ).loc main_arg2) :=
  (nw hostOps0_2 main_arg2).trans (W2_arg2 m ρ c)

set_option maxHeartbeats 4000000 in
theorem W4_v6 (c : Dev nD) : (W4 m ρ c (Proc.devRef .tc main_v6) : S400000x3.Idx → Elt F .f32)
    = take3 (m ((c : Thread nD τ).loc main_arg2)) (edgeRow0 (m ((c : Thread nD τ).loc main_arg1))) := by
  rw [← W3_arg2 m ρ c, ← W3_v1 m ρ c]
  show StableHlo.after hostOps0_3 (W3 m ρ c) (Proc.devRef .tc main_v6) = _
  generalize W3 m ρ c = W
  after_results_simp
  simp only [TRef.ofBuf, TRef.toBuf, cast_eq]
  rfl

theorem W4_v3 (c : Dev nD) : W4 m ρ c (Proc.devRef .tc main_v3) = edgeRow1 (m ((c : Thread nD τ).loc main_arg1)) :=
  (nw hostOps0_3 main_v3).trans (W3_v3 m ρ c)
theorem W4_arg2 (c : Dev nD) : W4 m ρ c (Proc.devRef .tc main_arg2) = m ((c : Thread nD τ).loc main_arg2) :=
  (nw hostOps0_3 main_arg2).trans (W3_arg2 m ρ c)

set_option maxHeartbeats 4000000 in
theorem W5_v7 (c : Dev nD) : (W5 m ρ c (Proc.devRef .tc main_v7) : S400000x3.Idx → Elt F .f32)
    = take3 (m ((c : Thread nD τ).loc main_arg2)) (edgeRow1 (m ((c : Thread nD τ).loc main_arg1))) := by
  rw [← W4_arg2 m ρ c, ← W4_v3 m ρ c]
  show StableHlo.after hostOps0_4 (W4 m ρ c) (Proc.devRef .tc main_v7) = _
  generalize W4 m ρ c = W
  after_results_simp
  simp only [TRef.ofBuf, TRef.toBuf, cast_eq]
  rfl

theorem W5_v6 (c : Dev nD) : (W5 m ρ c (Proc.devRef .tc main_v6) : S400000x3.Idx → Elt F .f32)
    = take3 (m ((c : Thread nD τ).loc main_arg2)) (edgeRow0 (m ((c : Thread nD τ).loc main_arg1))) :=
  (nw hostOps0_4 main_v6).trans (W4_v6 m ρ c)

/-! ## A buffer none of the six first stretches writes -/

/-- Kept by every stretch before the first region. -/
macro "kept6" b:ident : term =>
  `((nw hostOps0_5 $b).trans ((nw hostOps0_4 $b).trans ((nw hostOps0_3 $b).trans ((nw hostOps0_2 $b).trans
      ((nw hostOps0_1 $b).trans ((nw hostOps0 $b).trans rfl))))))

theorem W6_arg0 (c : Dev nD) : W6 m ρ c (Proc.devRef .tc main_arg0) = m ((c : Thread nD τ).loc main_arg0) := kept6 main_arg0
theorem W6_arg2 (c : Dev nD) : W6 m ρ c (Proc.devRef .tc main_arg2) = m ((c : Thread nD τ).loc main_arg2) := kept6 main_arg2
theorem W6_arg3 (c : Dev nD) : W6 m ρ c (Proc.devRef .tc main_arg3) = m ((c : Thread nD τ).loc main_arg3) := kept6 main_arg3
theorem W6_arg5 (c : Dev nD) : W6 m ρ c (Proc.devRef .tc main_arg5) = m ((c : Thread nD τ).loc main_arg5) := kept6 main_arg5
theorem W6_arg6 (c : Dev nD) : W6 m ρ c (Proc.devRef .tc main_arg6) = m ((c : Thread nD τ).loc main_arg6) := kept6 main_arg6
theorem W6_arg7 (c : Dev nD) : W6 m ρ c (Proc.devRef .tc main_arg7) = m ((c : Thread nD τ).loc main_arg7) := kept6 main_arg7
theorem W6_arg8 (c : Dev nD) : W6 m ρ c (Proc.devRef .tc main_arg8) = m ((c : Thread nD τ).loc main_arg8) := kept6 main_arg8
theorem W6_arg9 (c : Dev nD) : W6 m ρ c (Proc.devRef .tc main_arg9) = m ((c : Thread nD τ).loc main_arg9) := kept6 main_arg9
theorem W6_arg10 (c : Dev nD) : W6 m ρ c (Proc.devRef .tc main_arg10) = m ((c : Thread nD τ).loc main_arg10) := kept6 main_arg10
theorem W6_arg11 (c : Dev nD) : W6 m ρ c (Proc.devRef .tc main_arg11) = m ((c : Thread nD τ).loc main_arg11) := kept6 main_arg11
theorem W6_arg12 (c : Dev nD) : W6 m ρ c (Proc.devRef .tc main_arg12) = m ((c : Thread nD τ).loc main_arg12) := kept6 main_arg12
theorem W6_arg13 (c : Dev nD) : W6 m ρ c (Proc.devRef .tc main_arg13) = m ((c : Thread nD τ).loc main_arg13) := kept6 main_arg13
theorem W6_arg14 (c : Dev nD) : W6 m ρ c (Proc.devRef .tc main_arg14) = m ((c : Thread nD τ).loc main_arg14) := kept6 main_arg14
theorem W6_arg15 (c : Dev nD) : W6 m ρ c (Proc.devRef .tc main_arg15) = m ((c : Thread nD τ).loc main_arg15) := kept6 main_arg15
theorem W6_arg16 (c : Dev nD) : W6 m ρ c (Proc.devRef .tc main_arg16) = m ((c : Thread nD τ).loc main_arg16) := kept6 main_arg16
theorem W6_arg17 (c : Dev nD) : W6 m ρ c (Proc.devRef .tc main_arg17) = m ((c : Thread nD τ).loc main_arg17) := kept6 main_arg17
theorem W6_arg18 (c : Dev nD) : W6 m ρ c (Proc.devRef .tc main_arg18) = m ((c : Thread nD τ).loc main_arg18) := kept6 main_arg18
theorem W6_arg19 (c : Dev nD) : W6 m ρ c (Proc.devRef .tc main_arg19) = m ((c : Thread nD τ).loc main_arg19) := kept6 main_arg19
theorem W6_arg20 (c : Dev nD) : W6 m ρ c (Proc.devRef .tc main_arg20) = m ((c : Thread nD τ).loc main_arg20) := kept6 main_arg20
theorem W6_arg21 (c : Dev nD) : W6 m ρ c (Proc.devRef .tc main_arg21) = m ((c : Thread nD τ).loc main_arg21) := kept6 main_arg21
theorem W6_arg22 (c : Dev nD) : W6 m ρ c (Proc.devRef .tc main_arg22) = m ((c : Thread nD τ).loc main_arg22) := kept6 main_arg22

theorem W5_arg4 (c : Dev nD) : W5 m ρ c (Proc.devRef .tc main_arg4) = m ((c : Thread nD τ).loc main_arg4) :=
  (nw hostOps0_4 main_arg4).trans ((nw hostOps0_3 main_arg4).trans ((nw hostOps0_2 main_arg4).trans
    ((nw hostOps0_1 main_arg4).trans ((nw hostOps0 main_arg4).trans rfl))))

/-! ## The first region's entry -/

theorem W6_v1 (c : Dev nD) : W6 m ρ c (Proc.devRef .tc main_v1) = edgeRow0 (m ((c : Thread nD τ).loc main_arg1)) :=
  (nw hostOps0_5 main_v1).trans ((nw hostOps0_4 main_v1).trans ((nw hostOps0_3 main_v1).trans (W3_v1 m ρ c)))

theorem W6_v4 (c : Dev nD) : (W6 m ρ c (Proc.devRef .tc main_v4) : S400000x128.Idx → Elt F .f32)
    = take128 (m ((c : Thread nD τ).loc main_arg0)) (edgeRow0 (m ((c : Thread nD τ).loc main_arg1))) :=
  (nw hostOps0_5 main_v4).trans ((nw hostOps0_4 main_v4).trans ((nw hostOps0_3 main_v4).trans
    ((nw hostOps0_2 main_v4).trans (W2_v4 m ρ c))))

theorem W6_v5 (c : Dev nD) : (W6 m ρ c (Proc.devRef .tc main_v5) : S400000x128.Idx → Elt F .f32)
    = take128 (m ((c : Thread nD τ).loc main_arg0)) (edgeRow1 (m ((c : Thread nD τ).loc main_arg1))) :=
  (nw hostOps0_5 main_v5).trans ((nw hostOps0_4 main_v5).trans ((nw hostOps0_3 main_v5).trans (W3_v5 m ρ c)))

theorem W6_v11 (c : Dev nD) : (W6 m ρ c (Proc.devRef .tc main_v11) : S400000x1.Idx → Elt F .f32)
    = radial (take3 (m ((c : Thread nD τ).loc main_arg2)) (edgeRow0 (m ((c : Thread nD τ).loc main_arg1))))
        (take3 (m ((c : Thread nD τ).loc main_arg2)) (edgeRow1 (m ((c : Thread nD τ).loc main_arg1)))) := by
  rw [← W5_v6 m ρ c, ← W5_v7 m ρ c]
  show StableHlo.after hostOps0_5 (W5 m ρ c) (Proc.devRef .tc main_v11) = _
  generalize W5 m ρ c = W
  after_results
  rfl

theorem W6_v18 (c : Dev nD) : (W6 m ρ c (Proc.devRef .tc main_v18) : S400000x3.Idx → Elt F .f32)
    = cdiff (take3 (m ((c : Thread nD τ).loc main_arg2)) (edgeRow0 (m ((c : Thread nD τ).loc main_arg1))))
        (take3 (m ((c : Thread nD τ).loc main_arg2)) (edgeRow1 (m ((c : Thread nD τ).loc main_arg1)))) := by
  rw [← W5_v6 m ρ c, ← W5_v7 m ρ c]
  show StableHlo.after hostOps0_5 (W5 m ρ c) (Proc.devRef .tc main_v18) = _
  generalize W5 m ρ c = W
  after_results
  rfl

theorem W6_v19 (c : Dev nD) : (W6 m ρ c (Proc.devRef .tc main_v19) : S128x128.Idx → Elt F .f32)
    = w1h (m ((c : Thread nD τ).loc main_arg4)) := by
  rw [← W5_arg4 m ρ c]
  show StableHlo.after hostOps0_5 (W5 m ρ c) (Proc.devRef .tc main_v19) = _
  generalize W5 m ρ c = W
  after_results
  rfl

theorem W6_v20 (c : Dev nD) : (W6 m ρ c (Proc.devRef .tc main_v20) : S128x128.Idx → Elt F .f32)
    = w1c (m ((c : Thread nD τ).loc main_arg4)) := by
  rw [← W5_arg4 m ρ c]
  show StableHlo.after hostOps0_5 (W5 m ρ c) (Proc.devRef .tc main_v20) = _
  generalize W5 m ρ c = W
  after_results
  rfl

theorem W6_v22 (c : Dev nD) : (W6 m ρ c (Proc.devRef .tc main_v22) : S128.Idx → Elt F .f32)
    = w1r (m ((c : Thread nD τ).loc main_arg4)) := by
  rw [← W5_arg4 m ρ c]
  show StableHlo.after hostOps0_5 (W5 m ρ c) (Proc.devRef .tc main_v22) = _
  generalize W5 m ρ c = W
  after_results
  rfl

theorem W6_v24 (c : Dev nD) : (W6 m ρ c (Proc.devRef .tc main_v24) : S128.Idx → Elt F .f32)
    = w1e (m ((c : Thread nD τ).loc main_arg4)) := by
  rw [← W5_arg4 m ρ c]
  show StableHlo.after hostOps0_5 (W5 m ρ c) (Proc.devRef .tc main_v24) = _
  generalize W5 m ρ c = W
  after_results
  rfl

/-! ## Across the first region, through the segment sums, across the second region -/

theorem W7_v1 (c : Dev nD) : W7 m ρ c (Proc.devRef .tc main_v1) = edgeRow0 (m ((c : Thread nD τ).loc main_arg1)) :=
  (W7_of_ne m ρ c main_v1 (by decide)).trans (W6_v1 m ρ c)
theorem W7_arg0 (c : Dev nD) : W7 m ρ c (Proc.devRef .tc main_arg0) = m ((c : Thread nD τ).loc main_arg0) :=
  (W7_of_ne m ρ c main_arg0 (by decide)).trans (W6_arg0 m ρ c)
theorem W7_arg2 (c : Dev nD) : W7 m ρ c (Proc.devRef .tc main_arg2) = m ((c : Thread nD τ).loc main_arg2) :=
  (W7_of_ne m ρ c main_arg2 (by decide)).trans (W6_arg2 m ρ c)
theorem W7_arg12 (c : Dev nD) : W7 m ρ c (Proc.devRef .tc main_arg12) = m ((c : Thread nD τ).loc main_arg12) :=
  (W7_of_ne m ρ c main_arg12 (by decide)).trans (W6_arg12 m ρ c)
theorem W7_arg13 (c : Dev nD) : W7 m ρ c (Proc.devRef .tc main_arg13) = m ((c : Thread nD τ).loc main_arg13) :=
  (W7_of_ne m ρ c main_arg13 (by decide)).trans (W6_arg13 m ρ c)
theorem W7_arg14 (c : Dev nD) : W7 m ρ c (Proc.devRef .tc main_arg14) = m ((c : Thread nD τ).loc main_arg14) :=
  (W7_of_ne m ρ c main_arg14 (by decide)).trans (W6_arg14 m ρ c)
theorem W7_arg15 (c : Dev nD) : W7 m ρ c (Proc.devRef .tc main_arg15) = m ((c : Thread nD τ).loc main_arg15) :=
  (W7_of_ne m ρ c main_arg15 (by decide)).trans (W6_arg15 m ρ c)
theorem W7_arg16 (c : Dev nD) : W7 m ρ c (Proc.devRef .tc main_arg16) = m ((c : Thread nD τ).loc main_arg16) :=
  (W7_of_ne m ρ c main_arg16 (by decide)).trans (W6_arg16 m ρ c)
theorem W7_arg17 (c : Dev nD) : W7 m ρ c (Proc.devRef .tc main_arg17) = m ((c : Thread nD τ).loc main_arg17) :=
  (W7_of_ne m ρ c main_arg17 (by decide)).trans (W6_arg17 m ρ c)

/-- After the segment sums: the aggregated messages, over what the first region left. -/
theorem W8_v32 (c : Dev nD) : (W8 m ρ c (Proc.devRef .tc main_v32) : S25000x128.Idx → Elt F .f32)
    = segSum128 (edgeRow0 (m ((c : Thread nD τ).loc main_arg1))) ((dat0 (V6 m ρ) c).arrAt 21 cfg0.N) := by
  rw [← W7_v1 m ρ c, ← W7_arr m ρ c 21]
  show StableHlo.after hostOps1 (W7 m ρ c) (Proc.devRef .tc main_v32) = _
  generalize W7 m ρ c = W
  after_results
  rfl

/-- After the segment sums: the updated coordinates. -/
theorem W8_v29 (c : Dev nD) : (W8 m ρ c (Proc.devRef .tc main_v29) : S25000x3.Idx → Elt F .f32)
    = addf (m ((c : Thread nD τ).loc main_arg2))
        (segSum3 (edgeRow0 (m ((c : Thread nD τ).loc main_arg1))) ((dat0 (V6 m ρ) c).arrAt 22 cfg0.N)) := by
  rw [← W7_v1 m ρ c, ← W7_arr m ρ c 22, ← W7_arg2 m ρ c]
  show StableHlo.after hostOps1 (W7 m ρ c) (Proc.devRef .tc main_v29) = _
  generalize W7 m ρ c = W
  after_results
  rfl

theorem W8_arg0 (c : Dev nD) : W8 m ρ c (Proc.devRef .tc main_arg0) = m ((c : Thread nD τ).loc main_arg0) :=
  (nw hostOps1 main_arg0).trans (W7_arg0 m ρ c)
theorem W8_arg12 (c : Dev nD) : W8 m ρ c (Proc.devRef .tc main_arg12) = m ((c : Thread nD τ).loc main_arg12) :=
  (nw hostOps1 main_arg12).trans (W7_arg12 m ρ c)
theorem W8_arg13 (c : Dev nD) : W8 m ρ c (Proc.devRef .tc main_arg13) = m ((c : Thread nD τ).loc main_arg13) :=
  (nw hostOps1 main_arg13).trans (W7_arg13 m ρ c)
theorem W8_arg14 (c : Dev nD) : W8 m ρ c (Proc.devRef .tc main_arg14) = m ((c : Thread nD τ).loc main_arg14) :=
  (nw hostOps1 main_arg14).trans (W7_arg14 m ρ c)
theorem W8_arg15 (c : Dev nD) : W8 m ρ c (Proc.devRef .tc main_arg15) = m ((c : Thread nD τ).loc main_arg15) :=
  (nw hostOps1 main_arg15).trans (W7_arg15 m ρ c)
theorem W8_arg16 (c : Dev nD) : W8 m ρ c (Proc.devRef .tc main_arg16) = m ((c : Thread nD τ).loc main_arg16) :=
  (nw hostOps1 main_arg16).trans (W7_arg16 m ρ c)
theorem W8_arg17 (c : Dev nD) : W8 m ρ c (Proc.devRef .tc main_arg17) = m ((c : Thread nD τ).loc main_arg17) :=
  (nw hostOps1 main_arg17).trans (W7_arg17 m ρ c)

/-- The second region writes neither the updated coordinates … -/
theorem W9_v29 (c : Dev nD) : W9 m ρ c (Proc.devRef .tc main_v29) = W8 m ρ c (Proc.devRef .tc main_v29) :=
  W9_of_ne m ρ c main_v29 (by decide)

/-- … and leaves the node update in its result array. -/
theorem W9_v33 (c : Dev nD) : W9 m ρ c (Proc.devRef .tc main_v33) = (dat1 (V8 m ρ) c).arrAt 8 cfg1.N :=
  W9_arr m ρ c 8

end Cert.KernelIdeal.Gen

end
-- ==== Proof.Spec.lean ====
/-
  One layer of an equivariant graph network, row by row, on the extended reals.

  Every stage below is a function of a table `Fin n → Fin K → EReal` whose value at row `r` depends on row `r`
  of its arguments only, whatever the number `n` of rows: a block of rows of a stage IS the stage of that block
  of rows. The stages: the mean and the variance of a row of 128 entries, the normalised row scaled and shifted
  (`norm`), the gate `y · 1 / (1 + e^(-y))` (`silu`), an affine map of a row (`dense`); the edge messages
  (`edgeFeat`), the weight each edge puts on its coordinate difference (`edgeGate`, `trans`), and the node
  update (`nodeOut`).
-/
import Idealize.ShloMosaic.PureOps.Ideal
import Idealize.ShloMosaic.PureOps.Ideal.Laws

noncomputable section

namespace Cert.Egnn

open Idealize.ShloMosaic

/-- The float word of 128, the length of a row. -/
abbrev w128 : EReal := Ideal.ofBits .f32 0x43000000#32
/-- The float word of the variance's guard. -/
abbrev wEps : EReal := Ideal.ofBits .f32 0x3727C5AC#32

variable {n : Nat}

/-- The mean of row `r`. -/
def mean (x : Fin n → Fin 128 → EReal) (r : Fin n) : EReal := Ideal.div (∑ k : Fin 128, x r k) w128

/-- Row `r` with its mean taken off. -/
def cen (x : Fin n → Fin 128 → EReal) (r : Fin n) (j : Fin 128) : EReal := x r j - mean x r

/-- The variance of row `r`. -/
def var (x : Fin n → Fin 128 → EReal) (r : Fin n) : EReal := Ideal.div (∑ k : Fin 128, cen x r k * cen x r k) w128

/-- Row `r` normalised, scaled by `g` and shifted by `b`. -/
def norm (x : Fin n → Fin 128 → EReal) (g b : Fin 128 → EReal) (r : Fin n) (j : Fin 128) : EReal :=
  cen x r j * Ideal.rsqrt (var x r + wEps) * g j + b j

/-- The gate `y / (1 + e^(-y))`. -/
def silu (y : EReal) : EReal := y * Ideal.logistic y

/-- A normalised row through the gate. -/
def act (x : Fin n → Fin 128 → EReal) (g b : Fin 128 → EReal) (r : Fin n) (j : Fin 128) : EReal :=
  silu (norm x g b r j)

/-- An affine map of row `r`: `x r · W + b`. -/
def dense {K : Nat} (x : Fin n → Fin K → EReal) (W : Fin K → Fin 128 → EReal) (b : Fin 128 → EReal)
    (r : Fin n) (j : Fin 128) : EReal := (∑ k : Fin K, x r k * W k j) + b j

/-- The first edge map, on the row `[h_row, h_col, radial, edge_attr]` of 258 entries, written by the four
    row blocks of its weight: `Wh` (rows 0 … 127), `Wc` (rows 128 … 255), `wr` (row 256) and `we` (row 257). -/
def lin1 (hr hc : Fin n → Fin 128 → EReal) (rad ea : Fin n → EReal) (Wh Wc : Fin 128 → Fin 128 → EReal)
    (wr we b : Fin 128 → EReal) (r : Fin n) (j : Fin 128) : EReal :=
  ((∑ k : Fin 128, hr r k * Wh k j) + (∑ k : Fin 128, hc r k * Wc k j) + rad r * wr j + ea r * we j) + b j

/-- The edge messages: two gated, normalised affine maps of the edge's row. -/
def edgeFeat (hr hc : Fin n → Fin 128 → EReal) (rad ea : Fin n → EReal) (Wh Wc : Fin 128 → Fin 128 → EReal)
    (wr we b1 g1 be1 : Fin 128 → EReal) (W2 : Fin 128 → Fin 128 → EReal) (b2 g2 be2 : Fin 128 → EReal) :
    Fin n → Fin 128 → EReal :=
  act (dense (act (lin1 hr hc rad ea Wh Wc wr we b1) g1 be1) W2 b2) g2 be2

/-- The weight an edge puts on its coordinate difference: a gated, normalised affine map of its message, then
    the product with the one column `cW2`. -/
def edgeGate (ef : Fin n → Fin 128 → EReal) (cW1 : Fin 128 → Fin 128 → EReal) (cb1 cg1 cbe1 : Fin 128 → EReal)
    (cW2 : Fin 128 → EReal) (r : Fin n) : EReal :=
  ∑ k : Fin 128, act (dense ef cW1 cb1) cg1 cbe1 r k * cW2 k

/-- The weighted coordinate difference of an edge. -/
def trans (cd : Fin n → Fin 3 → EReal) (gate : Fin n → EReal) (r : Fin n) (a : Fin 3) : EReal := cd r a * gate r

/-- The first node map, on the row `[h, agg]` of 256 entries, written by the two row blocks of its weight. -/
def nlin1 (h agg : Fin n → Fin 128 → EReal) (W : Fin 256 → Fin 128 → EReal) (b : Fin 128 → EReal)
    (r : Fin n) (j : Fin 128) : EReal :=
  ((∑ k : Fin 128, h r k * W ⟨k.val, by omega⟩ j) + (∑ k : Fin 128, agg r k * W ⟨128 + k.val, by omega⟩ j)) + b j

/-- The node update: the node's row plus an affine map of its gated, normalised first map. -/
def nodeOut (h agg : Fin n → Fin 128 → EReal) (W1 : Fin 256 → Fin 128 → EReal) (b1 g1 be1 : Fin 128 → EReal)
    (W2 : Fin 128 → Fin 128 → EReal) (b2 : Fin 128 → EReal) (r : Fin n) (j : Fin 128) : EReal :=
  h r j + dense (act (nlin1 h agg W1 b1) g1 be1) W2 b2 r j

/-! ## A block of rows of a stage is the stage of the block of rows -/

section Rows
variable {m : Nat} (ι : Fin m → Fin n)

theorem mean_rows (x : Fin n → Fin 128 → EReal) (r : Fin m) : mean (fun q => x (ι q)) r = mean x (ι r) := rfl
theorem cen_rows (x : Fin n → Fin 128 → EReal) (r : Fin m) (j : Fin 128) :
    cen (fun q => x (ι q)) r j = cen x (ι r) j := rfl
theorem var_rows (x : Fin n → Fin 128 → EReal) (r : Fin m) : var (fun q => x (ι q)) r = var x (ι r) := rfl
theorem norm_rows (x : Fin n → Fin 128 → EReal) (g b : Fin 128 → EReal) (r : Fin m) (j : Fin 128) :
    norm (fun q => x (ι q)) g b r j = norm x g b (ι r) j := rfl
theorem act_rows (x : Fin n → Fin 128 → EReal) (g b : Fin 128 → EReal) (r : Fin m) (j : Fin 128) :
    act (fun q => x (ι q)) g b r j = act x g b (ι r) j := rfl
theorem dense_rows {K : Nat} (x : Fin n → Fin K → EReal) (W : Fin K → Fin 128 → EReal) (b : Fin 128 → EReal)
    (r : Fin m) (j : Fin 128) : dense (fun q => x (ι q)) W b r j = dense x W b (ι r) j := rfl
theorem lin1_rows (hr hc : Fin n → Fin 128 → EReal) (rad ea : Fin n → EReal) (Wh Wc : Fin 128 → Fin 128 → EReal)
    (wr we b : Fin 128 → EReal) (r : Fin m) (j : Fin 128) :
    lin1 (fun q => hr (ι q)) (fun q => hc (ι q)) (fun q => rad (ι q)) (fun q => ea (ι q)) Wh Wc wr we b r j
      = lin1 hr hc rad ea Wh Wc wr we b (ι r) j := rfl
theorem edgeFeat_rows (hr hc : Fin n → Fin 128 → EReal) (rad ea : Fin n → EReal) (Wh Wc : Fin 128 → Fin 128 → EReal)
    (wr we b1 g1 be1 : Fin 128 → EReal) (W2 : Fin 128 → Fin 128 → EReal) (b2 g2 be2 : Fin 128 → EReal)
    (r : Fin m) (j : Fin 128) :
    edgeFeat (fun q => hr (ι q)) (fun q => hc (ι q)) (fun q => rad (ι q)) (fun q => ea (ι q)) Wh Wc wr we b1 g1 be1 W2 b2 g2 be2 r j
      = edgeFeat hr hc rad ea Wh Wc wr we b1 g1 be1 W2 b2 g2 be2 (ι r) j := rfl
theorem edgeGate_rows (ef : Fin n → Fin 128 → EReal) (cW1 : Fin 128 → Fin 128 → EReal) (cb1 cg1 cbe1 : Fin 128 → EReal)
    (cW2 : Fin 128 → EReal) (r : Fin m) :
    edgeGate (fun q => ef (ι q)) cW1 cb1 cg1 cbe1 cW2 r = edgeGate ef cW1 cb1 cg1 cbe1 cW2 (ι r) := rfl
theorem nodeOut_rows (h agg : Fin n → Fin 128 → EReal) (W1 : Fin 256 → Fin 128 → EReal) (b1 g1 be1 : Fin 128 → EReal)
    (W2 : Fin 128 → Fin 128 → EReal) (b2 : Fin 128 → EReal) (r : Fin m) (j : Fin 128) :
    nodeOut (fun q => h (ι q)) (fun q => agg (ι q)) W1 b1 g1 be1 W2 b2 r j = nodeOut h agg W1 b1 g1 be1 W2 b2 (ι r) j := rfl

end Rows

/-! ## Sums over a row of 256 or 258 entries, by the row's blocks -/

/-- A sum over 256 entries is the sum over the first 128 plus the sum over the last 128. -/
theorem sum256 (f : Fin 256 → EReal) :
    (∑ k : Fin 256, f k) = (∑ k : Fin 128, f ⟨k.val, by omega⟩) + (∑ k : Fin 128, f ⟨128 + k.val, by omega⟩) := by
  exact Fin.sum_univ_add (a := 128) (b := 128) (f := fun i : Fin (128 + 128) => f i)

/-- A sum over 258 entries is the sums over the first and the second 128 plus the last two entries. -/
theorem sum258 (f : Fin 258 → EReal) :
    (∑ k : Fin 258, f k)
      = (∑ k : Fin 128, f ⟨k.val, by omega⟩) + (∑ k : Fin 128, f ⟨128 + k.val, by omega⟩)
        + f ⟨256, by omega⟩ + f ⟨257, by omega⟩ := by
  have h1 : (∑ k : Fin 258, f k) = (∑ i : Fin 256, f ⟨i.val, by omega⟩) + ∑ i : Fin 2, f ⟨256 + i.val, by omega⟩ :=
    Fin.sum_univ_add (a := 256) (b := 2) (f := fun i : Fin (256 + 2) => f i)
  rw [h1, sum256 (fun i => f ⟨i.val, by omega⟩), Fin.sum_univ_two, ← add_assoc]
  rfl

/-- The float word of one is the number one. -/
theorem ofBits_one : Ideal.ofBits .f32 0x3F800000#32 = 1 := by
  simp [Ideal.ofBits, Ideal.ieee]
  rw [← EReal.coe_mul]
  norm_num

end Cert.Egnn

end
-- ==== Proof.EdgeBodyA.lean ====
/-
  The edge kernel's body, first half, read at an entry of a block of 2000 edges: the first edge map without its shift
  (the two matrix products over 128 entries each and the two single columns), the second edge map of the gated,
  normalised first one, and the row mean and the row's sum of squared deviations of the second map.
-/
import proofs.«419454_j9414568313009_1_alg».proof.Proof.Gen.KernelIdeal.Skeleton
import proofs.«419454_j9414568313009_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeBody

open Idealize.ShloMosaic Idealize.ShloMosaic.ValueIdx Cert.KernelIdeal Cert.KernelIdeal.Gen Cert.Egnn

/-! ## The layout operations of the body, read at an entry -/

/-- A column of 2000 entries spread over 128 channels reads, at `(r, j)`, the column at `r`. -/
theorem bcastCol_apply (v : FVec Ideal S2000x1 .f32) (r : Fin 2000) (j : Fin 128) :
    broadcastTo S2000x128 v broadcasts_S2000x1_S2000x128 (ix2 r j) = v (ix2 r (0 : Fin 1)) := by
  refine broadcastTo_apply v broadcasts_S2000x1_S2000x128 (ix2 r j) (ix2 r (0 : Fin 1)) fun ax => ?_
  match ax with
  | ⟨0, _⟩ =>
    show r.val = if (2000 : Nat) = 1 then 0 else r.val
    rw [if_neg (by decide)]
  | ⟨1, _⟩ => rfl

/-- A row of 128 channels spread over 2000 edges reads, at `(r, j)`, the row at `j`. -/
theorem bcastRow_apply (v : FVec Ideal S1x128 .f32) (r : Fin 2000) (j : Fin 128) :
    broadcastTo S2000x128 v broadcasts_S1x128_S2000x128 (ix2 r j) = v (ix2 (0 : Fin 1) j) :=
  broadcastTo_1b_ab_apply v broadcasts_S1x128_S2000x128 r j

/-- A vector of 128 channels seen as one row reads, at `(u, j)`, the vector at `j`. -/
theorem castRow_apply (v : FVec Ideal S128 .f32) (u : Fin 1) (j : Fin 128) :
    shapeCast S1x128 v shapeCasts_S128_S1x128 (ix2 u j) = v (ix1 j) :=
  shapeCast_a_1a_apply v shapeCasts_S128_S1x128 u j

/-- A vector of 2000 entries seen as one column reads, at `(r, u)`, the vector at `r`. -/
theorem castCol_apply (v : FVec Ideal S2000 .f32) (r : Fin 2000) (u : Fin 1) :
    shapeCast S2000x1 v shapeCasts_S2000_S2000x1 (ix2 r u) = v (ix1 r) :=
  shapeCast_apply v shapeCasts_S2000_S2000x1 _ _ (by
    have hu : u.val = 0 := by omega
    rw [Shape.rowMajor_val_two, Shape.rowMajor_val_one]
    show r.val = r.val * 1 + u.val
    rw [hu, Nat.mul_one, Nat.add_zero])

/-- The sum over the 128 channels of a block, at edge `r`. -/
theorem laneSum_apply (x : FVec Ideal S2000x128 .f32) (hφ : FTy.f32 = FTy.f32 ∨ FTy.f32 = FTy.bf16)
    (hacc : (0x00000000#32 : BitVec 32) = 0x00000000#32) (r : Fin 2000) :
    multiReduction (F := Ideal) .add [1] S2000 x 0x00000000#32 reduces_S2000x128_S2000 hφ hacc (ix1 r)
      = ∑ k : Fin 128, x (ix2 r k) := by
  refine (Ideal.multiReduction_add_single x 0x00000000#32 reduces_S2000x128_S2000 hφ hacc (ix1 r)).trans ?_
  refine Finset.sum_congr rfl fun k _ => congrArg x ?_
  funext a
  match a with
  | ⟨0, _⟩ => rfl
  | ⟨1, _⟩ => rfl

/-- A block's entrywise inverse square root, at an entry. -/
theorem rsqrt_apply {s : Shape} (a : FVec Ideal s .f32) (i : s.Idx) : rsqrt a i = Ideal.rsqrt (a i) := rfl
/-- A block's entrywise logistic function, at an entry. -/
theorem logistic_apply {s : Shape} (a : FVec Ideal s .f32) (i : s.Idx) : logistic a i = Ideal.logistic (a i) := rfl

/-! ## The matrix product of a block of 2000 rows with a 128 × 128 matrix, read at an entry -/

theorem dot_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dot_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dot_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero block, at `(r, j)`: the sum over the 128 shared entries. -/
theorem matmul_read (x : FVec Ideal S2000x128 .bf16) (w : FVec Ideal S128x128 .bf16) (r : Fin 2000) (j : Fin 128) :
    matmul dot_S2000x128_S128x128_S2000x128_1_0_0_1_n_n none x w (constant (F := Ideal) S2000x128 .f32 0x00000000#32) (ix2 r j)
      = ∑ k : Fin 128, x (ix2 r k) * w (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun a => Fin.ext (by
    match a with
    | ⟨0, _⟩ => exact dot_lhs_0 _ _
    | ⟨1, _⟩ => exact (dot_lhs_1 _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun a => Fin.ext (by
    match a with
    | ⟨0, _⟩ => exact (dot_rhs_0 _ _).trans hk
    | ⟨1, _⟩ => exact dot_rhs_1 _ _)
  rw [el, er]

/-! ## The payloads of the body, read at an entry -/

/-- The shift of the first edge map as one row. -/
theorem pay4_apply (v21 : Vec Ideal S128 .f32) (j : Fin 128) :
    k0_pay4 (F := Ideal) v21 (ix2 (0 : Fin 1) j) = v21 (ix1 j) := by
  unfold k0_pay4
  exact castRow_apply v21 0 j

/-- The first edge map without its shift, at edge `r` and channel `j`. -/
theorem pay3_apply (v0 v2 : Vec Ideal S2000x128 .f32) (v4 v6 : Vec Ideal S2000x1 .f32)
    (v11 v14 : Vec Ideal S128x128 .f32) (v17 v19 : Vec Ideal S128 .f32) (r : Fin 2000) (j : Fin 128) :
    k0_pay3 (F := Ideal) v0 v2 v4 v6 v11 v14 v17 v19 (ix2 r j)
      = (∑ k : Fin 128, v0 (ix2 r k) * v11 (ix2 k j)) + (∑ k : Fin 128, v2 (ix2 r k) * v14 (ix2 k j))
        + v4 (ix2 r (0 : Fin 1)) * v17 (ix1 j) + v6 (ix2 r (0 : Fin 1)) * v19 (ix1 j) := by
  unfold k0_pay3
  simp only [shapeCast_self, addf_apply, mulf_apply, matmul_read, bcastCol_apply, bcastRow_apply, castRow_apply, truncf_apply]

/-- The second edge map: an affine map of the gated, normalised shifted first map. -/
theorem pay5_apply (v22 v23 : Vec Ideal S128 .f32) (v36 : FVec Ideal S2000x128 .f32) (v37 : FVec Ideal S1x128 .f32)
    (v66 : Vec Ideal S128x128 .f32) (v68 : Vec Ideal S128 .f32) (r : Fin 2000) (j : Fin 128) :
    k0_pay5 (F := Ideal) v22 v23 v36 v37 v66 v68 (ix2 r j)
      = dense (act (fun r k => v36 (ix2 r k) + v37 (ix2 (0 : Fin 1) k)) (fun k => v22 (ix1 k)) (fun k => v23 (ix1 k)))
          (fun k j => v66 (ix2 k j)) (fun j => v68 (ix1 j)) r j := by
  unfold k0_pay5
  simp only [addf_apply, mulf_apply, subf_apply, divf_apply, rsqrt_apply, logistic_apply, matmul_read, bcastRow_apply,
    bcastCol_apply, castRow_apply, castCol_apply, truncf_apply, broadcast_apply]
  rw [laneSum_apply]
  simp only [addf_apply, bcastRow_apply]
  rw [laneSum_apply]
  simp only [addf_apply, mulf_apply, subf_apply, divf_apply, bcastRow_apply, bcastCol_apply, castCol_apply, broadcast_apply]
  rw [laneSum_apply]
  simp only [addf_apply, bcastRow_apply]
  rfl

/-- The row mean of the second edge map. -/
theorem pay6_apply (v22 v23 : Vec Ideal S128 .f32) (v36 : FVec Ideal S2000x128 .f32) (v37 : FVec Ideal S1x128 .f32)
    (v66 : Vec Ideal S128x128 .f32) (v68 : Vec Ideal S128 .f32) (r : Fin 2000) :
    k0_pay6 (F := Ideal) v22 v23 v36 v37 v66 v68 (ix2 r (0 : Fin 1))
      = mean (fun r k => k0_pay5 (F := Ideal) v22 v23 v36 v37 v66 v68 (ix2 r k)) r := by
  unfold k0_pay6
  generalize k0_pay5 (F := Ideal) v22 v23 v36 v37 v66 v68 = y
  simp only [divf_apply, castCol_apply, broadcast_apply]
  rw [laneSum_apply]
  rfl

/-- The row's sum of squared deviations of the second edge map. -/
theorem pay7_apply (v22 v23 : Vec Ideal S128 .f32) (v36 : FVec Ideal S2000x128 .f32) (v37 : FVec Ideal S1x128 .f32)
    (v66 : Vec Ideal S128x128 .f32) (v68 : Vec Ideal S128 .f32) (r : Fin 2000) :
    k0_pay7 (F := Ideal) v22 v23 v36 v37 v66 v68 (ix1 r)
      = ∑ k : Fin 128, cen (fun r k => k0_pay5 (F := Ideal) v22 v23 v36 v37 v66 v68 (ix2 r k)) r k
          * cen (fun r k => k0_pay5 (F := Ideal) v22 v23 v36 v37 v66 v68 (ix2 r k)) r k := by
  unfold k0_pay7
  rw [laneSum_apply]
  simp only [mulf_apply, subf_apply, bcastCol_apply, pay6_apply]
  rfl

end Cert.KernelIdeal.EdgeBody

end
-- ==== Proof.EdgeBodyB.lean ====
/-
  The edge kernel's body, second half, read at an entry of a block of 2000 edges: the edge message from the second map,
  its row mean and its row's sum of squared deviations; the coordinate map of the message, its mean, its centred
  row and its guarded variance; and the weighted coordinate difference.
-/
import proofs.«419454_j9414568313009_1_alg».proof.Proof.Gen.KernelIdeal.Skeleton
import proofs.«419454_j9414568313009_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeBody

open Idealize.ShloMosaic Idealize.ShloMosaic.ValueIdx Cert.KernelIdeal Cert.KernelIdeal.Gen Cert.Egnn

/-! ## The operations that are not entrywise, read at an entry -/

/-- A column broadcast along the lanes reads, at row p and lane c, the column at row p. -/
private theorem bcastColB {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of a entries cast to a column reads, at row i, the vector at i. -/
private theorem castColB {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a table of 2000 rows of 128 entries, at row r. -/
private theorem laneSumB (src : FVec Ideal S2000x128 .f32) (h : S2000x128.Reduces [1] S2000) (hφ : FKind.Formats .f32)
    (hacc : (0x00000000#32 : BitVec 32) = 0x00000000#32) (r : Fin 2000) :
    multiReduction (F := Ideal) .add [1] S2000 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

/-- A reciprocal root of a table reads, at an entry, the reciprocal root of the entry. -/
private theorem rsqrtB_apply {s : Shape} {φ : FTy} (a : FVec Ideal s φ) (i : s.Idx) : rsqrt a i = Ideal.rsqrt (a i) := rfl
/-- The gate's factor of a table reads, at an entry, the factor of the entry. -/
private theorem logisticB_apply {s : Shape} {φ : FTy} (a : FVec Ideal s φ) (i : s.Idx) : logistic a i = Ideal.logistic (a i) := rfl

/-! ### The two products: their operand entries, axis by axis -/

private theorem lhsB9_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
private theorem lhsB9_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
private theorem rhsB9_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
private theorem rhsB9_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a table of 2000 rows of 128 entries with a 128 by 128 matrix, at row r and column j. -/
private theorem matmulB9 (x : FVec Ideal S2000x128 .bf16) (w : FVec Ideal S128x128 .bf16) (r : Fin 2000) (j : Fin 128) :
    matmul dot_S2000x128_S128x128_S2000x128_1_0_0_1_n_n none x w (constant (F := Ideal) S2000x128 .f32 0x00000000#32) (ix2 r j)
      = ∑ k : Fin 128, x (ix2 r k) * w (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun a => Fin.ext (by
    match a with
    | ⟨0, _⟩ => exact lhsB9_0 _ _
    | ⟨1, _⟩ => exact (lhsB9_1 _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun a => Fin.ext (by
    match a with
    | ⟨0, _⟩ => exact (rhsB9_0 _ _).trans hk
    | ⟨1, _⟩ => exact rhsB9_1 _ _)
  rw [el, er]

private theorem lhsB1_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
private theorem lhsB1_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
private theorem rhsB1_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
private theorem rhsB1_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- The product of a table of 2000 rows of 128 entries with one column of 128 entries, at row r. -/
private theorem matmulB1 (x : FVec Ideal S2000x128 .bf16) (w : FVec Ideal S128x1 .bf16) (r : Fin 2000) (u : Fin 1) :
    matmul dot_S2000x128_S128x1_S2000x1_1_0_0_1_n_n none x w (constant (F := Ideal) S2000x1 .f32 0x00000000#32) (ix2 r u)
      = ∑ k : Fin 128, x (ix2 r k) * w (ix2 k u) := by
  simp only [matmul]
  rw [Ideal.matmul_constant_zero_apply, ← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 r u) ((contrEquiv1 dot_S2000x128_S128x1_S2000x1_1_0_0_1_n_n 128 rfl rfl).symm k) = ix2 r k := funext fun a => Fin.ext (by
    match a with
    | ⟨0, _⟩ => exact lhsB1_0 _ _
    | ⟨1, _⟩ => exact (lhsB1_1 _ _).trans hk)
  have er : dot_S2000x128_S128x1_S2000x1_1_0_0_1_n_n.rhsIdx (ix2 r u) ((contrEquiv1 dot_S2000x128_S128x1_S2000x1_1_0_0_1_n_n 128 rfl rfl).symm k) = ix2 k u := funext fun a => Fin.ext (by
    match a with
    | ⟨0, _⟩ => exact (rhsB1_0 _ _).trans hk
    | ⟨1, _⟩ => exact rhsB1_1 _ _)
  rw [el, er]

/-! ## The payloads -/

/-- The edge message: the second map centred by its mean `v79`, scaled by the reciprocal root of the guarded
    variance (the sum of squares `v83` over 128), by `v69`, shifted by `v70`, through the gate. -/
theorem pay8_apply (v69 v70 : Vec Ideal S128 .f32) (v75 : FVec Ideal S2000x128 .f32) (v79 : FVec Ideal S2000x1 .f32)
    (v83 : FVec Ideal S2000 .f32) (r : Fin 2000) (j : Fin 128) :
    k0_pay8 (F := Ideal) v69 v70 v75 v79 v83 (ix2 r j)
      = silu ((v75 (ix2 r j) - v79 (ix2 r (0 : Fin 1))) * Ideal.rsqrt (Ideal.div (v83 (ix1 r)) w128 + wEps) * v69 (ix1 j)
          + v70 (ix1 j)) := by
  unfold k0_pay8 silu
  simp only [mulf_apply, addf_apply, subf_apply, divf_apply, logisticB_apply, rsqrtB_apply, broadcast_apply,
    bcastColB, broadcastTo_1b_ab_apply, shapeCast_a_1a_apply, castColB]
  rfl

/-- The coordinate map of the edge message. -/
theorem pay9_apply (v69 v70 : Vec Ideal S128 .f32) (v75 : FVec Ideal S2000x128 .f32) (v79 : FVec Ideal S2000x1 .f32)
    (v83 : FVec Ideal S2000 .f32) (v103 : Vec Ideal S128x128 .f32) (v105 : Vec Ideal S128 .f32) (r : Fin 2000) (j : Fin 128) :
    k0_pay9 (F := Ideal) v69 v70 v75 v79 v83 v103 v105 (ix2 r j)
      = dense (fun r k => k0_pay8 (F := Ideal) v69 v70 v75 v79 v83 (ix2 r k)) (fun k j => v103 (ix2 k j))
          (fun j => v105 (ix1 j)) r j := by
  unfold k0_pay9 dense
  generalize k0_pay8 (F := Ideal) v69 v70 v75 v79 v83 = y
  simp only [addf_apply, matmulB9, truncf_apply, broadcastTo_1b_ab_apply, shapeCast_a_1a_apply]

/-- Its row mean. -/
theorem pay10_apply (v69 v70 : Vec Ideal S128 .f32) (v75 : FVec Ideal S2000x128 .f32) (v79 : FVec Ideal S2000x1 .f32)
    (v83 : FVec Ideal S2000 .f32) (v103 : Vec Ideal S128x128 .f32) (v105 : Vec Ideal S128 .f32) (r : Fin 2000) :
    k0_pay10 (F := Ideal) v69 v70 v75 v79 v83 v103 v105 (ix2 r (0 : Fin 1))
      = mean (fun r k => k0_pay9 (F := Ideal) v69 v70 v75 v79 v83 v103 v105 (ix2 r k)) r := by
  unfold k0_pay10 mean
  generalize k0_pay9 (F := Ideal) v69 v70 v75 v79 v83 v103 v105 = y
  simp only [divf_apply, castColB, broadcast_apply]
  rw [laneSumB]
  rfl

/-- Its centred row. -/
theorem pay11_apply (v69 v70 : Vec Ideal S128 .f32) (v75 : FVec Ideal S2000x128 .f32) (v79 : FVec Ideal S2000x1 .f32)
    (v83 : FVec Ideal S2000 .f32) (v103 : Vec Ideal S128x128 .f32) (v105 : Vec Ideal S128 .f32) (r : Fin 2000) (j : Fin 128) :
    k0_pay11 (F := Ideal) v69 v70 v75 v79 v83 v103 v105 (ix2 r j)
      = cen (fun r k => k0_pay9 (F := Ideal) v69 v70 v75 v79 v83 v103 v105 (ix2 r k)) r j := by
  unfold k0_pay11 cen
  simp only [subf_apply, bcastColB, pay10_apply]

/-- Its guarded variance. -/
theorem pay12_apply (v69 v70 : Vec Ideal S128 .f32) (v75 : FVec Ideal S2000x128 .f32) (v79 : FVec Ideal S2000x1 .f32)
    (v83 : FVec Ideal S2000 .f32) (v103 : Vec Ideal S128x128 .f32) (v105 : Vec Ideal S128 .f32) (r : Fin 2000) :
    k0_pay12 (F := Ideal) v69 v70 v75 v79 v83 v103 v105 (ix2 r (0 : Fin 1))
      = var (fun r k => k0_pay9 (F := Ideal) v69 v70 v75 v79 v83 v103 v105 (ix2 r k)) r + wEps := by
  unfold k0_pay12 var cen
  simp only [addf_apply, divf_apply, castColB, broadcast_apply]
  rw [laneSumB]
  simp only [mulf_apply, subf_apply, bcastColB, pay10_apply]
  rfl

/-- The coordinate differences as loaded. -/
theorem pay2_apply (v7 : Vec Ideal S2000x3 .f32) (i : S2000x3.Idx) : k0_pay2 (F := Ideal) v7 i = v7 i := by
  unfold k0_pay2
  rw [shapeCast_self]

/-- The weighted coordinate difference: the difference times the product of the gated, normalised coordinate map
    (centred row `v125`, guarded variance `v127`, scale `v106`, shift `v107`) with the one column `v139`. -/
theorem pay1_apply (v8 : FVec Ideal S2000x3 .f32) (v106 v107 : Vec Ideal S128 .f32) (v125 : FVec Ideal S2000x128 .f32)
    (v127 : FVec Ideal S2000x1 .f32) (v139 : Vec Ideal S128x1 .f32) (r : Fin 2000) (a : Fin 3) :
    k0_pay1 (F := Ideal) v8 v106 v107 v125 v127 v139 (ix2 r a)
      = v8 (ix2 r a) * ∑ k : Fin 128,
          silu (v125 (ix2 r k) * Ideal.rsqrt (v127 (ix2 r (0 : Fin 1))) * v106 (ix1 k) + v107 (ix1 k))
            * v139 (ix2 k (0 : Fin 1)) := by
  unfold k0_pay1 silu
  simp only [mulf_apply, bcastColB, matmulB1, truncf_apply, addf_apply, logisticB_apply, rsqrtB_apply,
    broadcastTo_1b_ab_apply, shapeCast_a_1a_apply]

end Cert.KernelIdeal.EdgeBody

end
-- ==== Proof.NodeBody.lean ====
/-
  The node kernel's body read at an entry of a block of 5000 nodes: the gated, normalised first node map of the row
  `[h, agg]` of 256 entries, and the node's row plus the second node map of it.
-/
import proofs.«419454_j9414568313009_1_alg».proof.Proof.Gen.KernelIdeal.Skeleton
import proofs.«419454_j9414568313009_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodeBody

open Idealize.ShloMosaic Idealize.ShloMosaic.ValueIdx Cert.KernelIdeal Cert.KernelIdeal.Gen Cert.Egnn

/-! ## The second node map: a product with a 128 × 128 weight -/

private theorem lhsB_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhsB_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhsB_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhsB_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block of rows of 128 entries with a 128 × 128 weight, at an entry: the sum over the row. -/
private theorem matmulB_apply (a : FVec Ideal S5000x128 .bf16) (w : FVec Ideal S128x128 .bf16) (r : Fin 5000) (j : Fin 128) :
    matmul dot_S5000x128_S128x128_S5000x128_1_0_0_1_n_n none a w (constant S5000x128 .f32 0x00000000#32) (ix2 r j)
      = ∑ k : Fin 128, a (ix2 r k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhsB_0 _ _
    | ⟨1, _⟩ => exact (lhsB_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-- A row of 128 entries laid over every row of a block, at an entry. -/
private theorem rowB_apply (b : FVec Ideal S128 .f32) (r : Fin 5000) (j : Fin 128) :
    broadcastTo S5000x128 (shapeCast S1x128 b shapeCasts_S128_S1x128) broadcasts_S1x128_S5000x128 (ix2 r j) = b (ix1 j) := by
  rw [broadcastTo_1b_ab_apply, shapeCast_a_1a_apply]

/-- The second node weight as loaded. -/
theorem pay3_apply (v40 : Vec Ideal S128x128 .f32) (i : S128x128.Idx) : k1_pay3 (F := Ideal) v40 i = v40 i := rfl

/-- The node's row plus the second node map. -/
theorem pay1_apply (v0 : Vec Ideal S5000x128 .f32) (v39 : FVec Ideal S5000x128 .f32) (v41 : FVec Ideal S128x128 .bf16)
    (v42 : Vec Ideal S128 .f32) (r : Fin 5000) (j : Fin 128) :
    k1_pay1 (F := Ideal) v0 v39 v41 v42 (ix2 r j)
      = v0 (ix2 r j) + ((∑ k : Fin 128, v39 (ix2 r k) * v41 (ix2 k j)) + v42 (ix1 j)) := by
  unfold k1_pay1
  rw [addf_apply, addf_apply, matmulB_apply, rowB_apply]
  rfl

/-! ## The first node map: a product of the row `[h, agg]` with a 256 × 128 weight -/

private theorem lhsA_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
private theorem lhsA_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
private theorem rhsA_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
private theorem rhsA_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product of a block of rows of 256 entries with a 256 × 128 weight, at an entry: the sum over the row. -/
private theorem matmulA_apply (a : FVec Ideal S5000x256 .bf16) (w : FVec Ideal S256x128 .bf16) (r : Fin 5000) (j : Fin 128) :
    matmul dot_S5000x256_S256x128_S5000x128_1_0_0_1_n_n none a w (constant S5000x128 .f32 0x00000000#32) (ix2 r j)
      = ∑ k : Fin 256, a (ix2 r k) * w (ix2 k j) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 r j) ((contrEquiv1 dot_S5000x256_S256x128_S5000x128_1_0_0_1_n_n 256 rfl rfl).symm k) = ix2 r k := funext fun a => Fin.ext (by
    match a with
    | ⟨0, _⟩ => exact lhsA_0 _ _
    | ⟨1, _⟩ => exact (lhsA_1 _ _).trans hk)
  have er : dot_S5000x256_S256x128_S5000x128_1_0_0_1_n_n.rhsIdx (ix2 r j) ((contrEquiv1 dot_S5000x256_S256x128_S5000x128_1_0_0_1_n_n 256 rfl rfl).symm k) = ix2 k j := funext fun a => Fin.ext (by
    match a with
    | ⟨0, _⟩ => exact (rhsA_0 _ _).trans hk
    | ⟨1, _⟩ => exact rhsA_1 _ _)
  rw [el, er]

/-- Two blocks of rows of 128 entries set side by side, at an entry of the left half: the left block there. -/
private theorem catA_left (x y : FVec Ideal S5000x128 .f32) (r : Fin 5000) (k : Fin 128) :
    concatenate S5000x256 1 [⟨S5000x128, x⟩, ⟨S5000x128, y⟩] concatenates_S5000x128_S5000x128_S5000x256_d1 (ix2 r (⟨k.val, by omega⟩ : Fin 256)) = x (ix2 r k) :=
  concatenate_pair_apply_left 1 x y concatenates_S5000x128_S5000x128_S5000x256_d1 _ rfl (ix2 r k) (fun b => by
    match b with
    | ⟨0, _⟩ => rfl
    | ⟨1, _⟩ => rfl)

/-- … and at an entry of the right half: the right block at the entry 128 places to the left. -/
private theorem catA_right (x y : FVec Ideal S5000x128 .f32) (r : Fin 5000) (k : Fin 128) :
    concatenate S5000x256 1 [⟨S5000x128, x⟩, ⟨S5000x128, y⟩] concatenates_S5000x128_S5000x128_S5000x256_d1 (ix2 r (⟨128 + k.val, by omega⟩ : Fin 256)) = y (ix2 r k) :=
  concatenate_pair_apply_right 1 x y concatenates_S5000x128_S5000x128_S5000x256_d1 _ rfl rfl (ix2 r k) (fun b hb => by
    match b, hb with
    | ⟨0, _⟩, _ => rfl
    | ⟨1, _⟩, hb => exact absurd rfl hb)
    (by show k.val + 128 = 128 + k.val; omega)

/-! ## The normalisation of a row of 128 entries -/

/-- The sum of a block along its rows, at a row. -/
private theorem laneSum_apply (x : FVec Ideal S5000x128 .f32) (hφ : FKind.Formats .f32)
    (hacc : (0x00000000#32 : BitVec 32) = 0x00000000#32) (r : Fin 5000) :
    multiReduction (F := Ideal) .add [1] S5000 x 0x00000000#32 reduces_S5000x128_S5000 hφ hacc (ix1 r)
      = ∑ k : Fin 128, x (ix2 r k) := by
  refine (Ideal.multiReduction_add_single x 0x00000000#32 reduces_S5000x128_S5000 hφ hacc (ix1 r)).trans ?_
  refine Finset.sum_congr rfl fun k _ => congrArg x ?_
  funext a
  match a with
  | ⟨0, _⟩ => rfl
  | ⟨1, _⟩ => rfl

/-- A vector of 5000 entries written as a column, at an entry. -/
private theorem colCast_apply (v : FVec Ideal S5000 .f32) (r : Fin 5000) (u : Fin 1) :
    shapeCast S5000x1 v shapeCasts_S5000_S5000x1 (ix2 r u) = v (ix1 r) :=
  shapeCast_apply v shapeCasts_S5000_S5000x1 _ _ (by
    have hu : u.val = 0 := by omega
    rw [Shape.rowMajor_val_two, Shape.rowMajor_val_one]
    show r.val = r.val * 1 + u.val
    rw [hu, Nat.mul_one, Nat.add_zero])

/-- A column laid over every column of a block, at an entry. -/
private theorem colB_apply (c : FVec Ideal S5000x1 .f32) (r : Fin 5000) (j : Fin 128) :
    broadcastTo S5000x128 c broadcasts_S5000x1_S5000x128 (ix2 r j) = c (ix2 r (0 : Fin 1)) := by
  refine broadcastTo_apply c broadcasts_S5000x1_S5000x128 (ix2 r j) (ix2 r (0 : Fin 1)) fun ax => ?_
  match ax with
  | ⟨0, _⟩ =>
    show r.val = if (5000 : Nat) = 1 then 0 else r.val
    rw [if_neg (by decide)]
  | ⟨1, _⟩ => rfl

/-- The first node map of a block of rows, at an entry. -/
private theorem pre_apply (v0 v1 : Vec Ideal S5000x128 .f32) (v4 : Vec Ideal S256x128 .f32) (v6 : Vec Ideal S128 .f32)
    (r : Fin 5000) (j : Fin 128) :
    (addf (matmul dot_S5000x256_S256x128_S5000x128_1_0_0_1_n_n none (truncf .bf16 (concatenate S5000x256 1 [⟨S5000x128, v0⟩, ⟨S5000x128, shapeCast S5000x128 v1 shapeCasts_S5000x128_S5000x128⟩] concatenates_S5000x128_S5000x128_S5000x256_d1) bitsLt_bf16_f32) (truncf .bf16 v4 bitsLt_bf16_f32) (constant S5000x128 .f32 0x00000000#32)) (broadcastTo S5000x128 (shapeCast S1x128 v6 shapeCasts_S128_S1x128) broadcasts_S1x128_S5000x128) : FVec Ideal S5000x128 .f32) (ix2 r j)
      = nlin1 (fun r k => v0 (ix2 r k)) (fun r k => v1 (ix2 r k)) (fun k j => v4 (ix2 k j)) (fun j => v6 (ix1 j)) r j := by
  rw [addf_apply, matmulA_apply, rowB_apply, sum256, shapeCast_self]
  simp only [truncf_apply, catA_left, catA_right]
  rfl

/-- The reciprocal square root of a block, at an entry. -/
private theorem rsqrt_apply {s : Shape} {φ : FTy} (a : FVec Ideal s φ) (i : s.Idx) : rsqrt a i = Ideal.rsqrt (a i) := rfl
/-- The logistic function of a block, at an entry. -/
private theorem logistic_apply {s : Shape} {φ : FTy} (a : FVec Ideal s φ) (i : s.Idx) : logistic a i = Ideal.logistic (a i) := rfl

/-- The gated, normalised first node map. -/
theorem pay2_apply (v0 v1 : Vec Ideal S5000x128 .f32) (v4 : Vec Ideal S256x128 .f32) (v6 v7 v8 : Vec Ideal S128 .f32)
    (r : Fin 5000) (j : Fin 128) :
    k1_pay2 (F := Ideal) v0 v1 v4 v6 v7 v8 (ix2 r j)
      = act (nlin1 (fun r k => v0 (ix2 r k)) (fun r k => v1 (ix2 r k)) (fun k j => v4 (ix2 k j)) (fun j => v6 (ix1 j)))
          (fun j => v7 (ix1 j)) (fun j => v8 (ix1 j)) r j := by
  have hX : (fun (r : Fin 5000) (k : Fin 128) => (addf (matmul dot_S5000x256_S256x128_S5000x128_1_0_0_1_n_n none (truncf .bf16 (concatenate S5000x256 1 [⟨S5000x128, v0⟩, ⟨S5000x128, shapeCast S5000x128 v1 shapeCasts_S5000x128_S5000x128⟩] concatenates_S5000x128_S5000x128_S5000x256_d1) bitsLt_bf16_f32) (truncf .bf16 v4 bitsLt_bf16_f32) (constant S5000x128 .f32 0x00000000#32)) (broadcastTo S5000x128 (shapeCast S1x128 v6 shapeCasts_S128_S1x128) broadcasts_S1x128_S5000x128) : FVec Ideal S5000x128 .f32) (ix2 r k))
      = nlin1 (fun r k => v0 (ix2 r k)) (fun r k => v1 (ix2 r k)) (fun k j => v4 (ix2 k j)) (fun j => v6 (ix1 j)) :=
    funext fun r => funext fun k => pre_apply v0 v1 v4 v6 r k
  unfold k1_pay2
  rw [← hX]
  generalize (addf (matmul dot_S5000x256_S256x128_S5000x128_1_0_0_1_n_n none (truncf .bf16 (concatenate S5000x256 1 [⟨S5000x128, v0⟩, ⟨S5000x128, shapeCast S5000x128 v1 shapeCasts_S5000x128_S5000x128⟩] concatenates_S5000x128_S5000x128_S5000x256_d1) bitsLt_bf16_f32) (truncf .bf16 v4 bitsLt_bf16_f32) (constant S5000x128 .f32 0x00000000#32)) (broadcastTo S5000x128 (shapeCast S1x128 v6 shapeCasts_S128_S1x128) broadcasts_S1x128_S5000x128) : FVec Ideal S5000x128 .f32) = X
  simp only [mulf_apply, addf_apply, subf_apply, divf_apply, rsqrt_apply, logistic_apply, broadcast_apply, rowB_apply,
    colB_apply, colCast_apply]
  rw [laneSum_apply X _ _ r, laneSum_apply _ _ _ r]
  simp only [mulf_apply, subf_apply, divf_apply, broadcast_apply, colB_apply, colCast_apply]
  rw [laneSum_apply X _ _ r]
  rfl

end Cert.KernelIdeal.NodeBody

end
-- ==== Proof.KerBlocks.lean ====
/-
  What each kernel body leaves in its output blocks, read at an entry as a stage of the layer: a block of 2000 edges
  of the edge messages and of the weighted coordinate differences, and a block of 5000 nodes of the node update, each
  as that stage of the blocks the body loads.
-/
import proofs.«419454_j9414568313009_1_alg».proof.Proof.Gen.KernelIdeal.Frame
import proofs.«419454_j9414568313009_1_alg».proof.Proof.EdgeBodyA
import proofs.«419454_j9414568313009_1_alg».proof.Proof.EdgeBodyB
import proofs.«419454_j9414568313009_1_alg».proof.Proof.NodeBody

set_option maxRecDepth 16384

noncomputable section

namespace Cert.KernelIdeal.Blocks

open Idealize.ShloMosaic Idealize.ShloMosaic.ValueIdx Cert.KernelIdeal Cert.KernelIdeal.Gen Cert.Egnn

theorem hz1 : (![0] : Fin 1 → Nat) = fun _ => 0 := funext fun a => by fin_cases a; rfl
theorem hz2 : (![0, 0] : Fin 2 → Nat) = fun _ => 0 := funext fun a => by fin_cases a <;> rfl

/-- The second edge map of a block, as a table. -/
theorem lin2_eq (x0 x1 : Vec Ideal S2000x128 .f32) (x2 x3 : Vec Ideal S2000x1 .f32) (x5 x6 : Vec Ideal S128x128 .f32)
    (x7 x8 x9 x10 x11 : Vec Ideal S128 .f32) (x12 : Vec Ideal S128x128 .f32) (x13 : Vec Ideal S128 .f32) :
    (fun (r : Fin 2000) (k : Fin 128) => k0_pay5 (F := Ideal) x10 x11 (k0_pay3 x0 x1 x2 x3 x5 x6 x7 x8) (k0_pay4 x9) x12 x13 (ix2 r k))
      = dense (act (lin1 (fun r k => x0 (ix2 r k)) (fun r k => x1 (ix2 r k)) (fun r => x2 (ix2 r (0 : Fin 1)))
            (fun r => x3 (ix2 r (0 : Fin 1))) (fun k j => x5 (ix2 k j)) (fun k j => x6 (ix2 k j)) (fun j => x7 (ix1 j))
            (fun j => x8 (ix1 j)) (fun j => x9 (ix1 j))) (fun j => x10 (ix1 j)) (fun j => x11 (ix1 j)))
          (fun k j => x12 (ix2 k j)) (fun j => x13 (ix1 j)) := by
  funext r k
  rw [EdgeBody.pay5_apply]
  have h : (fun (r : Fin 2000) (k : Fin 128) => k0_pay3 (F := Ideal) x0 x1 x2 x3 x5 x6 x7 x8 (ix2 r k) + k0_pay4 (F := Ideal) x9 (ix2 (0 : Fin 1) k))
      = lin1 (fun r k => x0 (ix2 r k)) (fun r k => x1 (ix2 r k)) (fun r => x2 (ix2 r (0 : Fin 1)))
            (fun r => x3 (ix2 r (0 : Fin 1))) (fun k j => x5 (ix2 k j)) (fun k j => x6 (ix2 k j)) (fun j => x7 (ix1 j))
            (fun j => x8 (ix1 j)) (fun j => x9 (ix1 j)) := by
    funext r k
    rw [EdgeBody.pay3_apply, EdgeBody.pay4_apply]
    rfl
  rw [h]

/-- The edge messages of a block of 2000 edges, as a table. -/
theorem ef_eq (x0 x1 : Vec Ideal S2000x128 .f32) (x2 x3 : Vec Ideal S2000x1 .f32) (x5 x6 : Vec Ideal S128x128 .f32)
    (x7 x8 x9 x10 x11 : Vec Ideal S128 .f32) (x12 : Vec Ideal S128x128 .f32) (x13 x14 x15 : Vec Ideal S128 .f32) :
    (fun (r : Fin 2000) (k : Fin 128) => k0_pay8 (F := Ideal) x14 x15 (k0_pay5 x10 x11 (k0_pay3 x0 x1 x2 x3 x5 x6 x7 x8) (k0_pay4 x9) x12 x13) (k0_pay6 x10 x11 (k0_pay3 x0 x1 x2 x3 x5 x6 x7 x8) (k0_pay4 x9) x12 x13) (k0_pay7 x10 x11 (k0_pay3 x0 x1 x2 x3 x5 x6 x7 x8) (k0_pay4 x9) x12 x13) (ix2 r k))
      = edgeFeat (fun r k => x0 (ix2 r k)) (fun r k => x1 (ix2 r k)) (fun r => x2 (ix2 r (0 : Fin 1)))
          (fun r => x3 (ix2 r (0 : Fin 1))) (fun k j => x5 (ix2 k j)) (fun k j => x6 (ix2 k j)) (fun j => x7 (ix1 j))
          (fun j => x8 (ix1 j)) (fun j => x9 (ix1 j)) (fun j => x10 (ix1 j)) (fun j => x11 (ix1 j))
          (fun k j => x12 (ix2 k j)) (fun j => x13 (ix1 j)) (fun j => x14 (ix1 j)) (fun j => x15 (ix1 j)) := by
  funext r j
  have hL := lin2_eq x0 x1 x2 x3 x5 x6 x7 x8 x9 x10 x11 x12 x13
  have hL' : k0_pay5 (F := Ideal) x10 x11 (k0_pay3 x0 x1 x2 x3 x5 x6 x7 x8) (k0_pay4 x9) x12 x13 (ix2 r j) = _ :=
    congrFun (congrFun hL r) j
  rw [EdgeBody.pay8_apply, EdgeBody.pay6_apply, EdgeBody.pay7_apply, hL, hL']
  rfl

/-- The edge messages of a block of 2000 edges. -/
theorem out0_21_apply (x0 x1 : Vec Ideal S2000x128 .f32) (x2 x3 : Vec Ideal S2000x1 .f32) (x4 : Vec Ideal S2000x3 .f32) (x5 x6 : Vec Ideal S128x128 .f32)
    (x7 x8 x9 x10 x11 : Vec Ideal S128 .f32) (x12 : Vec Ideal S128x128 .f32) (x13 x14 x15 : Vec Ideal S128 .f32) (x16 : Vec Ideal S128x128 .f32)
    (x17 x18 x19 : Vec Ideal S128 .f32) (x20 : Vec Ideal S128x1 .f32) (r : Fin 2000) (j : Fin 128) :
    out0_21 (F := Ideal) x0 x1 x2 x3 x4 x5 x6 x7 x8 x9 x10 x11 x12 x13 x14 x15 x16 x17 x18 x19 x20 (ix2 r j)
      = edgeFeat (fun r k => x0 (ix2 r k)) (fun r k => x1 (ix2 r k)) (fun r => x2 (ix2 r (0 : Fin 1)))
          (fun r => x3 (ix2 r (0 : Fin 1))) (fun k j => x5 (ix2 k j)) (fun k j => x6 (ix2 k j)) (fun j => x7 (ix1 j))
          (fun j => x8 (ix1 j)) (fun j => x9 (ix1 j)) (fun j => x10 (ix1 j)) (fun j => x11 (ix1 j))
          (fun k j => x12 (ix2 k j)) (fun j => x13 (ix1 j)) (fun j => x14 (ix1 j)) (fun j => x15 (ix1 j)) r j := by
  unfold out0_21
  rw [View.canon_unit_zero hz2]
  simp only [View.ld_unit_zero (S := S2000x128) hz2, View.ld_unit_zero (S := S2000x1) hz2, View.ld_unit_zero (S := S2000x3) hz2,
    View.ld_unit_zero (S := S128x128) hz2, View.ld_unit_zero (S := S128) hz1, View.ld_unit_zero (S := S128x1) hz2]
  exact congrFun (congrFun (ef_eq x0 x1 x2 x3 x5 x6 x7 x8 x9 x10 x11 x12 x13 x14 x15) r) j

/-- The weighted coordinate differences of a block of 2000 edges. -/
theorem out0_22_apply (x0 x1 : Vec Ideal S2000x128 .f32) (x2 x3 : Vec Ideal S2000x1 .f32) (x4 : Vec Ideal S2000x3 .f32) (x5 x6 : Vec Ideal S128x128 .f32)
    (x7 x8 x9 x10 x11 : Vec Ideal S128 .f32) (x12 : Vec Ideal S128x128 .f32) (x13 x14 x15 : Vec Ideal S128 .f32) (x16 : Vec Ideal S128x128 .f32)
    (x17 x18 x19 : Vec Ideal S128 .f32) (x20 : Vec Ideal S128x1 .f32) (r : Fin 2000) (a : Fin 3) :
    out0_22 (F := Ideal) x0 x1 x2 x3 x4 x5 x6 x7 x8 x9 x10 x11 x12 x13 x14 x15 x16 x17 x18 x19 x20 (ix2 r a)
      = trans (fun r a => x4 (ix2 r a))
          (edgeGate (edgeFeat (fun r k => x0 (ix2 r k)) (fun r k => x1 (ix2 r k)) (fun r => x2 (ix2 r (0 : Fin 1)))
          (fun r => x3 (ix2 r (0 : Fin 1))) (fun k j => x5 (ix2 k j)) (fun k j => x6 (ix2 k j)) (fun j => x7 (ix1 j))
          (fun j => x8 (ix1 j)) (fun j => x9 (ix1 j)) (fun j => x10 (ix1 j)) (fun j => x11 (ix1 j))
          (fun k j => x12 (ix2 k j)) (fun j => x13 (ix1 j)) (fun j => x14 (ix1 j)) (fun j => x15 (ix1 j)))
            (fun k j => x16 (ix2 k j)) (fun j => x17 (ix1 j)) (fun j => x18 (ix1 j)) (fun j => x19 (ix1 j))
            (fun k => x20 (ix2 k (0 : Fin 1)))) r a := by
  unfold out0_22
  rw [View.canon_unit_zero hz2]
  simp only [View.ld_unit_zero (S := S2000x128) hz2, View.ld_unit_zero (S := S2000x1) hz2, View.ld_unit_zero (S := S2000x3) hz2,
    View.ld_unit_zero (S := S128x128) hz2, View.ld_unit_zero (S := S128) hz1, View.ld_unit_zero (S := S128x1) hz2]
  have h9 : (fun (r : Fin 2000) (k : Fin 128) => k0_pay9 (F := Ideal) x14 x15 (k0_pay5 x10 x11 (k0_pay3 x0 x1 x2 x3 x5 x6 x7 x8) (k0_pay4 x9) x12 x13) (k0_pay6 x10 x11 (k0_pay3 x0 x1 x2 x3 x5 x6 x7 x8) (k0_pay4 x9) x12 x13) (k0_pay7 x10 x11 (k0_pay3 x0 x1 x2 x3 x5 x6 x7 x8) (k0_pay4 x9) x12 x13) x16 x17 (ix2 r k))
      = dense (edgeFeat (fun r k => x0 (ix2 r k)) (fun r k => x1 (ix2 r k)) (fun r => x2 (ix2 r (0 : Fin 1)))
          (fun r => x3 (ix2 r (0 : Fin 1))) (fun k j => x5 (ix2 k j)) (fun k j => x6 (ix2 k j)) (fun j => x7 (ix1 j))
          (fun j => x8 (ix1 j)) (fun j => x9 (ix1 j)) (fun j => x10 (ix1 j)) (fun j => x11 (ix1 j))
          (fun k j => x12 (ix2 k j)) (fun j => x13 (ix1 j)) (fun j => x14 (ix1 j)) (fun j => x15 (ix1 j))) (fun k j => x16 (ix2 k j)) (fun j => x17 (ix1 j)) := by
    funext r k
    rw [EdgeBody.pay9_apply, ef_eq]
  rw [EdgeBody.pay1_apply]
  simp only [EdgeBody.pay2_apply, EdgeBody.pay11_apply, EdgeBody.pay12_apply, h9]
  rfl

/-- The node update of a block of 5000 nodes. -/
theorem out1_8_apply (x0 x1 : Vec Ideal S5000x128 .f32) (x2 : Vec Ideal S256x128 .f32) (x3 x4 x5 : Vec Ideal S128 .f32) (x6 : Vec Ideal S128x128 .f32)
    (x7 : Vec Ideal S128 .f32) (r : Fin 5000) (j : Fin 128) :
    out1_8 (F := Ideal) x0 x1 x2 x3 x4 x5 x6 x7 (ix2 r j)
      = nodeOut (fun r k => x0 (ix2 r k)) (fun r k => x1 (ix2 r k)) (fun k j => x2 (ix2 k j)) (fun j => x3 (ix1 j))
          (fun j => x4 (ix1 j)) (fun j => x5 (ix1 j)) (fun k j => x6 (ix2 k j)) (fun j => x7 (ix1 j)) r j := by
  unfold out1_8
  rw [View.canon_unit_zero hz2]
  simp only [View.ld_unit_zero (S := S5000x128) hz2, View.ld_unit_zero (S := S256x128) hz2,
    View.ld_unit_zero (S := S128x128) hz2, View.ld_unit_zero (S := S128) hz1]
  rw [NodeBody.pay1_apply]
  simp only [NodeBody.pay2_apply, NodeBody.pay3_apply]
  rfl

end Cert.KernelIdeal.Blocks

end
-- ==== Proof.KerCover0.lean ====
/-
  The edge region's windows over their arrays. The region runs over 200 points; point `t` reads rows
  2000 t … 2000 t + 1999 of each of the five edge tables and the whole of each weight, and writes back rows
  2000 t … 2000 t + 1999 of the two result tables. So a block read at row `r` is the table read at row 2000 t + r, and
  a result table whose block at every point is a function `E` of the table's own row and column ends holding `E`.
-/
import proofs.«419454_j9414568313009_1_alg».proof.Proof.Gen.KernelIdeal.Frame
import Idealize.ShloMosaic.Lib.ValueIdx
import Idealize.ShloMosaic.Lib.Pipeline.Value

set_option maxRecDepth 16384

noncomputable section

namespace Cert.KernelIdeal.Cover

open Idealize.ShloMosaic Idealize.ShloMosaic.TcCoe Idealize.ShloMosaic.ValueIdx Idealize.SL.Sem Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-- Row `r` of point `t`'s block as a row of the edge tables. -/
def erow (t : Fin cfg0.N) (r : Fin 2000) : Fin 400000 :=
  ⟨2000 * t.val + r.val, by have h : cfg0.N = 200 := rfl; have := t.isLt; have := r.isLt; omega⟩

/-! ## The windows' block indices, over the grid's 200 points -/

/-- Window 0's block at point `t` is block `t` of the rows, the one block of the columns. -/
theorem idx0_0 : ∀ t : Fin cfg0.N, win0_0.index t (0 : Fin 2) = t.val ∧ win0_0.index t (1 : Fin 2) = 0 :=
  (by decide +kernel : ∀ t : Fin grid0.N, _)
/-- Window 1's block at point `t` is block `t` of the rows, the one block of the columns. -/
theorem idx0_1 : ∀ t : Fin cfg0.N, win0_1.index t (0 : Fin 2) = t.val ∧ win0_1.index t (1 : Fin 2) = 0 :=
  (by decide +kernel : ∀ t : Fin grid0.N, _)
/-- Window 2's block at point `t` is block `t` of the rows, the one block of the columns. -/
theorem idx0_2 : ∀ t : Fin cfg0.N, win0_2.index t (0 : Fin 2) = t.val ∧ win0_2.index t (1 : Fin 2) = 0 :=
  (by decide +kernel : ∀ t : Fin grid0.N, _)
/-- Window 3's block at point `t` is block `t` of the rows, the one block of the columns. -/
theorem idx0_3 : ∀ t : Fin cfg0.N, win0_3.index t (0 : Fin 2) = t.val ∧ win0_3.index t (1 : Fin 2) = 0 :=
  (by decide +kernel : ∀ t : Fin grid0.N, _)
/-- Window 4's block at point `t` is block `t` of the rows, the one block of the columns. -/
theorem idx0_4 : ∀ t : Fin cfg0.N, win0_4.index t (0 : Fin 2) = t.val ∧ win0_4.index t (1 : Fin 2) = 0 :=
  (by decide +kernel : ∀ t : Fin grid0.N, _)
/-- Window 5's block is the one block of its array, at every point. -/
theorem idx0_5 : ∀ t : Fin cfg0.N, win0_5.index t (0 : Fin 2) = 0 ∧ win0_5.index t (1 : Fin 2) = 0 :=
  (by decide +kernel : ∀ t : Fin grid0.N, _)
/-- Window 6's block is the one block of its array, at every point. -/
theorem idx0_6 : ∀ t : Fin cfg0.N, win0_6.index t (0 : Fin 2) = 0 ∧ win0_6.index t (1 : Fin 2) = 0 :=
  (by decide +kernel : ∀ t : Fin grid0.N, _)
/-- Window 7's block is the one block of its array, at every point. -/
theorem idx0_7 : ∀ t : Fin cfg0.N, win0_7.index t (0 : Fin 1) = 0 :=
  (by decide +kernel : ∀ t : Fin grid0.N, _)
/-- Window 8's block is the one block of its array, at every point. -/
theorem idx0_8 : ∀ t : Fin cfg0.N, win0_8.index t (0 : Fin 1) = 0 :=
  (by decide +kernel : ∀ t : Fin grid0.N, _)
/-- Window 9's block is the one block of its array, at every point. -/
theorem idx0_9 : ∀ t : Fin cfg0.N, win0_9.index t (0 : Fin 1) = 0 :=
  (by decide +kernel : ∀ t : Fin grid0.N, _)
/-- Window 10's block is the one block of its array, at every point. -/
theorem idx0_10 : ∀ t : Fin cfg0.N, win0_10.index t (0 : Fin 1) = 0 :=
  (by decide +kernel : ∀ t : Fin grid0.N, _)
/-- Window 11's block is the one block of its array, at every point. -/
theorem idx0_11 : ∀ t : Fin cfg0.N, win0_11.index t (0 : Fin 1) = 0 :=
  (by decide +kernel : ∀ t : Fin grid0.N, _)
/-- Window 12's block is the one block of its array, at every point. -/
theorem idx0_12 : ∀ t : Fin cfg0.N, win0_12.index t (0 : Fin 2) = 0 ∧ win0_12.index t (1 : Fin 2) = 0 :=
  (by decide +kernel : ∀ t : Fin grid0.N, _)
/-- Window 13's block is the one block of its array, at every point. -/
theorem idx0_13 : ∀ t : Fin cfg0.N, win0_13.index t (0 : Fin 1) = 0 :=
  (by decide +kernel : ∀ t : Fin grid0.N, _)
/-- Window 14's block is the one block of its array, at every point. -/
theorem idx0_14 : ∀ t : Fin cfg0.N, win0_14.index t (0 : Fin 1) = 0 :=
  (by decide +kernel : ∀ t : Fin grid0.N, _)
/-- Window 15's block is the one block of its array, at every point. -/
theorem idx0_15 : ∀ t : Fin cfg0.N, win0_15.index t (0 : Fin 1) = 0 :=
  (by decide +kernel : ∀ t : Fin grid0.N, _)
/-- Window 16's block is the one block of its array, at every point. -/
theorem idx0_16 : ∀ t : Fin cfg0.N, win0_16.index t (0 : Fin 2) = 0 ∧ win0_16.index t (1 : Fin 2) = 0 :=
  (by decide +kernel : ∀ t : Fin grid0.N, _)
/-- Window 17's block is the one block of its array, at every point. -/
theorem idx0_17 : ∀ t : Fin cfg0.N, win0_17.index t (0 : Fin 1) = 0 :=
  (by decide +kernel : ∀ t : Fin grid0.N, _)
/-- Window 18's block is the one block of its array, at every point. -/
theorem idx0_18 : ∀ t : Fin cfg0.N, win0_18.index t (0 : Fin 1) = 0 :=
  (by decide +kernel : ∀ t : Fin grid0.N, _)
/-- Window 19's block is the one block of its array, at every point. -/
theorem idx0_19 : ∀ t : Fin cfg0.N, win0_19.index t (0 : Fin 1) = 0 :=
  (by decide +kernel : ∀ t : Fin grid0.N, _)
/-- Window 20's block is the one block of its array, at every point. -/
theorem idx0_20 : ∀ t : Fin cfg0.N, win0_20.index t (0 : Fin 2) = 0 ∧ win0_20.index t (1 : Fin 2) = 0 :=
  (by decide +kernel : ∀ t : Fin grid0.N, _)
/-- Window 21's block at point `t` is block `t` of the rows, the one block of the columns. -/
theorem idx0_21 : ∀ t : Fin cfg0.N, win0_21.index t (0 : Fin 2) = t.val ∧ win0_21.index t (1 : Fin 2) = 0 :=
  (by decide +kernel : ∀ t : Fin grid0.N, _)
/-- Window 22's block at point `t` is block `t` of the rows, the one block of the columns. -/
theorem idx0_22 : ∀ t : Fin cfg0.N, win0_22.index t (0 : Fin 2) = t.val ∧ win0_22.index t (1 : Fin 2) = 0 :=
  (by decide +kernel : ∀ t : Fin grid0.N, _)

/-! ## The input blocks -/

theorem iblk0_0 (c : Dev nD) (t : Fin cfg0.N) (r : Fin 2000) (k : Fin 128) :
    (iblk0 V c 0 t : S2000x128.Idx → Elt F .f32) (ix2 r k) = (V c main_v4 : S400000x128.Idx → Elt F .f32) (ix2 (erow t r) k) := by
  obtain ⟨e0, e1⟩ := idx0_0 t
  unfold iblk0
  rw [View.read_apply]
  show V c main_v4 _ = V c main_v4 _
  congr 1
  funext a
  apply Fin.ext
  match a with
  | ⟨0, _⟩ => show win0_0.index t (0 : Fin 2) * 2000 + 1 * r.val = 2000 * t.val + r.val; rw [e0]; omega
  | ⟨1, _⟩ => show win0_0.index t (1 : Fin 2) * 128 + 1 * k.val = k.val; rw [e1]; omega

theorem iblk0_1 (c : Dev nD) (t : Fin cfg0.N) (r : Fin 2000) (k : Fin 128) :
    (iblk0 V c 1 t : S2000x128.Idx → Elt F .f32) (ix2 r k) = (V c main_v5 : S400000x128.Idx → Elt F .f32) (ix2 (erow t r) k) := by
  obtain ⟨e0, e1⟩ := idx0_1 t
  unfold iblk0
  rw [View.read_apply]
  show V c main_v5 _ = V c main_v5 _
  congr 1
  funext a
  apply Fin.ext
  match a with
  | ⟨0, _⟩ => show win0_1.index t (0 : Fin 2) * 2000 + 1 * r.val = 2000 * t.val + r.val; rw [e0]; omega
  | ⟨1, _⟩ => show win0_1.index t (1 : Fin 2) * 128 + 1 * k.val = k.val; rw [e1]; omega

theorem iblk0_2 (c : Dev nD) (t : Fin cfg0.N) (r : Fin 2000) (k : Fin 1) :
    (iblk0 V c 2 t : S2000x1.Idx → Elt F .f32) (ix2 r k) = (V c main_v11 : S400000x1.Idx → Elt F .f32) (ix2 (erow t r) k) := by
  obtain ⟨e0, e1⟩ := idx0_2 t
  unfold iblk0
  rw [View.read_apply]
  show V c main_v11 _ = V c main_v11 _
  congr 1
  funext a
  apply Fin.ext
  match a with
  | ⟨0, _⟩ => show win0_2.index t (0 : Fin 2) * 2000 + 1 * r.val = 2000 * t.val + r.val; rw [e0]; omega
  | ⟨1, _⟩ => show win0_2.index t (1 : Fin 2) * 1 + 1 * k.val = k.val; rw [e1]; omega

theorem iblk0_3 (c : Dev nD) (t : Fin cfg0.N) (r : Fin 2000) (k : Fin 1) :
    (iblk0 V c 3 t : S2000x1.Idx → Elt F .f32) (ix2 r k) = (V c main_arg3 : S400000x1.Idx → Elt F .f32) (ix2 (erow t r) k) := by
  obtain ⟨e0, e1⟩ := idx0_3 t
  unfold iblk0
  rw [View.read_apply]
  show V c main_arg3 _ = V c main_arg3 _
  congr 1
  funext a
  apply Fin.ext
  match a with
  | ⟨0, _⟩ => show win0_3.index t (0 : Fin 2) * 2000 + 1 * r.val = 2000 * t.val + r.val; rw [e0]; omega
  | ⟨1, _⟩ => show win0_3.index t (1 : Fin 2) * 1 + 1 * k.val = k.val; rw [e1]; omega

theorem iblk0_4 (c : Dev nD) (t : Fin cfg0.N) (r : Fin 2000) (k : Fin 3) :
    (iblk0 V c 4 t : S2000x3.Idx → Elt F .f32) (ix2 r k) = (V c main_v18 : S400000x3.Idx → Elt F .f32) (ix2 (erow t r) k) := by
  obtain ⟨e0, e1⟩ := idx0_4 t
  unfold iblk0
  rw [View.read_apply]
  show V c main_v18 _ = V c main_v18 _
  congr 1
  funext a
  apply Fin.ext
  match a with
  | ⟨0, _⟩ => show win0_4.index t (0 : Fin 2) * 2000 + 1 * r.val = 2000 * t.val + r.val; rw [e0]; omega
  | ⟨1, _⟩ => show win0_4.index t (1 : Fin 2) * 3 + 1 * k.val = k.val; rw [e1]; omega

/-- A weight's block is the whole weight, at every point. -/
theorem iblk0_5 (c : Dev nD) (t : Fin cfg0.N) : (iblk0 V c 5 t : S128x128.Idx → Elt F .f32) = V c main_v19 := by
  obtain ⟨e0, e1⟩ := idx0_5 t
  funext y
  unfold iblk0
  rw [View.read_apply]
  show V c main_v19 _ = V c main_v19 y
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem iblk0_6 (c : Dev nD) (t : Fin cfg0.N) : (iblk0 V c 6 t : S128x128.Idx → Elt F .f32) = V c main_v20 := by
  obtain ⟨e0, e1⟩ := idx0_6 t
  funext y
  unfold iblk0
  rw [View.read_apply]
  show V c main_v20 _ = V c main_v20 y
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

theorem iblk0_7 (c : Dev nD) (t : Fin cfg0.N) : (iblk0 V c 7 t : S128.Idx → Elt F .f32) = V c main_v22 := by
  have e0 := idx0_7 t
  funext y
  unfold iblk0
  rw [View.read_apply]
  show V c main_v22 _ = V c main_v22 y
  congr 1
  funext a
  apply Fin.ext
  match a with
  | ⟨0, _⟩ => show win0_7.index t (0 : Fin 1) * 128 + 1 * (y 0).val = (y 0).val; rw [e0]; omega

theorem iblk0_8 (c : Dev nD) (t : Fin cfg0.N) : (iblk0 V c 8 t : S128.Idx → Elt F .f32) = V c main_v24 := by
  have e0 := idx0_8 t
  funext y
  unfold iblk0
  rw [View.read_apply]
  show V c main_v24 _ = V c main_v24 y
  congr 1
  funext a
  apply Fin.ext
  match a with
  | ⟨0, _⟩ => show win0_8.index t (0 : Fin 1) * 128 + 1 * (y 0).val = (y 0).val; rw [e0]; omega

theorem iblk0_9 (c : Dev nD) (t : Fin cfg0.N) : (iblk0 V c 9 t : S128.Idx → Elt F .f32) = V c main_arg5 := by
  have e0 := idx0_9 t
  funext y
  unfold iblk0
  rw [View.read_apply]
  show V c main_arg5 _ = V c main_arg5 y
  congr 1
  funext a
  apply Fin.ext
  match a with
  | ⟨0, _⟩ => show win0_9.index t (0 : Fin 1) * 128 + 1 * (y 0).val = (y 0).val; rw [e0]; omega

theorem iblk0_10 (c : Dev nD) (t : Fin cfg0.N) : (iblk0 V c 10 t : S128.Idx → Elt F .f32) = V c main_arg6 := by
  have e0 := idx0_10 t
  funext y
  unfold iblk0
  rw [View.read_apply]
  show V c main_arg6 _ = V c main_arg6 y
  congr 1
  funext a
  apply Fin.ext
  match a with
  | ⟨0, _⟩ => show win0_10.index t (0 : Fin 1) * 128 + 1 * (y 0).val = (y 0).val; rw [e0]; omega

theorem iblk0_11 (c : Dev nD) (t : Fin cfg0.N) : (iblk0 V c 11 t : S128.Idx → Elt F .f32) = V c main_arg7 := by
  have e0 := idx0_11 t
  funext y
  unfold iblk0
  rw [View.read_apply]
  show V c main_arg7 _ = V c main_arg7 y
  congr 1
  funext a
  apply Fin.ext
  match a with
  | ⟨0, _⟩ => show win0_11.index t (0 : Fin 1) * 128 + 1 * (y 0).val = (y 0).val; rw [e0]; omega

theorem iblk0_12 (c : Dev nD) (t : Fin cfg0.N) : (iblk0 V c 12 t : S128x128.Idx → Elt F .f32) = V c main_arg8 := by
  obtain ⟨e0, e1⟩ := idx0_12 t
  funext y
  unfold iblk0
  rw [View.read_apply]
  show V c main_arg8 _ = V c main_arg8 y
  congr 1
  funext a
  apply Fin.ext
  match a with
  | ⟨0, _⟩ => show win0_12.index t (0 : Fin 2) * 128 + 1 * (y 0).val = (y 0).val; rw [e0]; omega
  | ⟨1, _⟩ => show win0_12.index t (1 : Fin 2) * 128 + 1 * (y 1).val = (y 1).val; rw [e1]; omega

theorem iblk0_13 (c : Dev nD) (t : Fin cfg0.N) : (iblk0 V c 13 t : S128.Idx → Elt F .f32) = V c main_arg9 := by
  have e0 := idx0_13 t
  funext y
  unfold iblk0
  rw [View.read_apply]
  show V c main_arg9 _ = V c main_arg9 y
  congr 1
  funext a
  apply Fin.ext
  match a with
  | ⟨0, _⟩ => show win0_13.index t (0 : Fin 1) * 128 + 1 * (y 0).val = (y 0).val; rw [e0]; omega

theorem iblk0_14 (c : Dev nD) (t : Fin cfg0.N) : (iblk0 V c 14 t : S128.Idx → Elt F .f32) = V c main_arg10 := by
  have e0 := idx0_14 t
  funext y
  unfold iblk0
  rw [View.read_apply]
  show V c main_arg10 _ = V c main_arg10 y
  congr 1
  funext a
  apply Fin.ext
  match a with
  | ⟨0, _⟩ => show win0_14.index t (0 : Fin 1) * 128 + 1 * (y 0).val = (y 0).val; rw [e0]; omega

theorem iblk0_15 (c : Dev nD) (t : Fin cfg0.N) : (iblk0 V c 15 t : S128.Idx → Elt F .f32) = V c main_arg11 := by
  have e0 := idx0_15 t
  funext y
  unfold iblk0
  rw [View.read_apply]
  show V c main_arg11 _ = V c main_arg11 y
  congr 1
  funext a
  apply Fin.ext
  match a with
  | ⟨0, _⟩ => show win0_15.index t (0 : Fin 1) * 128 + 1 * (y 0).val = (y 0).val; rw [e0]; omega

theorem iblk0_16 (c : Dev nD) (t : Fin cfg0.N) : (iblk0 V c 16 t : S128x128.Idx → Elt F .f32) = V c main_arg18 := by
  obtain ⟨e0, e1⟩ := idx0_16 t
  funext y
  unfold iblk0
  rw [View.read_apply]
  show V c main_arg18 _ = V c main_arg18 y
  congr 1
  funext a
  apply Fin.ext
  match a with
  | ⟨0, _⟩ => show win0_16.index t (0 : Fin 2) * 128 + 1 * (y 0).val = (y 0).val; rw [e0]; omega
  | ⟨1, _⟩ => show win0_16.index t (1 : Fin 2) * 128 + 1 * (y 1).val = (y 1).val; rw [e1]; omega

theorem iblk0_17 (c : Dev nD) (t : Fin cfg0.N) : (iblk0 V c 17 t : S128.Idx → Elt F .f32) = V c main_arg19 := by
  have e0 := idx0_17 t
  funext y
  unfold iblk0
  rw [View.read_apply]
  show V c main_arg19 _ = V c main_arg19 y
  congr 1
  funext a
  apply Fin.ext
  match a with
  | ⟨0, _⟩ => show win0_17.index t (0 : Fin 1) * 128 + 1 * (y 0).val = (y 0).val; rw [e0]; omega

theorem iblk0_18 (c : Dev nD) (t : Fin cfg0.N) : (iblk0 V c 18 t : S128.Idx → Elt F .f32) = V c main_arg20 := by
  have e0 := idx0_18 t
  funext y
  unfold iblk0
  rw [View.read_apply]
  show V c main_arg20 _ = V c main_arg20 y
  congr 1
  funext a
  apply Fin.ext
  match a with
  | ⟨0, _⟩ => show win0_18.index t (0 : Fin 1) * 128 + 1 * (y 0).val = (y 0).val; rw [e0]; omega

theorem iblk0_19 (c : Dev nD) (t : Fin cfg0.N) : (iblk0 V c 19 t : S128.Idx → Elt F .f32) = V c main_arg21 := by
  have e0 := idx0_19 t
  funext y
  unfold iblk0
  rw [View.read_apply]
  show V c main_arg21 _ = V c main_arg21 y
  congr 1
  funext a
  apply Fin.ext
  match a with
  | ⟨0, _⟩ => show win0_19.index t (0 : Fin 1) * 128 + 1 * (y 0).val = (y 0).val; rw [e0]; omega

theorem iblk0_20 (c : Dev nD) (t : Fin cfg0.N) : (iblk0 V c 20 t : S128x1.Idx → Elt F .f32) = V c main_arg22 := by
  obtain ⟨e0, e1⟩ := idx0_20 t
  funext y
  unfold iblk0
  rw [View.read_apply]
  show V c main_arg22 _ = V c main_arg22 y
  congr 1
  funext a
  apply Fin.ext
  match a with
  | ⟨0, _⟩ => show win0_20.index t (0 : Fin 2) * 128 + 1 * (y 0).val = (y 0).val; rw [e0]; omega
  | ⟨1, _⟩ => show win0_20.index t (1 : Fin 2) * 1 + 1 * (y 1).val = (y 1).val; rw [e1]; omega

/-! ## The result tables -/

/-- A row of result table one is in point `t`'s block iff each coordinate is in the block's range on its axis. -/
theorem mem_blk21 (t : Fin cfg0.N) (i : S400000x128.Idx) :
    i ∈ ((cfg0.win 21).blk t).view.set ↔ ∀ a : Fin 2, win0_21.index t a * S2000x128.size a ≤ (i a).val ∧ (i a).val < win0_21.index t a * S2000x128.size a + S2000x128.size a := by
  show i ∈ ((View.whole main_v25_0).slice (win0_21.rect t)).set ↔ _
  rw [View.set_slice_whole, Rect.mem_set_unit]
  exact Iff.rfl

/-- If at every point the first result block holds `E` at its own row of the table, the first result table ends
    holding `E`. -/
theorem arr21_eq (c : Dev nD) (E : Fin 400000 → Fin 128 → Elt F .f32)
    (h : ∀ (t : Fin cfg0.N) (r : Fin 2000) (j : Fin 128),
      ((dat0 V c).after 21 t : S2000x128.Idx → Elt F .f32) (ix2 r j) = E (erow t r) j) :
    ((dat0 V c).arrAt 21 cfg0.N : S400000x128.Idx → Elt F .f32) = fun i => E (i 0) (i 1) := by
  refine (dat0 V c).arrAt_eq_of_cover 21 (fun i : S400000x128.Idx => E (i 0) (i 1)) (fun t _ => ?_) (fun i => ?_)
  · show (cfg0.win 21).cut (grid0.coords t) ((dat0 V c).after 21 t) = _
    obtain ⟨e0, e1⟩ := idx0_21 t
    funext y
    obtain ⟨r, j, rfl⟩ : ∃ (r : Fin 2000) (j : Fin 128), (y : S2000x128.Idx) = ix2 r j := ⟨y 0, y 1, eq_ix2 (y : S2000x128.Idx)⟩
    rw [View.read_apply]
    have hx : (cfg0.win 21).xinj (grid0.coords t) (ix2 r j) = (ix2 r j : S2000x128.Idx) :=
      funext fun a => Fin.ext (by match a with | ⟨0, _⟩ => rfl | ⟨1, _⟩ => rfl)
    show ((dat0 V c).after 21 t : S2000x128.Idx → Elt F .f32) ((cfg0.win 21).xinj (grid0.coords t) (ix2 r j)) = _
    rw [hx, h t r j]
    show E (erow t r) j = E ((((cfg0.win 21).blk t).view.emb (ix2 r j) : S400000x128.Idx) 0) ((((cfg0.win 21).blk t).view.emb (ix2 r j) : S400000x128.Idx) 1)
    congr 1 <;> apply Fin.ext
    · show 2000 * t.val + r.val = win0_21.index t (0 : Fin 2) * 2000 + 1 * r.val
      rw [e0]; omega
    · show j.val = win0_21.index t (1 : Fin 2) * 128 + 1 * j.val
      rw [e1]; omega
  · have hi0 : (i 0).val < 400000 := (i 0).isLt
    have hi1 : (i 1).val < 128 := (i 1).isLt
    have ht : (i 0).val / 2000 < cfg0.N := by show (i 0).val / 2000 < 200; omega
    refine ⟨⟨(i 0).val / 2000, ht⟩, flush0_21 _, ?_⟩
    rw [mem_blk21]
    obtain ⟨e0, e1⟩ := idx0_21 ⟨(i 0).val / 2000, ht⟩
    intro a
    match a with
    | ⟨0, _⟩ =>
      show win0_21.index ⟨(i 0).val / 2000, ht⟩ (0 : Fin 2) * 2000 ≤ (i 0).val ∧ (i 0).val < win0_21.index ⟨(i 0).val / 2000, ht⟩ (0 : Fin 2) * 2000 + 2000
      rw [e0]; show (i 0).val / 2000 * 2000 ≤ (i 0).val ∧ (i 0).val < (i 0).val / 2000 * 2000 + 2000; omega
    | ⟨1, _⟩ =>
      show win0_21.index ⟨(i 0).val / 2000, ht⟩ (1 : Fin 2) * 128 ≤ (i 1).val ∧ (i 1).val < win0_21.index ⟨(i 0).val / 2000, ht⟩ (1 : Fin 2) * 128 + 128
      rw [e1]; omega

/-- A row of result table two is in point `t`'s block iff each coordinate is in the block's range on its axis. -/
theorem mem_blk22 (t : Fin cfg0.N) (i : S400000x3.Idx) :
    i ∈ ((cfg0.win 22).blk t).view.set ↔ ∀ a : Fin 2, win0_22.index t a * S2000x3.size a ≤ (i a).val ∧ (i a).val < win0_22.index t a * S2000x3.size a + S2000x3.size a := by
  show i ∈ ((View.whole main_v25_1).slice (win0_22.rect t)).set ↔ _
  rw [View.set_slice_whole, Rect.mem_set_unit]
  exact Iff.rfl

/-- The same for the second result table. -/
theorem arr22_eq (c : Dev nD) (E : Fin 400000 → Fin 3 → Elt F .f32)
    (h : ∀ (t : Fin cfg0.N) (r : Fin 2000) (a : Fin 3),
      ((dat0 V c).after 22 t : S2000x3.Idx → Elt F .f32) (ix2 r a) = E (erow t r) a) :
    ((dat0 V c).arrAt 22 cfg0.N : S400000x3.Idx → Elt F .f32) = fun i => E (i 0) (i 1) := by
  refine (dat0 V c).arrAt_eq_of_cover 22 (fun i : S400000x3.Idx => E (i 0) (i 1)) (fun t _ => ?_) (fun i => ?_)
  · show (cfg0.win 22).cut (grid0.coords t) ((dat0 V c).after 22 t) = _
    obtain ⟨e0, e1⟩ := idx0_22 t
    funext y
    obtain ⟨r, j, rfl⟩ : ∃ (r : Fin 2000) (j : Fin 3), (y : S2000x3.Idx) = ix2 r j := ⟨y 0, y 1, eq_ix2 (y : S2000x3.Idx)⟩
    rw [View.read_apply]
    have hx : (cfg0.win 22).xinj (grid0.coords t) (ix2 r j) = (ix2 r j : S2000x3.Idx) :=
      funext fun a => Fin.ext (by match a with | ⟨0, _⟩ => rfl | ⟨1, _⟩ => rfl)
    show ((dat0 V c).after 22 t : S2000x3.Idx → Elt F .f32) ((cfg0.win 22).xinj (grid0.coords t) (ix2 r j)) = _
    rw [hx, h t r j]
    show E (erow t r) j = E ((((cfg0.win 22).blk t).view.emb (ix2 r j) : S400000x3.Idx) 0) ((((cfg0.win 22).blk t).view.emb (ix2 r j) : S400000x3.Idx) 1)
    congr 1 <;> apply Fin.ext
    · show 2000 * t.val + r.val = win0_22.index t (0 : Fin 2) * 2000 + 1 * r.val
      rw [e0]; omega
    · show j.val = win0_22.index t (1 : Fin 2) * 3 + 1 * j.val
      rw [e1]; omega
  · have hi0 : (i 0).val < 400000 := (i 0).isLt
    have hi1 : (i 1).val < 3 := (i 1).isLt
    have ht : (i 0).val / 2000 < cfg0.N := by show (i 0).val / 2000 < 200; omega
    refine ⟨⟨(i 0).val / 2000, ht⟩, flush0_22 _, ?_⟩
    rw [mem_blk22]
    obtain ⟨e0, e1⟩ := idx0_22 ⟨(i 0).val / 2000, ht⟩
    intro a
    match a with
    | ⟨0, _⟩ =>
      show win0_22.index ⟨(i 0).val / 2000, ht⟩ (0 : Fin 2) * 2000 ≤ (i 0).val ∧ (i 0).val < win0_22.index ⟨(i 0).val / 2000, ht⟩ (0 : Fin 2) * 2000 + 2000
      rw [e0]; show (i 0).val / 2000 * 2000 ≤ (i 0).val ∧ (i 0).val < (i 0).val / 2000 * 2000 + 2000; omega
    | ⟨1, _⟩ =>
      show win0_22.index ⟨(i 0).val / 2000, ht⟩ (1 : Fin 2) * 3 ≤ (i 1).val ∧ (i 1).val < win0_22.index ⟨(i 0).val / 2000, ht⟩ (1 : Fin 2) * 3 + 3
      rw [e1]; omega

end Cert.KernelIdeal.Cover

end
-- ==== Proof.KerCover1.lean ====
/-
  The node region's windows over their arrays. The region runs over 5 points; point `t` reads rows
  5000 t … 5000 t + 4999 of the node table and of the aggregated messages and the whole of each weight, and writes
  back rows 5000 t … 5000 t + 4999 of the result. So a block read at row `r` is the table read at row 5000 t + r, and a
  result whose block at every point is a function `E` of the table's own row and column ends holding `E`.
-/
import proofs.«419454_j9414568313009_1_alg».proof.Proof.Gen.KernelIdeal.Frame
import Idealize.ShloMosaic.Lib.ValueIdx
import Idealize.ShloMosaic.Lib.Pipeline.Value

set_option maxRecDepth 16384

noncomputable section

namespace Cert.KernelIdeal.Cover

open Idealize.ShloMosaic Idealize.ShloMosaic.TcCoe Idealize.ShloMosaic.ValueIdx Idealize.SL.Sem Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-- Row `r` of point `t`'s block as a row of the node tables. -/
def nrow (t : Fin cfg1.N) (r : Fin 5000) : Fin 25000 :=
  ⟨5000 * t.val + r.val, by have h : cfg1.N = 5 := rfl; have := t.isLt; have := r.isLt; omega⟩

/-! ## The input blocks -/

private theorem idx1_0 : ∀ t : Fin cfg1.N, win1_0.index t (0 : Fin 2) = t.val ∧ win1_0.index t (1 : Fin 2) = 0 :=
  (by decide +kernel : ∀ t : Fin grid1.N, _)

theorem iblk1_0 (c : Dev nD) (t : Fin cfg1.N) (r : Fin 5000) (k : Fin 128) :
    (iblk1 V c 0 t : S5000x128.Idx → Elt F .f32) (ix2 r k) = (V c main_arg0 : S25000x128.Idx → Elt F .f32) (ix2 (nrow t r) k) := by
  obtain ⟨e0, e1⟩ := idx1_0 t
  show V c main_arg0 (((cfg1.win 0).blk t).view.emb (ix2 r k)) = _
  refine congrArg _ ?_
  funext a; apply Fin.ext
  match a with
  | ⟨0, _⟩ => show win1_0.index t (0 : Fin 2) * 5000 + 1 * r.val = 5000 * t.val + r.val; rw [e0]; omega
  | ⟨1, _⟩ => show win1_0.index t (1 : Fin 2) * 128 + 1 * k.val = k.val; rw [e1]; omega

private theorem idx1_1 : ∀ t : Fin cfg1.N, win1_1.index t (0 : Fin 2) = t.val ∧ win1_1.index t (1 : Fin 2) = 0 :=
  (by decide +kernel : ∀ t : Fin grid1.N, _)

theorem iblk1_1 (c : Dev nD) (t : Fin cfg1.N) (r : Fin 5000) (k : Fin 128) :
    (iblk1 V c 1 t : S5000x128.Idx → Elt F .f32) (ix2 r k) = (V c main_v32 : S25000x128.Idx → Elt F .f32) (ix2 (nrow t r) k) := by
  obtain ⟨e0, e1⟩ := idx1_1 t
  show V c main_v32 (((cfg1.win 1).blk t).view.emb (ix2 r k)) = _
  refine congrArg _ ?_
  funext a; apply Fin.ext
  match a with
  | ⟨0, _⟩ => show win1_1.index t (0 : Fin 2) * 5000 + 1 * r.val = 5000 * t.val + r.val; rw [e0]; omega
  | ⟨1, _⟩ => show win1_1.index t (1 : Fin 2) * 128 + 1 * k.val = k.val; rw [e1]; omega

private theorem idx1_2 : ∀ t : Fin cfg1.N, win1_2.index t (0 : Fin 2) = 0 ∧ win1_2.index t (1 : Fin 2) = 0 :=
  (by decide +kernel : ∀ t : Fin grid1.N, _)

/-- A weight's block is the whole weight, at every point. -/
theorem iblk1_2 (c : Dev nD) (t : Fin cfg1.N) : (iblk1 V c 2 t : S256x128.Idx → Elt F .f32) = V c main_arg12 := by
  obtain ⟨e0, e1⟩ := idx1_2 t
  funext y
  show V c main_arg12 (((cfg1.win 2).blk t).view.emb y) = V c main_arg12 y
  refine congrArg _ ?_
  funext a; apply Fin.ext
  match a with
  | ⟨0, _⟩ => show win1_2.index t (0 : Fin 2) * 256 + 1 * (y 0).val = (y 0).val; rw [e0]; omega
  | ⟨1, _⟩ => show win1_2.index t (1 : Fin 2) * 128 + 1 * (y 1).val = (y 1).val; rw [e1]; omega

private theorem idx1_3 : ∀ t : Fin cfg1.N, win1_3.index t (0 : Fin 1) = 0 :=
  (by decide +kernel : ∀ t : Fin grid1.N, _)

theorem iblk1_3 (c : Dev nD) (t : Fin cfg1.N) : (iblk1 V c 3 t : S128.Idx → Elt F .f32) = V c main_arg13 := by
  have e0 := idx1_3 t
  funext y
  show V c main_arg13 (((cfg1.win 3).blk t).view.emb y) = V c main_arg13 y
  refine congrArg _ ?_
  funext a; apply Fin.ext
  match a with
  | ⟨0, _⟩ => show win1_3.index t (0 : Fin 1) * 128 + 1 * (y 0).val = (y 0).val; rw [e0]; omega

private theorem idx1_4 : ∀ t : Fin cfg1.N, win1_4.index t (0 : Fin 1) = 0 :=
  (by decide +kernel : ∀ t : Fin grid1.N, _)

theorem iblk1_4 (c : Dev nD) (t : Fin cfg1.N) : (iblk1 V c 4 t : S128.Idx → Elt F .f32) = V c main_arg14 := by
  have e0 := idx1_4 t
  funext y
  show V c main_arg14 (((cfg1.win 4).blk t).view.emb y) = V c main_arg14 y
  refine congrArg _ ?_
  funext a; apply Fin.ext
  match a with
  | ⟨0, _⟩ => show win1_4.index t (0 : Fin 1) * 128 + 1 * (y 0).val = (y 0).val; rw [e0]; omega

private theorem idx1_5 : ∀ t : Fin cfg1.N, win1_5.index t (0 : Fin 1) = 0 :=
  (by decide +kernel : ∀ t : Fin grid1.N, _)

theorem iblk1_5 (c : Dev nD) (t : Fin cfg1.N) : (iblk1 V c 5 t : S128.Idx → Elt F .f32) = V c main_arg15 := by
  have e0 := idx1_5 t
  funext y
  show V c main_arg15 (((cfg1.win 5).blk t).view.emb y) = V c main_arg15 y
  refine congrArg _ ?_
  funext a; apply Fin.ext
  match a with
  | ⟨0, _⟩ => show win1_5.index t (0 : Fin 1) * 128 + 1 * (y 0).val = (y 0).val; rw [e0]; omega

private theorem idx1_6 : ∀ t : Fin cfg1.N, win1_6.index t (0 : Fin 2) = 0 ∧ win1_6.index t (1 : Fin 2) = 0 :=
  (by decide +kernel : ∀ t : Fin grid1.N, _)

theorem iblk1_6 (c : Dev nD) (t : Fin cfg1.N) : (iblk1 V c 6 t : S128x128.Idx → Elt F .f32) = V c main_arg16 := by
  obtain ⟨e0, e1⟩ := idx1_6 t
  funext y
  show V c main_arg16 (((cfg1.win 6).blk t).view.emb y) = V c main_arg16 y
  refine congrArg _ ?_
  funext a; apply Fin.ext
  match a with
  | ⟨0, _⟩ => show win1_6.index t (0 : Fin 2) * 128 + 1 * (y 0).val = (y 0).val; rw [e0]; omega
  | ⟨1, _⟩ => show win1_6.index t (1 : Fin 2) * 128 + 1 * (y 1).val = (y 1).val; rw [e1]; omega

private theorem idx1_7 : ∀ t : Fin cfg1.N, win1_7.index t (0 : Fin 1) = 0 :=
  (by decide +kernel : ∀ t : Fin grid1.N, _)

theorem iblk1_7 (c : Dev nD) (t : Fin cfg1.N) : (iblk1 V c 7 t : S128.Idx → Elt F .f32) = V c main_arg17 := by
  have e0 := idx1_7 t
  funext y
  show V c main_arg17 (((cfg1.win 7).blk t).view.emb y) = V c main_arg17 y
  refine congrArg _ ?_
  funext a; apply Fin.ext
  match a with
  | ⟨0, _⟩ => show win1_7.index t (0 : Fin 1) * 128 + 1 * (y 0).val = (y 0).val; rw [e0]; omega

/-! ## The result table -/

private theorem idx1_8 : ∀ t : Fin cfg1.N, win1_8.index t (0 : Fin 2) = t.val ∧ win1_8.index t (1 : Fin 2) = 0 :=
  (by decide +kernel : ∀ t : Fin grid1.N, _)

/-- An index of the result table is in point `t`'s block iff each coordinate is in the block's range on its axis. -/
private theorem mem_blk1_8 (t : Fin cfg1.N) (i : S25000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v33).slice (win1_8.rect t)).set ↔ _
  rw [View.set_slice_whole, Rect.mem_set_unit]
  exact Iff.rfl

/-- What point `t` writes back, when its block holds `E` at its own rows of the table: block `t` of `E`. -/
private theorem flushed1_8 (c : Dev nD) (E : Fin 25000 → Fin 128 → Elt F .f32)
    (h : ∀ (t : Fin cfg1.N) (r : Fin 5000) (j : Fin 128),
      ((dat1 V c).after 8 t : S5000x128.Idx → Elt F .f32) (ix2 r j) = E (nrow t r) j) (t : Fin cfg1.N) :
    (dat1 V c).flushed 8 t = ((cfg1.win 8).blk t).view.read (Elt F) (fun i : S25000x128.Idx => E (i 0) (i 1)) := by
  obtain ⟨e0, e1⟩ := idx1_8 t
  have key : ∀ (r : Fin 5000) (j : Fin 128),
      ((dat1 V c).after 8 t : S5000x128.Idx → Elt F .f32) (ix2 r j)
        = E ((((cfg1.win 8).blk t).view.emb (ix2 r j)) 0) ((((cfg1.win 8).blk t).view.emb (ix2 r j)) 1) := by
    intro r j
    rw [h t r j]
    congr 1 <;> apply Fin.ext
    · show 5000 * t.val + r.val = win1_8.index t (0 : Fin 2) * 5000 + 1 * r.val
      rw [e0]; omega
    · show j.val = win1_8.index t (1 : Fin 2) * 128 + 1 * j.val
      rw [e1]; omega
  show (cfg1.win 8).cut (grid1.coords t) ((dat1 V c).after 8 t) = _
  funext y
  have e : y = ix2 (n0 := 5000) (n1 := 128) (y 0) (y 1) := eq_ix2 (n0 := 5000) (n1 := 128) y
  rw [e]
  exact key (y 0) (y 1)

/-- If at every point the result block holds `E` at its own row of the table, the result table ends holding `E`. -/
theorem arr8_eq (c : Dev nD) (E : Fin 25000 → Fin 128 → Elt F .f32)
    (h : ∀ (t : Fin cfg1.N) (r : Fin 5000) (j : Fin 128),
      ((dat1 V c).after 8 t : S5000x128.Idx → Elt F .f32) (ix2 r j) = E (nrow t r) j) :
    ((dat1 V c).arrAt 8 cfg1.N : S25000x128.Idx → Elt F .f32) = fun i => E (i 0) (i 1) := by
  refine (dat1 V c).arrAt_eq_of_cover 8 (fun i : S25000x128.Idx => E (i 0) (i 1)) (fun t _ => flushed1_8 V c E h t) (fun i => ?_)
  have hi0 : (i 0).val < 25000 := (i 0).isLt
  have hi1 : (i 1).val < 128 := (i 1).isLt
  have hN : cfg1.N = 5 := rfl
  obtain ⟨t, ht⟩ : ∃ t : Fin cfg1.N, t.val = (i 0).val / 5000 := ⟨⟨(i 0).val / 5000, by omega⟩, rfl⟩
  obtain ⟨e0, e1⟩ := idx1_8 t
  refine ⟨t, flush1_8 t, ?_⟩
  rw [mem_blk1_8]
  intro a
  match a with
  | ⟨0, _⟩ =>
    show win1_8.index t (0 : Fin 2) * 5000 ≤ (i 0).val ∧ (i 0).val < win1_8.index t (0 : Fin 2) * 5000 + 5000
    rw [e0, ht]; omega
  | ⟨1, _⟩ =>
    show win1_8.index t (1 : Fin 2) * 128 ≤ (i 1).val ∧ (i 1).val < win1_8.index t (1 : Fin 2) * 128 + 128
    rw [e1]; omega

end Cert.KernelIdeal.Cover

end
-- ==== Proof.KerArrays.lean ====
/-
  The kernel program's two results as functions of the launch memory. The edge region leaves, row by row, the edge
  messages and the weighted coordinate differences of the gathered tables; the segment sums add them into their first
  end's row; the node region leaves, row by row, the node update of the node table and the aggregated messages.
-/
import proofs.«419454_j9414568313009_1_alg».proof.Proof.KerHost
import proofs.«419454_j9414568313009_1_alg».proof.Proof.KerRun
import proofs.«419454_j9414568313009_1_alg».proof.Proof.KerBlocks
import proofs.«419454_j9414568313009_1_alg».proof.Proof.KerCover0
import proofs.«419454_j9414568313009_1_alg».proof.Proof.KerCover1

set_option maxRecDepth 16384

noncomputable section

namespace Cert.KernelIdeal.Gen

open Idealize.ShloMosaic Idealize.ShloMosaic.TcCoe Idealize.ShloMosaic.ValueIdx Idealize.SL.Sem
open Cert.KernelIdeal.Take Cert.Egnn Cert.KernelIdeal.Cover

variable (m : (ℓ : Loc nD τ sig) → Buf (Elt Ideal) ℓ) (ρ : Dev nD → PrngReg)

/-- The edge messages over the arrays the first region finds. -/
def efK (c : Dev nD) : Fin 400000 → Fin 128 → EReal :=
  edgeFeat (fun e k => (V6 m ρ c main_v4 : S400000x128.Idx → EReal) (ix2 e k))
    (fun e k => (V6 m ρ c main_v5 : S400000x128.Idx → EReal) (ix2 e k))
    (fun e => (V6 m ρ c main_v11 : S400000x1.Idx → EReal) (ix2 e (0 : Fin 1)))
    (fun e => (V6 m ρ c main_arg3 : S400000x1.Idx → EReal) (ix2 e (0 : Fin 1)))
    (fun k j => (V6 m ρ c main_v19 : S128x128.Idx → EReal) (ix2 k j))
    (fun k j => (V6 m ρ c main_v20 : S128x128.Idx → EReal) (ix2 k j))
    (fun j => (V6 m ρ c main_v22 : S128.Idx → EReal) (ix1 j))
    (fun j => (V6 m ρ c main_v24 : S128.Idx → EReal) (ix1 j))
    (fun j => (V6 m ρ c main_arg5 : S128.Idx → EReal) (ix1 j))
    (fun j => (V6 m ρ c main_arg6 : S128.Idx → EReal) (ix1 j))
    (fun j => (V6 m ρ c main_arg7 : S128.Idx → EReal) (ix1 j))
    (fun k j => (V6 m ρ c main_arg8 : S128x128.Idx → EReal) (ix2 k j))
    (fun j => (V6 m ρ c main_arg9 : S128.Idx → EReal) (ix1 j))
    (fun j => (V6 m ρ c main_arg10 : S128.Idx → EReal) (ix1 j))
    (fun j => (V6 m ρ c main_arg11 : S128.Idx → EReal) (ix1 j))

/-- The weighted coordinate differences over the arrays the first region finds. -/
def trK (c : Dev nD) : Fin 400000 → Fin 3 → EReal :=
  trans (fun e a => (V6 m ρ c main_v18 : S400000x3.Idx → EReal) (ix2 e a))
    (edgeGate (efK m ρ c)
      (fun k j => (V6 m ρ c main_arg18 : S128x128.Idx → EReal) (ix2 k j))
      (fun j => (V6 m ρ c main_arg19 : S128.Idx → EReal) (ix1 j))
      (fun j => (V6 m ρ c main_arg20 : S128.Idx → EReal) (ix1 j))
      (fun j => (V6 m ρ c main_arg21 : S128.Idx → EReal) (ix1 j))
      (fun k => (V6 m ρ c main_arg22 : S128x1.Idx → EReal) (ix2 k (0 : Fin 1))))

/-- The first region leaves the edge messages in its first result table. -/
theorem arr21 (c : Dev nD) :
    ((dat0 (V6 m ρ) c).arrAt 21 cfg0.N : S400000x128.Idx → EReal) = fun i => efK m ρ c (i 0) (i 1) := by
  refine arr21_eq (V6 m ρ) c (efK m ρ c) fun t r j => ?_
  rw [after0_21]
  refine (Blocks.out0_21_apply (iblk0 (V6 m ρ) c 0 t) (iblk0 (V6 m ρ) c 1 t) (iblk0 (V6 m ρ) c 2 t) (iblk0 (V6 m ρ) c 3 t)
    (iblk0 (V6 m ρ) c 4 t) (iblk0 (V6 m ρ) c 5 t) (iblk0 (V6 m ρ) c 6 t) (iblk0 (V6 m ρ) c 7 t) (iblk0 (V6 m ρ) c 8 t)
    (iblk0 (V6 m ρ) c 9 t) (iblk0 (V6 m ρ) c 10 t) (iblk0 (V6 m ρ) c 11 t) (iblk0 (V6 m ρ) c 12 t) (iblk0 (V6 m ρ) c 13 t)
    (iblk0 (V6 m ρ) c 14 t) (iblk0 (V6 m ρ) c 15 t) (iblk0 (V6 m ρ) c 16 t) (iblk0 (V6 m ρ) c 17 t) (iblk0 (V6 m ρ) c 18 t)
    (iblk0 (V6 m ρ) c 19 t) (iblk0 (V6 m ρ) c 20 t) r j).trans ?_
  simp only [iblk0_0, iblk0_1, iblk0_2, iblk0_3, iblk0_5, iblk0_6, iblk0_7, iblk0_8, iblk0_9, iblk0_10, iblk0_11, iblk0_12,
    iblk0_13, iblk0_14, iblk0_15]
  rfl

/-- The first region leaves the weighted coordinate differences in its second result table. -/
theorem arr22 (c : Dev nD) :
    ((dat0 (V6 m ρ) c).arrAt 22 cfg0.N : S400000x3.Idx → EReal) = fun i => trK m ρ c (i 0) (i 1) := by
  refine arr22_eq (V6 m ρ) c (trK m ρ c) fun t r a => ?_
  rw [after0_22]
  refine (Blocks.out0_22_apply (iblk0 (V6 m ρ) c 0 t) (iblk0 (V6 m ρ) c 1 t) (iblk0 (V6 m ρ) c 2 t) (iblk0 (V6 m ρ) c 3 t)
    (iblk0 (V6 m ρ) c 4 t) (iblk0 (V6 m ρ) c 5 t) (iblk0 (V6 m ρ) c 6 t) (iblk0 (V6 m ρ) c 7 t) (iblk0 (V6 m ρ) c 8 t)
    (iblk0 (V6 m ρ) c 9 t) (iblk0 (V6 m ρ) c 10 t) (iblk0 (V6 m ρ) c 11 t) (iblk0 (V6 m ρ) c 12 t) (iblk0 (V6 m ρ) c 13 t)
    (iblk0 (V6 m ρ) c 14 t) (iblk0 (V6 m ρ) c 15 t) (iblk0 (V6 m ρ) c 16 t) (iblk0 (V6 m ρ) c 17 t) (iblk0 (V6 m ρ) c 18 t)
    (iblk0 (V6 m ρ) c 19 t) (iblk0 (V6 m ρ) c 20 t) r a).trans ?_
  simp only [iblk0_0, iblk0_1, iblk0_2, iblk0_3, iblk0_4, iblk0_5, iblk0_6, iblk0_7, iblk0_8, iblk0_9, iblk0_10, iblk0_11,
    iblk0_12, iblk0_13, iblk0_14, iblk0_15, iblk0_16, iblk0_17, iblk0_18, iblk0_19, iblk0_20]
  rfl

/-- The node update over the arrays the second region finds. -/
def outK (c : Dev nD) : Fin 25000 → Fin 128 → EReal :=
  nodeOut (fun r k => (V8 m ρ c main_arg0 : S25000x128.Idx → EReal) (ix2 r k))
    (fun r k => (V8 m ρ c main_v32 : S25000x128.Idx → EReal) (ix2 r k))
    (fun k j => (V8 m ρ c main_arg12 : S256x128.Idx → EReal) (ix2 k j))
    (fun j => (V8 m ρ c main_arg13 : S128.Idx → EReal) (ix1 j))
    (fun j => (V8 m ρ c main_arg14 : S128.Idx → EReal) (ix1 j))
    (fun j => (V8 m ρ c main_arg15 : S128.Idx → EReal) (ix1 j))
    (fun k j => (V8 m ρ c main_arg16 : S128x128.Idx → EReal) (ix2 k j))
    (fun j => (V8 m ρ c main_arg17 : S128.Idx → EReal) (ix1 j))

/-- The second region leaves the node update in its result table. -/
theorem arr8 (c : Dev nD) :
    ((dat1 (V8 m ρ) c).arrAt 8 cfg1.N : S25000x128.Idx → EReal) = fun i => outK m ρ c (i 0) (i 1) := by
  refine arr8_eq (V8 m ρ) c (outK m ρ c) fun t r j => ?_
  rw [after1_8]
  refine (Blocks.out1_8_apply (iblk1 (V8 m ρ) c 0 t) (iblk1 (V8 m ρ) c 1 t) (iblk1 (V8 m ρ) c 2 t) (iblk1 (V8 m ρ) c 3 t)
    (iblk1 (V8 m ρ) c 4 t) (iblk1 (V8 m ρ) c 5 t) (iblk1 (V8 m ρ) c 6 t) (iblk1 (V8 m ρ) c 7 t) r j).trans ?_
  simp only [iblk1_0, iblk1_1, iblk1_2, iblk1_3, iblk1_4, iblk1_5, iblk1_6, iblk1_7]
  rfl

/-! ## The run, with its two results named -/

/-- The updated coordinates the kernel program ends with. -/
def coordK (c : Dev nD) : FVec Ideal S25000x3 .f32 :=
  addf (F := Ideal) (m ((c.tc : Thread nD τ).loc main_arg2))
    (segSum3 (F := Ideal) (edgeRow0 (m ((c.tc : Thread nD τ).loc main_arg1))) (fun i => trK m ρ c (i 0) (i 1)))

/-- Every weakly fair execution of the kernel program terminates, nothing faulting, with the node update and the
    updated coordinates in its two result buffers and the arguments unchanged. -/
theorem kernel_run : θ_run defs (onTc (τ := τ) (main (F := Ideal))) ⟨m, fun _ => 0, ρ⟩ (fun r => ∀ c : Dev nD,
      r.2.mem ((c.tc : Thread nD τ).loc main_v33) = (fun i => outK m ρ c (i 0) (i 1))
      ∧ r.2.mem ((c.tc : Thread nD τ).loc main_v29) = coordK m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨
      (h c _ (mem_uc main_v33 (by decide))).trans ((W9_v33 m ρ c).trans (arr8 m ρ c)),
      (h c _ (mem_uc main_v29 (by decide))).trans ((W9_v29 m ρ c).trans ((W8_v29 m ρ c).trans (by rw [arr22]; rfl))),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c),
      (h c _ (mem_uc main_arg13 (by decide))).trans (W9_main_arg13 m ρ c),
      (h c _ (mem_uc main_arg14 (by decide))).trans (W9_main_arg14 m ρ c),
      (h c _ (mem_uc main_arg15 (by decide))).trans (W9_main_arg15 m ρ c),
      (h c _ (mem_uc main_arg16 (by decide))).trans (W9_main_arg16 m ρ c),
      (h c _ (mem_uc main_arg17 (by decide))).trans (W9_main_arg17 m ρ c),
      (h c _ (mem_uc main_arg18 (by decide))).trans (W9_main_arg18 m ρ c),
      (h c _ (mem_uc main_arg19 (by decide))).trans (W9_main_arg19 m ρ c),
      (h c _ (mem_uc main_arg20 (by decide))).trans (W9_main_arg20 m ρ c),
      (h c _ (mem_uc main_arg21 (by decide))).trans (W9_main_arg21 m ρ c),
      (h c _ (mem_uc main_arg22 (by decide))).trans (W9_main_arg22 m ρ c)⟩)
    (run_all m ρ)

end Cert.KernelIdeal.Gen

end
-- ==== Proof.HostBridge.lean ====
/-
  The two programs' host sides are one. Stage by stage the reference's host operations before its first matrix product
  (the wrap of the edge indices, the four gathers, the coordinate difference, its squared length, the scaled difference)
  and its two segment sums are the kernel program's host terms of the same arguments; and the kernel's four row blocks
  of the first edge weight, read at an entry, are the weight read at the block's own rows.
-/
import proofs.«419454_j9414568313009_1_alg».proof.Proof.ReadP
import proofs.«419454_j9414568313009_1_alg».proof.Proof.KerHost
import Idealize.ShloMosaic.Lib.ValueLayout
import Idealize.ShloMosaic.Lib.Pipeline.Value

set_option maxRecDepth 16384

noncomputable section

namespace Cert.HostBridge

open Idealize.ShloMosaic Idealize.ShloMosaic.ValueIdx
open Cert.ReferenceIdeal.Read Cert.KernelIdeal.Take Cert.KernelIdeal.Gen

variable {F : FTy → Type} [FloatOps F]

/-! ## The gathers -/

theorem ref_v35 (x0 : (⟨Cert.ReferenceIdeal.S25000x128, .f32⟩ : BufTy).Contents (Elt F)) (x1 : (⟨Cert.ReferenceIdeal.S2x400000, .i32⟩ : BufTy).Contents (Elt F)) :
    val_main_v35 (F := F) x0 x1
      = Host.gather Cert.KernelIdeal.gather_S25000x128_S400000x1_S400000x128_1_0_n_n_0_1_1128 x0 (wrap (edgeRow0 x1)) := rfl

theorem ref_v42 (x0 : (⟨Cert.ReferenceIdeal.S25000x128, .f32⟩ : BufTy).Contents (Elt F)) (x1 : (⟨Cert.ReferenceIdeal.S2x400000, .i32⟩ : BufTy).Contents (Elt F)) :
    val_main_v42 (F := F) x0 x1
      = Host.gather Cert.KernelIdeal.gather_S25000x128_S400000x1_S400000x128_1_0_n_n_0_1_1128 x0 (wrap (edgeRow1 x1)) := rfl

/-! ## The coordinate differences -/

theorem ref_v21 (x1 : (⟨Cert.ReferenceIdeal.S2x400000, .i32⟩ : BufTy).Contents (Elt F)) (x2 : (⟨Cert.ReferenceIdeal.S25000x3, .f32⟩ : BufTy).Contents (Elt F)) :
    val_main_v21 (F := F) x1 x2
      = radial (Host.gather Cert.KernelIdeal.gather_S25000x3_S400000x1_S400000x3_1_0_n_n_0_1_13 x2 (wrap (edgeRow0 x1)))
          (Host.gather Cert.KernelIdeal.gather_S25000x3_S400000x1_S400000x3_1_0_n_n_0_1_13 x2 (wrap (edgeRow1 x1))) := rfl

theorem ref_v28 (x1 : (⟨Cert.ReferenceIdeal.S2x400000, .i32⟩ : BufTy).Contents (Elt F)) (x2 : (⟨Cert.ReferenceIdeal.S25000x3, .f32⟩ : BufTy).Contents (Elt F)) :
    val_main_v28 (F := F) x1 x2
      = cdiff (Host.gather Cert.KernelIdeal.gather_S25000x3_S400000x1_S400000x3_1_0_n_n_0_1_13 x2 (wrap (edgeRow0 x1)))
          (Host.gather Cert.KernelIdeal.gather_S25000x3_S400000x1_S400000x3_1_0_n_n_0_1_13 x2 (wrap (edgeRow1 x1))) := rfl

/-! ## The segment sums -/

theorem ref_v140 (x0 : (⟨Cert.ReferenceIdeal.S25000x128, .f32⟩ : BufTy).Contents (Elt F)) (x1 : (⟨Cert.ReferenceIdeal.S2x400000, .i32⟩ : BufTy).Contents (Elt F))
    (x2 : (⟨Cert.ReferenceIdeal.S25000x3, .f32⟩ : BufTy).Contents (Elt F)) (x3 : (⟨Cert.ReferenceIdeal.S400000x1, .f32⟩ : BufTy).Contents (Elt F)) (x4 : (⟨Cert.ReferenceIdeal.S258x128, .f32⟩ : BufTy).Contents (Elt F))
    (x5 x6 x7 : (⟨Cert.ReferenceIdeal.S128, .f32⟩ : BufTy).Contents (Elt F)) (x8 : (⟨Cert.ReferenceIdeal.S128x128, .f32⟩ : BufTy).Contents (Elt F)) (x9 x10 x11 : (⟨Cert.ReferenceIdeal.S128, .f32⟩ : BufTy).Contents (Elt F)) :
    val_main_v140 (F := F) x0 x1 x2 x3 x4 x5 x6 x7 x8 x9 x10 x11
      = segSum128 (edgeRow0 x1) (val_main_v101 (F := F) x0 x1 x2 x3 x4 x5 x6 x7 x8 x9 x10 x11) := rfl

theorem ref_v137 (x0 : (⟨Cert.ReferenceIdeal.S25000x128, .f32⟩ : BufTy).Contents (Elt F)) (x1 : (⟨Cert.ReferenceIdeal.S2x400000, .i32⟩ : BufTy).Contents (Elt F))
    (x2 : (⟨Cert.ReferenceIdeal.S25000x3, .f32⟩ : BufTy).Contents (Elt F)) (x3 : (⟨Cert.ReferenceIdeal.S400000x1, .f32⟩ : BufTy).Contents (Elt F)) (x4 : (⟨Cert.ReferenceIdeal.S258x128, .f32⟩ : BufTy).Contents (Elt F))
    (x5 x6 x7 : (⟨Cert.ReferenceIdeal.S128, .f32⟩ : BufTy).Contents (Elt F)) (x8 : (⟨Cert.ReferenceIdeal.S128x128, .f32⟩ : BufTy).Contents (Elt F)) (x9 x10 x11 : (⟨Cert.ReferenceIdeal.S128, .f32⟩ : BufTy).Contents (Elt F))
    (x18 : (⟨Cert.ReferenceIdeal.S128x128, .f32⟩ : BufTy).Contents (Elt F)) (x19 x20 x21 : (⟨Cert.ReferenceIdeal.S128, .f32⟩ : BufTy).Contents (Elt F)) (x22 : (⟨Cert.ReferenceIdeal.S128x1, .f32⟩ : BufTy).Contents (Elt F)) :
    val_main_v137 (F := F) x0 x1 x2 x3 x4 x5 x6 x7 x8 x9 x10 x11 x18 x19 x20 x21 x22
      = addf x2 (segSum3 (edgeRow0 x1) (val_main_v133 (F := F) x0 x1 x2 x3 x4 x5 x6 x7 x8 x9 x10 x11 x18 x19 x20 x21 x22)) := rfl

/-! ## The four row blocks of the first edge weight -/

theorem w1h_apply (x : FVec F Cert.KernelIdeal.S258x128 .f32) (k j : Fin 128) :
    w1h x (ix2 k j) = x (ix2 (⟨k.val, by omega⟩ : Fin 258) j) :=
  slice2_axis0_apply 0 x _ k j ⟨k.val, by omega⟩ (Nat.zero_add _).symm

theorem w1c_apply (x : FVec F Cert.KernelIdeal.S258x128 .f32) (k j : Fin 128) :
    w1c x (ix2 k j) = x (ix2 (⟨128 + k.val, by omega⟩ : Fin 258) j) :=
  slice2_axis0_apply 128 x _ k j ⟨128 + k.val, by omega⟩ rfl

theorem w1r_apply (x : FVec F Cert.KernelIdeal.S258x128 .f32) (j : Fin 128) :
    w1r x (ix1 j) = x (ix2 (⟨256, by omega⟩ : Fin 258) j) := by
  unfold w1r
  rw [shapeCast_1a_a_apply]
  exact slice2_axis0_apply 256 x _ (0 : Fin 1) j ⟨256, by omega⟩ rfl

theorem w1e_apply (x : FVec F Cert.KernelIdeal.S258x128 .f32) (j : Fin 128) :
    w1e x (ix1 j) = x (ix2 (⟨257, by omega⟩ : Fin 258) j) := by
  unfold w1e
  rw [shapeCast_1a_a_apply]
  exact slice2_axis0_apply 257 x _ (0 : Fin 1) j ⟨257, by omega⟩ rfl

end Cert.HostBridge

end
-- ==== Proof.RefEdge.lean ====
/-
  The reference's edge stages read at an entry: the edge message of edge `e` as the two gated, normalised affine maps
  of the row `[h[row e], h[col e], radial e, edge_attr e]` (the matrix product over the 258 entries split by the
  row's four blocks), and the weighted coordinate difference of edge `e`.
-/
import proofs.«419454_j9414568313009_1_alg».proof.Proof.ReadP
import proofs.«419454_j9414568313009_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read Cert.Egnn

/-- A row vector broadcast over the rows reads its entry at the column. -/
private theorem bias_v46 (x5 : (⟨S128, .f32⟩ : BufTy).Contents (Elt Ideal)) (e : Fin 400000) (j : Fin 128) :
    val_main_v46 (F := Ideal) x5 (ix2 e j) = x5 (ix1 j) := by
  rw [val_main_v46_apply, val_main_v45_apply]
  exact congrArg x5 (funext fun a => Fin.ext (by match a with | ⟨0, _⟩ => rfl))

/-- The joined row at an entry of its first block is the first piece. -/
private theorem cat_v43_0 (x0 : (⟨S25000x128, .f32⟩ : BufTy).Contents (Elt Ideal)) (x1 : (⟨S2x400000, .i32⟩ : BufTy).Contents (Elt Ideal)) (x2 : (⟨S25000x3, .f32⟩ : BufTy).Contents (Elt Ideal))
    (x3 : (⟨S400000x1, .f32⟩ : BufTy).Contents (Elt Ideal)) (e : Fin 400000) (k : Fin 128) (hk : k.val < 258) :
    val_main_v43 (F := Ideal) x0 x1 x2 x3 (ix2 e (⟨k.val, hk⟩ : Fin 258)) = val_main_v35 (F := Ideal) x0 x1 (ix2 e k) := by
  unfold val_main_v43
  exact concatenate_apply_piece (1 : Fin S400000x258.rank) [⟨S400000x128, (val_main_v35 (F := Ideal) x0 x1)⟩, ⟨S400000x128, (val_main_v42 (F := Ideal) x0 x1)⟩, ⟨S400000x1, (val_main_v21 (F := Ideal) x1 x2)⟩, ⟨S400000x1, (x3)⟩] Cert.ReferenceIdeal.Gen.concatenates_S400000x128_S400000x128_S400000x1_S400000x1_S400000x258_d1
    (ix2 e (⟨k.val, hk⟩ : Fin 258)) 0 (by show 0 < 4; omega) S400000x128 (val_main_v35 (F := Ideal) x0 x1) rfl rfl 0 rfl (ix2 e k)
    (fun b hb => by match b with | ⟨0, _⟩ => rfl | ⟨1, _⟩ => exact absurd rfl hb) (Nat.zero_add _)

/-- The joined row at an entry of its second block is the second piece. -/
private theorem cat_v43_1 (x0 : (⟨S25000x128, .f32⟩ : BufTy).Contents (Elt Ideal)) (x1 : (⟨S2x400000, .i32⟩ : BufTy).Contents (Elt Ideal)) (x2 : (⟨S25000x3, .f32⟩ : BufTy).Contents (Elt Ideal))
    (x3 : (⟨S400000x1, .f32⟩ : BufTy).Contents (Elt Ideal)) (e : Fin 400000) (k : Fin 128) (hk : 128 + k.val < 258) :
    val_main_v43 (F := Ideal) x0 x1 x2 x3 (ix2 e (⟨128 + k.val, hk⟩ : Fin 258)) = val_main_v42 (F := Ideal) x0 x1 (ix2 e k) := by
  unfold val_main_v43
  exact concatenate_apply_piece (1 : Fin S400000x258.rank) [⟨S400000x128, (val_main_v35 (F := Ideal) x0 x1)⟩, ⟨S400000x128, (val_main_v42 (F := Ideal) x0 x1)⟩, ⟨S400000x1, (val_main_v21 (F := Ideal) x1 x2)⟩, ⟨S400000x1, (x3)⟩] Cert.ReferenceIdeal.Gen.concatenates_S400000x128_S400000x128_S400000x1_S400000x1_S400000x258_d1
    (ix2 e (⟨128 + k.val, hk⟩ : Fin 258)) 1 (by show 1 < 4; omega) S400000x128 (val_main_v42 (F := Ideal) x0 x1) rfl rfl 128 rfl (ix2 e k)
    (fun b hb => by match b with | ⟨0, _⟩ => rfl | ⟨1, _⟩ => exact absurd rfl hb) rfl

/-- The joined row at entry 256 is the third piece. -/
private theorem cat_v43_2 (x0 : (⟨S25000x128, .f32⟩ : BufTy).Contents (Elt Ideal)) (x1 : (⟨S2x400000, .i32⟩ : BufTy).Contents (Elt Ideal)) (x2 : (⟨S25000x3, .f32⟩ : BufTy).Contents (Elt Ideal))
    (x3 : (⟨S400000x1, .f32⟩ : BufTy).Contents (Elt Ideal)) (e : Fin 400000) (h : 256 < 258) :
    val_main_v43 (F := Ideal) x0 x1 x2 x3 (ix2 e (⟨256, h⟩ : Fin 258)) = val_main_v21 (F := Ideal) x1 x2 (ix2 e (0 : Fin 1)) := by
  unfold val_main_v43
  exact concatenate_apply_piece (1 : Fin S400000x258.rank) [⟨S400000x128, (val_main_v35 (F := Ideal) x0 x1)⟩, ⟨S400000x128, (val_main_v42 (F := Ideal) x0 x1)⟩, ⟨S400000x1, (val_main_v21 (F := Ideal) x1 x2)⟩, ⟨S400000x1, (x3)⟩] Cert.ReferenceIdeal.Gen.concatenates_S400000x128_S400000x128_S400000x1_S400000x1_S400000x258_d1
    (ix2 e (⟨256, h⟩ : Fin 258)) 2 (by show 2 < 4; omega) S400000x1 (val_main_v21 (F := Ideal) x1 x2) rfl rfl 256 rfl (ix2 e (0 : Fin 1))
    (fun b hb => by match b with | ⟨0, _⟩ => rfl | ⟨1, _⟩ => exact absurd rfl hb) rfl

/-- The joined row at entry 257 is the fourth piece. -/
private theorem cat_v43_3 (x0 : (⟨S25000x128, .f32⟩ : BufTy).Contents (Elt Ideal)) (x1 : (⟨S2x400000, .i32⟩ : BufTy).Contents (Elt Ideal)) (x2 : (⟨S25000x3, .f32⟩ : BufTy).Contents (Elt Ideal))
    (x3 : (⟨S400000x1, .f32⟩ : BufTy).Contents (Elt Ideal)) (e : Fin 400000) (h : 257 < 258) :
    val_main_v43 (F := Ideal) x0 x1 x2 x3 (ix2 e (⟨257, h⟩ : Fin 258)) = x3 (ix2 e (0 : Fin 1)) := by
  unfold val_main_v43
  exact concatenate_apply_piece (1 : Fin S400000x258.rank) [⟨S400000x128, (val_main_v35 (F := Ideal) x0 x1)⟩, ⟨S400000x128, (val_main_v42 (F := Ideal) x0 x1)⟩, ⟨S400000x1, (val_main_v21 (F := Ideal) x1 x2)⟩, ⟨S400000x1, (x3)⟩] Cert.ReferenceIdeal.Gen.concatenates_S400000x128_S400000x128_S400000x1_S400000x1_S400000x258_d1
    (ix2 e (⟨257, h⟩ : Fin 258)) 3 (by show 3 < 4; omega) S400000x1 (x3) rfl rfl 257 rfl (ix2 e (0 : Fin 1))
    (fun b hb => by match b with | ⟨0, _⟩ => rfl | ⟨1, _⟩ => exact absurd rfl hb) rfl

/-- The first edge map at an entry: the product over the 258 entries of the joined row, by the row's four blocks. -/
private theorem lin1_apply (x0 : (⟨S25000x128, .f32⟩ : BufTy).Contents (Elt Ideal)) (x1 : (⟨S2x400000, .i32⟩ : BufTy).Contents (Elt Ideal)) (x2 : (⟨S25000x3, .f32⟩ : BufTy).Contents (Elt Ideal))
    (x3 : (⟨S400000x1, .f32⟩ : BufTy).Contents (Elt Ideal)) (x4 : (⟨S258x128, .f32⟩ : BufTy).Contents (Elt Ideal)) (x5 : (⟨S128, .f32⟩ : BufTy).Contents (Elt Ideal)) (e : Fin 400000) (j : Fin 128) :
    val_main_v47 (F := Ideal) x0 x1 x2 x3 x4 x5 (ix2 e j)
      = lin1 (fun e k => val_main_v35 (F := Ideal) x0 x1 (ix2 e k)) (fun e k => val_main_v42 (F := Ideal) x0 x1 (ix2 e k))
          (fun e => val_main_v21 (F := Ideal) x1 x2 (ix2 e (0 : Fin 1))) (fun e => x3 (ix2 e (0 : Fin 1)))
          (fun k j => x4 (ix2 (⟨k.val, by omega⟩ : Fin 258) j)) (fun k j => x4 (ix2 (⟨128 + k.val, by omega⟩ : Fin 258) j))
          (fun j => x4 (ix2 (⟨256, by omega⟩ : Fin 258) j)) (fun j => x4 (ix2 (⟨257, by omega⟩ : Fin 258) j))
          (fun j => x5 (ix1 j)) e j := by
  rw [val_main_v47_apply, val_main_v44_apply, bias_v46, Ideal.addf_def, sum258]
  have hl : ∀ k : Fin 258, lidx_main_v44 (ix2 e j) k = ix2 e k := fun k => Shape.idx_ext₂ rfl rfl
  have hr : ∀ k : Fin 258, ridx_main_v44 (ix2 e j) k = ix2 k j := fun k => Shape.idx_ext₂ rfl rfl
  simp only [hl, hr, cat_v43_0, cat_v43_1, cat_v43_2, cat_v43_3]
  rfl

/-- The first map's row normalised, scaled, shifted and gated, at an entry. -/
private theorem act1_apply (x0 : (⟨S25000x128, .f32⟩ : BufTy).Contents (Elt Ideal)) (x1 : (⟨S2x400000, .i32⟩ : BufTy).Contents (Elt Ideal)) (x2 : (⟨S25000x3, .f32⟩ : BufTy).Contents (Elt Ideal))
    (x3 : (⟨S400000x1, .f32⟩ : BufTy).Contents (Elt Ideal)) (x4 : (⟨S258x128, .f32⟩ : BufTy).Contents (Elt Ideal)) (x5 x6 x7 : (⟨S128, .f32⟩ : BufTy).Contents (Elt Ideal)) (e : Fin 400000) (j : Fin 128) :
    val_main_v72 (F := Ideal) x0 x1 x2 x3 x4 x5 x6 x7 (ix2 e j)
      = act (fun e k => val_main_v47 (F := Ideal) x0 x1 x2 x3 x4 x5 (ix2 e k)) (fun j => x6 (ix1 j)) (fun j => x7 (ix1 j)) e j := by
  -- the mean of the row
  have hm : ∀ c : Fin 1, val_main_v51 (F := Ideal) x0 x1 x2 x3 x4 x5 (ix2 e c) = mean (fun e k => val_main_v47 (F := Ideal) x0 x1 x2 x3 x4 x5 (ix2 e k)) e := by
    intro c
    rw [val_main_v51_apply, val_main_v49_apply, val_main_v48_apply, val_main_v50_apply, val_main_cst_10_apply, val_main_cst_9_apply]
    have hi : ∀ k : Fin 128, idx_main_v48 (idx_main_v49 (ix2 e c)) k = ix2 e k := fun k => Shape.idx_ext₂ rfl rfl
    simp only [Ideal.hostDivf_def, Ideal.ofBits_def, Ideal.ofBits_zero_f32, zero_add, hi]
    rfl
  -- the row with its mean taken off (the reference forms it twice)
  have hc : ∀ k : Fin 128, val_main_v53 (F := Ideal) x0 x1 x2 x3 x4 x5 (ix2 e k) = cen (fun e k => val_main_v47 (F := Ideal) x0 x1 x2 x3 x4 x5 (ix2 e k)) e k := by
    intro k
    have hi : idx_main_v52 (ix2 e k) = ix2 e (0 : Fin 1) := Shape.idx_ext₂ rfl rfl
    rw [val_main_v53_apply, val_main_v52_apply, hi, hm, Ideal.subf_def]
    rfl
  have hc' : val_main_v60 (F := Ideal) x0 x1 x2 x3 x4 x5 (ix2 e j) = cen (fun e k => val_main_v47 (F := Ideal) x0 x1 x2 x3 x4 x5 (ix2 e k)) e j := by
    have hi : idx_main_v59 (ix2 e j) = ix2 e (0 : Fin 1) := Shape.idx_ext₂ rfl rfl
    rw [val_main_v60_apply, val_main_v59_apply, hi, hm, Ideal.subf_def]
    rfl
  -- the variance of the row
  have hv : ∀ c : Fin 1, val_main_v58 (F := Ideal) x0 x1 x2 x3 x4 x5 (ix2 e c) = var (fun e k => val_main_v47 (F := Ideal) x0 x1 x2 x3 x4 x5 (ix2 e k)) e := by
    intro c
    rw [val_main_v58_apply, val_main_v56_apply, val_main_v55_apply, val_main_v57_apply, val_main_cst_12_apply, val_main_cst_11_apply]
    have hi : ∀ k : Fin 128, idx_main_v55 (idx_main_v56 (ix2 e c)) k = ix2 e k := fun k => Shape.idx_ext₂ rfl rfl
    simp only [Ideal.hostDivf_def, Ideal.ofBits_def, Ideal.ofBits_zero_f32, zero_add, hi, val_main_v54_apply, Ideal.mulf_def, hc]
    rfl
  -- the normalised row, scaled and shifted
  have hn : val_main_v71 (F := Ideal) x0 x1 x2 x3 x4 x5 x6 x7 (ix2 e j) = norm (fun e k => val_main_v47 (F := Ideal) x0 x1 x2 x3 x4 x5 (ix2 e k)) (fun j => x6 (ix1 j)) (fun j => x7 (ix1 j)) e j := by
    have hi : idx_main_v64 (ix2 e j) = ix2 e (0 : Fin 1) := Shape.idx_ext₂ rfl rfl
    have hg : idx_main_v66 (idx_main_v67 (ix2 e j)) = ix1 j := funext fun a => Fin.ext (by match a with | ⟨0, _⟩ => rfl)
    have hb : idx_main_v69 (idx_main_v70 (ix2 e j)) = ix1 j := funext fun a => Fin.ext (by match a with | ⟨0, _⟩ => rfl)
    rw [val_main_v71_apply, val_main_v68_apply, val_main_v65_apply, hc', val_main_v64_apply, hi, val_main_v63_apply, val_main_v62_apply, hv, val_main_v61_apply, val_main_cst_13_apply,
      val_main_v67_apply, val_main_v66_apply, hg, val_main_v70_apply, val_main_v69_apply, hb]
    simp only [Ideal.addf_def, Ideal.mulf_def, Ideal.hostUnary_rsqrt_def, Ideal.ofBits_def]
    rfl
  -- the gate
  rw [val_main_v72_apply, hn, val_main_call0_v5_apply, val_main_call0_v4_apply, val_main_call0_cst_0_apply, val_main_call0_v3_apply, val_main_call0_v2_apply, val_main_call0_cst_apply,
    val_main_call0_v1_apply, val_main_call0_v0_apply, hn]
  simp only [Ideal.mulf_def, Ideal.hostDivf_def, Ideal.addf_def, Ideal.hostUnary_exp_def, Ideal.hostNegf_def, Ideal.negf_def,
    Ideal.ofBits_def, ofBits_one]
  rfl

/-- The second edge map at an entry. -/
private theorem dense2_apply (x0 : (⟨S25000x128, .f32⟩ : BufTy).Contents (Elt Ideal)) (x1 : (⟨S2x400000, .i32⟩ : BufTy).Contents (Elt Ideal)) (x2 : (⟨S25000x3, .f32⟩ : BufTy).Contents (Elt Ideal))
    (x3 : (⟨S400000x1, .f32⟩ : BufTy).Contents (Elt Ideal)) (x4 : (⟨S258x128, .f32⟩ : BufTy).Contents (Elt Ideal)) (x5 x6 x7 : (⟨S128, .f32⟩ : BufTy).Contents (Elt Ideal)) (x8 : (⟨S128x128, .f32⟩ : BufTy).Contents (Elt Ideal)) (x9 : (⟨S128, .f32⟩ : BufTy).Contents (Elt Ideal)) (e : Fin 400000) (j : Fin 128) :
    val_main_v76 (F := Ideal) x0 x1 x2 x3 x4 x5 x6 x7 x8 x9 (ix2 e j)
      = dense (fun e k => val_main_v72 (F := Ideal) x0 x1 x2 x3 x4 x5 x6 x7 (ix2 e k)) (fun k j => x8 (ix2 k j)) (fun j => x9 (ix1 j)) e j := by
  have hl : ∀ k : Fin 128, lidx_main_v73 (ix2 e j) k = ix2 e k := fun k => Shape.idx_ext₂ rfl rfl
  have hr : ∀ k : Fin 128, ridx_main_v73 (ix2 e j) k = ix2 k j := fun k => Shape.idx_ext₂ rfl rfl
  have hb : idx_main_v74 (idx_main_v75 (ix2 e j)) = ix1 j := funext fun a => Fin.ext (by match a with | ⟨0, _⟩ => rfl)
  rw [val_main_v76_apply, val_main_v73_apply, val_main_v75_apply, val_main_v74_apply, hb, Ideal.addf_def]
  simp only [hl, hr]
  rfl

/-- The second map's row normalised, scaled, shifted and gated, at an entry. -/
private theorem act2_apply (x0 : (⟨S25000x128, .f32⟩ : BufTy).Contents (Elt Ideal)) (x1 : (⟨S2x400000, .i32⟩ : BufTy).Contents (Elt Ideal)) (x2 : (⟨S25000x3, .f32⟩ : BufTy).Contents (Elt Ideal))
    (x3 : (⟨S400000x1, .f32⟩ : BufTy).Contents (Elt Ideal)) (x4 : (⟨S258x128, .f32⟩ : BufTy).Contents (Elt Ideal)) (x5 x6 x7 : (⟨S128, .f32⟩ : BufTy).Contents (Elt Ideal)) (x8 : (⟨S128x128, .f32⟩ : BufTy).Contents (Elt Ideal)) (x9 x10 x11 : (⟨S128, .f32⟩ : BufTy).Contents (Elt Ideal)) (e : Fin 400000) (j : Fin 128) :
    val_main_v101 (F := Ideal) x0 x1 x2 x3 x4 x5 x6 x7 x8 x9 x10 x11 (ix2 e j)
      = act (fun e k => val_main_v76 (F := Ideal) x0 x1 x2 x3 x4 x5 x6 x7 x8 x9 (ix2 e k)) (fun j => x10 (ix1 j)) (fun j => x11 (ix1 j)) e j := by
  -- the mean of the row
  have hm : ∀ c : Fin 1, val_main_v80 (F := Ideal) x0 x1 x2 x3 x4 x5 x6 x7 x8 x9 (ix2 e c) = mean (fun e k => val_main_v76 (F := Ideal) x0 x1 x2 x3 x4 x5 x6 x7 x8 x9 (ix2 e k)) e := by
    intro c
    rw [val_main_v80_apply, val_main_v78_apply, val_main_v77_apply, val_main_v79_apply, val_main_cst_15_apply, val_main_cst_14_apply]
    have hi : ∀ k : Fin 128, idx_main_v77 (idx_main_v78 (ix2 e c)) k = ix2 e k := fun k => Shape.idx_ext₂ rfl rfl
    simp only [Ideal.hostDivf_def, Ideal.ofBits_def, Ideal.ofBits_zero_f32, zero_add, hi]
    rfl
  -- the row with its mean taken off (the reference forms it twice)
  have hc : ∀ k : Fin 128, val_main_v82 (F := Ideal) x0 x1 x2 x3 x4 x5 x6 x7 x8 x9 (ix2 e k) = cen (fun e k => val_main_v76 (F := Ideal) x0 x1 x2 x3 x4 x5 x6 x7 x8 x9 (ix2 e k)) e k := by
    intro k
    have hi : idx_main_v81 (ix2 e k) = ix2 e (0 : Fin 1) := Shape.idx_ext₂ rfl rfl
    rw [val_main_v82_apply, val_main_v81_apply, hi, hm, Ideal.subf_def]
    rfl
  have hc' : val_main_v89 (F := Ideal) x0 x1 x2 x3 x4 x5 x6 x7 x8 x9 (ix2 e j) = cen (fun e k => val_main_v76 (F := Ideal) x0 x1 x2 x3 x4 x5 x6 x7 x8 x9 (ix2 e k)) e j := by
    have hi : idx_main_v88 (ix2 e j) = ix2 e (0 : Fin 1) := Shape.idx_ext₂ rfl rfl
    rw [val_main_v89_apply, val_main_v88_apply, hi, hm, Ideal.subf_def]
    rfl
  -- the variance of the row
  have hv : ∀ c : Fin 1, val_main_v87 (F := Ideal) x0 x1 x2 x3 x4 x5 x6 x7 x8 x9 (ix2 e c) = var (fun e k => val_main_v76 (F := Ideal) x0 x1 x2 x3 x4 x5 x6 x7 x8 x9 (ix2 e k)) e := by
    intro c
    rw [val_main_v87_apply, val_main_v85_apply, val_main_v84_apply, val_main_v86_apply, val_main_cst_17_apply, val_main_cst_16_apply]
    have hi : ∀ k : Fin 128, idx_main_v84 (idx_main_v85 (ix2 e c)) k = ix2 e k := fun k => Shape.idx_ext₂ rfl rfl
    simp only [Ideal.hostDivf_def, Ideal.ofBits_def, Ideal.ofBits_zero_f32, zero_add, hi, val_main_v83_apply, Ideal.mulf_def, hc]
    rfl
  -- the normalised row, scaled and shifted
  have hn : val_main_v100 (F := Ideal) x0 x1 x2 x3 x4 x5 x6 x7 x8 x9 x10 x11 (ix2 e j) = norm (fun e k => val_main_v76 (F := Ideal) x0 x1 x2 x3 x4 x5 x6 x7 x8 x9 (ix2 e k)) (fun j => x10 (ix1 j)) (fun j => x11 (ix1 j)) e j := by
    have hi : idx_main_v93 (ix2 e j) = ix2 e (0 : Fin 1) := Shape.idx_ext₂ rfl rfl
    have hg : idx_main_v95 (idx_main_v96 (ix2 e j)) = ix1 j := funext fun a => Fin.ext (by match a with | ⟨0, _⟩ => rfl)
    have hb : idx_main_v98 (idx_main_v99 (ix2 e j)) = ix1 j := funext fun a => Fin.ext (by match a with | ⟨0, _⟩ => rfl)
    rw [val_main_v100_apply, val_main_v97_apply, val_main_v94_apply, hc', val_main_v93_apply, hi, val_main_v92_apply, val_main_v91_apply, hv, val_main_v90_apply, val_main_cst_18_apply,
      val_main_v96_apply, val_main_v95_apply, hg, val_main_v99_apply, val_main_v98_apply, hb]
    simp only [Ideal.addf_def, Ideal.mulf_def, Ideal.hostUnary_rsqrt_def, Ideal.ofBits_def]
    rfl
  -- the gate
  rw [val_main_v101_apply, hn, val_main_call1_v5_apply, val_main_call1_v4_apply, val_main_call1_cst_0_apply, val_main_call1_v3_apply, val_main_call1_v2_apply, val_main_call1_cst_apply,
    val_main_call1_v1_apply, val_main_call1_v0_apply, hn]
  simp only [Ideal.mulf_def, Ideal.hostDivf_def, Ideal.addf_def, Ideal.hostUnary_exp_def, Ideal.hostNegf_def, Ideal.negf_def,
    Ideal.ofBits_def, ofBits_one]
  rfl

/-- The first map of the edge's weight at an entry. -/
private theorem dense3_apply (x0 : (⟨S25000x128, .f32⟩ : BufTy).Contents (Elt Ideal)) (x1 : (⟨S2x400000, .i32⟩ : BufTy).Contents (Elt Ideal)) (x2 : (⟨S25000x3, .f32⟩ : BufTy).Contents (Elt Ideal))
    (x3 : (⟨S400000x1, .f32⟩ : BufTy).Contents (Elt Ideal)) (x4 : (⟨S258x128, .f32⟩ : BufTy).Contents (Elt Ideal)) (x5 x6 x7 : (⟨S128, .f32⟩ : BufTy).Contents (Elt Ideal)) (x8 : (⟨S128x128, .f32⟩ : BufTy).Contents (Elt Ideal)) (x9 x10 x11 : (⟨S128, .f32⟩ : BufTy).Contents (Elt Ideal)) (x18 : (⟨S128x128, .f32⟩ : BufTy).Contents (Elt Ideal)) (x19 : (⟨S128, .f32⟩ : BufTy).Contents (Elt Ideal)) (e : Fin 400000) (j : Fin 128) :
    val_main_v105 (F := Ideal) x0 x1 x2 x3 x4 x5 x6 x7 x8 x9 x10 x11 x18 x19 (ix2 e j)
      = dense (fun e k => val_main_v101 (F := Ideal) x0 x1 x2 x3 x4 x5 x6 x7 x8 x9 x10 x11 (ix2 e k)) (fun k j => x18 (ix2 k j)) (fun j => x19 (ix1 j)) e j := by
  have hl : ∀ k : Fin 128, lidx_main_v102 (ix2 e j) k = ix2 e k := fun k => Shape.idx_ext₂ rfl rfl
  have hr : ∀ k : Fin 128, ridx_main_v102 (ix2 e j) k = ix2 k j := fun k => Shape.idx_ext₂ rfl rfl
  have hb : idx_main_v103 (idx_main_v104 (ix2 e j)) = ix1 j := funext fun a => Fin.ext (by match a with | ⟨0, _⟩ => rfl)
  rw [val_main_v105_apply, val_main_v102_apply, val_main_v104_apply, val_main_v103_apply, hb, Ideal.addf_def]
  simp only [hl, hr]
  rfl

/-- The weight's first map normalised, scaled, shifted and gated, at an entry. -/
private theorem act3_apply (x0 : (⟨S25000x128, .f32⟩ : BufTy).Contents (Elt Ideal)) (x1 : (⟨S2x400000, .i32⟩ : BufTy).Contents (Elt Ideal)) (x2 : (⟨S25000x3, .f32⟩ : BufTy).Contents (Elt Ideal))
    (x3 : (⟨S400000x1, .f32⟩ : BufTy).Contents (Elt Ideal)) (x4 : (⟨S258x128, .f32⟩ : BufTy).Contents (Elt Ideal)) (x5 x6 x7 : (⟨S128, .f32⟩ : BufTy).Contents (Elt Ideal)) (x8 : (⟨S128x128, .f32⟩ : BufTy).Contents (Elt Ideal)) (x9 x10 x11 : (⟨S128, .f32⟩ : BufTy).Contents (Elt Ideal)) (x18 : (⟨S128x128, .f32⟩ : BufTy).Contents (Elt Ideal)) (x19 x20 x21 : (⟨S128, .f32⟩ : BufTy).Contents (Elt Ideal)) (e : Fin 400000) (j : Fin 128) :
    val_main_v130 (F := Ideal) x0 x1 x2 x3 x4 x5 x6 x7 x8 x9 x10 x11 x18 x19 x20 x21 (ix2 e j)
      = act (fun e k => val_main_v105 (F := Ideal) x0 x1 x2 x3 x4 x5 x6 x7 x8 x9 x10 x11 x18 x19 (ix2 e k)) (fun j => x20 (ix1 j)) (fun j => x21 (ix1 j)) e j := by
  -- the mean of the row
  have hm : ∀ c : Fin 1, val_main_v109 (F := Ideal) x0 x1 x2 x3 x4 x5 x6 x7 x8 x9 x10 x11 x18 x19 (ix2 e c) = mean (fun e k => val_main_v105 (F := Ideal) x0 x1 x2 x3 x4 x5 x6 x7 x8 x9 x10 x11 x18 x19 (ix2 e k)) e := by
    intro c
    rw [val_main_v109_apply, val_main_v107_apply, val_main_v106_apply, val_main_v108_apply, val_main_cst_20_apply, val_main_cst_19_apply]
    have hi : ∀ k : Fin 128, idx_main_v106 (idx_main_v107 (ix2 e c)) k = ix2 e k := fun k => Shape.idx_ext₂ rfl rfl
    simp only [Ideal.hostDivf_def, Ideal.ofBits_def, Ideal.ofBits_zero_f32, zero_add, hi]
    rfl
  -- the row with its mean taken off (the reference forms it twice)
  have hc : ∀ k : Fin 128, val_main_v111 (F := Ideal) x0 x1 x2 x3 x4 x5 x6 x7 x8 x9 x10 x11 x18 x19 (ix2 e k) = cen (fun e k => val_main_v105 (F := Ideal) x0 x1 x2 x3 x4 x5 x6 x7 x8 x9 x10 x11 x18 x19 (ix2 e k)) e k := by
    intro k
    have hi : idx_main_v110 (ix2 e k) = ix2 e (0 : Fin 1) := Shape.idx_ext₂ rfl rfl
    rw [val_main_v111_apply, val_main_v110_apply, hi, hm, Ideal.subf_def]
    rfl
  have hc' : val_main_v118 (F := Ideal) x0 x1 x2 x3 x4 x5 x6 x7 x8 x9 x10 x11 x18 x19 (ix2 e j) = cen (fun e k => val_main_v105 (F := Ideal) x0 x1 x2 x3 x4 x5 x6 x7 x8 x9 x10 x11 x18 x19 (ix2 e k)) e j := by
    have hi : idx_main_v117 (ix2 e j) = ix2 e (0 : Fin 1) := Shape.idx_ext₂ rfl rfl
    rw [val_main_v118_apply, val_main_v117_apply, hi, hm, Ideal.subf_def]
    rfl
  -- the variance of the row
  have hv : ∀ c : Fin 1, val_main_v116 (F := Ideal) x0 x1 x2 x3 x4 x5 x6 x7 x8 x9 x10 x11 x18 x19 (ix2 e c) = var (fun e k => val_main_v105 (F := Ideal) x0 x1 x2 x3 x4 x5 x6 x7 x8 x9 x10 x11 x18 x19 (ix2 e k)) e := by
    intro c
    rw [val_main_v116_apply, val_main_v114_apply, val_main_v113_apply, val_main_v115_apply, val_main_cst_22_apply, val_main_cst_21_apply]
    have hi : ∀ k : Fin 128, idx_main_v113 (idx_main_v114 (ix2 e c)) k = ix2 e k := fun k => Shape.idx_ext₂ rfl rfl
    simp only [Ideal.hostDivf_def, Ideal.ofBits_def, Ideal.ofBits_zero_f32, zero_add, hi, val_main_v112_apply, Ideal.mulf_def, hc]
    rfl
  -- the normalised row, scaled and shifted
  have hn : val_main_v129 (F := Ideal) x0 x1 x2 x3 x4 x5 x6 x7 x8 x9 x10 x11 x18 x19 x20 x21 (ix2 e j) = norm (fun e k => val_main_v105 (F := Ideal) x0 x1 x2 x3 x4 x5 x6 x7 x8 x9 x10 x11 x18 x19 (ix2 e k)) (fun j => x20 (ix1 j)) (fun j => x21 (ix1 j)) e j := by
    have hi : idx_main_v122 (ix2 e j) = ix2 e (0 : Fin 1) := Shape.idx_ext₂ rfl rfl
    have hg : idx_main_v124 (idx_main_v125 (ix2 e j)) = ix1 j := funext fun a => Fin.ext (by match a with | ⟨0, _⟩ => rfl)
    have hb : idx_main_v127 (idx_main_v128 (ix2 e j)) = ix1 j := funext fun a => Fin.ext (by match a with | ⟨0, _⟩ => rfl)
    rw [val_main_v129_apply, val_main_v126_apply, val_main_v123_apply, hc', val_main_v122_apply, hi, val_main_v121_apply, val_main_v120_apply, hv, val_main_v119_apply, val_main_cst_23_apply,
      val_main_v125_apply, val_main_v124_apply, hg, val_main_v128_apply, val_main_v127_apply, hb]
    simp only [Ideal.addf_def, Ideal.mulf_def, Ideal.hostUnary_rsqrt_def, Ideal.ofBits_def]
    rfl
  -- the gate
  rw [val_main_v130_apply, hn, val_main_call2_v5_apply, val_main_call2_v4_apply, val_main_call2_cst_0_apply, val_main_call2_v3_apply, val_main_call2_v2_apply, val_main_call2_cst_apply,
    val_main_call2_v1_apply, val_main_call2_v0_apply, hn]
  simp only [Ideal.mulf_def, Ideal.hostDivf_def, Ideal.addf_def, Ideal.hostUnary_exp_def, Ideal.hostNegf_def, Ideal.negf_def,
    Ideal.ofBits_def, ofBits_one]
  rfl

/-- The reference's edge message at edge `e` and channel `j`. -/
theorem edgeFeat_apply (x0 : (⟨S25000x128, .f32⟩ : BufTy).Contents (Elt Ideal)) (x1 : (⟨S2x400000, .i32⟩ : BufTy).Contents (Elt Ideal)) (x2 : (⟨S25000x3, .f32⟩ : BufTy).Contents (Elt Ideal))
    (x3 : (⟨S400000x1, .f32⟩ : BufTy).Contents (Elt Ideal)) (x4 : (⟨S258x128, .f32⟩ : BufTy).Contents (Elt Ideal)) (x5 x6 x7 : (⟨S128, .f32⟩ : BufTy).Contents (Elt Ideal))
    (x8 : (⟨S128x128, .f32⟩ : BufTy).Contents (Elt Ideal)) (x9 x10 x11 : (⟨S128, .f32⟩ : BufTy).Contents (Elt Ideal)) (e : Fin 400000) (j : Fin 128) :
    val_main_v101 (F := Ideal) x0 x1 x2 x3 x4 x5 x6 x7 x8 x9 x10 x11 (ix2 e j)
      = edgeFeat (fun e k => val_main_v35 (F := Ideal) x0 x1 (ix2 e k)) (fun e k => val_main_v42 (F := Ideal) x0 x1 (ix2 e k))
          (fun e => val_main_v21 (F := Ideal) x1 x2 (ix2 e (0 : Fin 1))) (fun e => x3 (ix2 e (0 : Fin 1)))
          (fun k j => x4 (ix2 (⟨k.val, by omega⟩ : Fin 258) j)) (fun k j => x4 (ix2 (⟨128 + k.val, by omega⟩ : Fin 258) j))
          (fun j => x4 (ix2 (⟨256, by omega⟩ : Fin 258) j)) (fun j => x4 (ix2 (⟨257, by omega⟩ : Fin 258) j))
          (fun j => x5 (ix1 j)) (fun j => x6 (ix1 j)) (fun j => x7 (ix1 j))
          (fun k j => x8 (ix2 k j)) (fun j => x9 (ix1 j)) (fun j => x10 (ix1 j)) (fun j => x11 (ix1 j)) e j := by
  have h1 : (fun e k => val_main_v47 (F := Ideal) x0 x1 x2 x3 x4 x5 (ix2 e k))
      = lin1 (fun e k => val_main_v35 (F := Ideal) x0 x1 (ix2 e k)) (fun e k => val_main_v42 (F := Ideal) x0 x1 (ix2 e k))
          (fun e => val_main_v21 (F := Ideal) x1 x2 (ix2 e (0 : Fin 1))) (fun e => x3 (ix2 e (0 : Fin 1)))
          (fun k j => x4 (ix2 (⟨k.val, by omega⟩ : Fin 258) j)) (fun k j => x4 (ix2 (⟨128 + k.val, by omega⟩ : Fin 258) j))
          (fun j => x4 (ix2 (⟨256, by omega⟩ : Fin 258) j)) (fun j => x4 (ix2 (⟨257, by omega⟩ : Fin 258) j))
          (fun j => x5 (ix1 j)) :=
    funext fun e => funext fun k => lin1_apply x0 x1 x2 x3 x4 x5 e k
  have h2 : (fun e k => val_main_v72 (F := Ideal) x0 x1 x2 x3 x4 x5 x6 x7 (ix2 e k))
      = act (lin1 (fun e k => val_main_v35 (F := Ideal) x0 x1 (ix2 e k)) (fun e k => val_main_v42 (F := Ideal) x0 x1 (ix2 e k))
          (fun e => val_main_v21 (F := Ideal) x1 x2 (ix2 e (0 : Fin 1))) (fun e => x3 (ix2 e (0 : Fin 1)))
          (fun k j => x4 (ix2 (⟨k.val, by omega⟩ : Fin 258) j)) (fun k j => x4 (ix2 (⟨128 + k.val, by omega⟩ : Fin 258) j))
          (fun j => x4 (ix2 (⟨256, by omega⟩ : Fin 258) j)) (fun j => x4 (ix2 (⟨257, by omega⟩ : Fin 258) j))
          (fun j => x5 (ix1 j))) (fun j => x6 (ix1 j)) (fun j => x7 (ix1 j)) :=
    funext fun e => funext fun k => (act1_apply x0 x1 x2 x3 x4 x5 x6 x7 e k).trans (by rw [h1])
  have h3 : (fun e k => val_main_v76 (F := Ideal) x0 x1 x2 x3 x4 x5 x6 x7 x8 x9 (ix2 e k))
      = dense (act (lin1 (fun e k => val_main_v35 (F := Ideal) x0 x1 (ix2 e k)) (fun e k => val_main_v42 (F := Ideal) x0 x1 (ix2 e k))
          (fun e => val_main_v21 (F := Ideal) x1 x2 (ix2 e (0 : Fin 1))) (fun e => x3 (ix2 e (0 : Fin 1)))
          (fun k j => x4 (ix2 (⟨k.val, by omega⟩ : Fin 258) j)) (fun k j => x4 (ix2 (⟨128 + k.val, by omega⟩ : Fin 258) j))
          (fun j => x4 (ix2 (⟨256, by omega⟩ : Fin 258) j)) (fun j => x4 (ix2 (⟨257, by omega⟩ : Fin 258) j))
          (fun j => x5 (ix1 j))) (fun j => x6 (ix1 j)) (fun j => x7 (ix1 j))) (fun k j => x8 (ix2 k j)) (fun j => x9 (ix1 j)) :=
    funext fun e => funext fun k => (dense2_apply x0 x1 x2 x3 x4 x5 x6 x7 x8 x9 e k).trans (by rw [h2])
  rw [act2_apply, h3]
  rfl

/-- The reference's weighted coordinate difference at edge `e` and axis `a`. -/
theorem trans_apply (x0 : (⟨S25000x128, .f32⟩ : BufTy).Contents (Elt Ideal)) (x1 : (⟨S2x400000, .i32⟩ : BufTy).Contents (Elt Ideal)) (x2 : (⟨S25000x3, .f32⟩ : BufTy).Contents (Elt Ideal))
    (x3 : (⟨S400000x1, .f32⟩ : BufTy).Contents (Elt Ideal)) (x4 : (⟨S258x128, .f32⟩ : BufTy).Contents (Elt Ideal)) (x5 x6 x7 : (⟨S128, .f32⟩ : BufTy).Contents (Elt Ideal))
    (x8 : (⟨S128x128, .f32⟩ : BufTy).Contents (Elt Ideal)) (x9 x10 x11 : (⟨S128, .f32⟩ : BufTy).Contents (Elt Ideal))
    (x18 : (⟨S128x128, .f32⟩ : BufTy).Contents (Elt Ideal)) (x19 x20 x21 : (⟨S128, .f32⟩ : BufTy).Contents (Elt Ideal)) (x22 : (⟨S128x1, .f32⟩ : BufTy).Contents (Elt Ideal))
    (e : Fin 400000) (a : Fin 3) :
    val_main_v133 (F := Ideal) x0 x1 x2 x3 x4 x5 x6 x7 x8 x9 x10 x11 x18 x19 x20 x21 x22 (ix2 e a)
      = trans (fun e a => val_main_v28 (F := Ideal) x1 x2 (ix2 e a))
          (edgeGate (fun e j => val_main_v101 (F := Ideal) x0 x1 x2 x3 x4 x5 x6 x7 x8 x9 x10 x11 (ix2 e j))
            (fun k j => x18 (ix2 k j)) (fun j => x19 (ix1 j)) (fun j => x20 (ix1 j)) (fun j => x21 (ix1 j))
            (fun k => x22 (ix2 k (0 : Fin 1)))) e a := by
  have hi : idx_main_v132 (ix2 e a) = ix2 e (0 : Fin 1) := Shape.idx_ext₂ rfl rfl
  have hl : ∀ k : Fin 128, lidx_main_v131 (ix2 e (0 : Fin 1)) k = ix2 e k := fun k => Shape.idx_ext₂ rfl rfl
  have hr : ∀ k : Fin 128, ridx_main_v131 (ix2 e (0 : Fin 1)) k = ix2 k (0 : Fin 1) := fun k => Shape.idx_ext₂ rfl rfl
  have h3 : (fun e k => val_main_v105 (F := Ideal) x0 x1 x2 x3 x4 x5 x6 x7 x8 x9 x10 x11 x18 x19 (ix2 e k))
      = dense (fun e j => val_main_v101 (F := Ideal) x0 x1 x2 x3 x4 x5 x6 x7 x8 x9 x10 x11 (ix2 e j)) (fun k j => x18 (ix2 k j)) (fun j => x19 (ix1 j)) :=
    funext fun e => funext fun k => dense3_apply x0 x1 x2 x3 x4 x5 x6 x7 x8 x9 x10 x11 x18 x19 e k
  rw [val_main_v133_apply, val_main_v132_apply, hi, val_main_v131_apply, Ideal.mulf_def]
  simp only [hl, hr, act3_apply, h3]
  rfl

end Cert.ReferenceIdeal.RefValue

end
-- ==== Proof.RefNode.lean ====
/-
  The reference's node update read at an entry: node `r`'s row plus the second node map of the gated, normalised
  first node map of the row `[h r, agg r]` (the matrix product over the 256 entries split by the row's two blocks).
-/
import proofs.«419454_j9414568313009_1_alg».proof.Proof.ReadP
import proofs.«419454_j9414568313009_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read Cert.Egnn

section NodeStages

variable (x0 : (⟨S25000x128, .f32⟩ : BufTy).Contents (Elt Ideal)) (x1 : (⟨S2x400000, .i32⟩ : BufTy).Contents (Elt Ideal)) (x2 : (⟨S25000x3, .f32⟩ : BufTy).Contents (Elt Ideal))
  (x3 : (⟨S400000x1, .f32⟩ : BufTy).Contents (Elt Ideal)) (x4 : (⟨S258x128, .f32⟩ : BufTy).Contents (Elt Ideal)) (x5 x6 x7 : (⟨S128, .f32⟩ : BufTy).Contents (Elt Ideal))
  (x8 : (⟨S128x128, .f32⟩ : BufTy).Contents (Elt Ideal)) (x9 x10 x11 : (⟨S128, .f32⟩ : BufTy).Contents (Elt Ideal))
  (x12 : (⟨S256x128, .f32⟩ : BufTy).Contents (Elt Ideal)) (x13 x14 x15 : (⟨S128, .f32⟩ : BufTy).Contents (Elt Ideal)) (x16 : (⟨S128x128, .f32⟩ : BufTy).Contents (Elt Ideal))
  (x17 : (⟨S128, .f32⟩ : BufTy).Contents (Elt Ideal))

/-- The first node map of the row `[h r, agg r]`, as a table over the nodes. -/
private abbrev preN : Fin 25000 → Fin 128 → EReal :=
  nlin1 (fun r k => x0 (ix2 r k)) (fun r k => val_main_v140 (F := Ideal) x0 x1 x2 x3 x4 x5 x6 x7 x8 x9 x10 x11 (ix2 r k))
    (fun k j => x12 (ix2 k j)) (fun j => x13 (ix1 j))

/-- Entry `k` of the joined row `[h r, agg r]` is entry `k` of `h r`. -/
private theorem catN_left (r : Fin 25000) (k : Fin 128) (hk : k.val < 256) :
    val_main_v141 (F := Ideal) x0 x1 x2 x3 x4 x5 x6 x7 x8 x9 x10 x11 (ix2 r ⟨k.val, hk⟩) = x0 (ix2 r k) := by
  unfold val_main_v141
  refine concatenate_pair_apply_left (t := S25000x256) (s₁ := S25000x128) (s₂ := S25000x128) _ _ _ _ _ (by rfl) (ix2 r k) ?_
  intro b
  match b with
  | ⟨0, _⟩ => rfl
  | ⟨1, _⟩ => rfl

/-- Entry `128 + k` of the joined row `[h r, agg r]` is entry `k` of `agg r`. -/
private theorem catN_right (r : Fin 25000) (k : Fin 128) (hk : 128 + k.val < 256) :
    val_main_v141 (F := Ideal) x0 x1 x2 x3 x4 x5 x6 x7 x8 x9 x10 x11 (ix2 r ⟨128 + k.val, hk⟩) = val_main_v140 (F := Ideal) x0 x1 x2 x3 x4 x5 x6 x7 x8 x9 x10 x11 (ix2 r k) := by
  unfold val_main_v141
  refine concatenate_pair_apply_right (t := S25000x256) (s₁ := S25000x128) (s₂ := S25000x128) _ _ _ _ _ (by rfl) (by rfl) (ix2 r k) ?_ ?_
  · intro b hne
    match b, hne with
    | ⟨0, _⟩, _ => rfl
    | ⟨1, _⟩, hne => exact absurd (Fin.ext rfl) hne
  · show k.val + 128 = 128 + k.val
    omega

/-- The first node map: the product over the 256 joined entries, by the row's two blocks, plus the bias. -/
private theorem v145N (r : Fin 25000) (j : Fin 128) :
    val_main_v145 (F := Ideal) x0 x1 x2 x3 x4 x5 x6 x7 x8 x9 x10 x11 x12 x13 (ix2 r j) = (preN x0 x1 x2 x3 x4 x5 x6 x7 x8 x9 x10 x11 x12 x13) r j := by
  have el : ∀ k : Fin 256, lidx_main_v142 (ix2 r j) k = ix2 r k := fun k => funext fun a => Fin.ext (by match a with | ⟨0, _⟩ => rfl | ⟨1, _⟩ => rfl)
  have er : ∀ k : Fin 256, ridx_main_v142 (ix2 r j) k = ix2 k j := fun k => funext fun a => Fin.ext (by match a with | ⟨0, _⟩ => rfl | ⟨1, _⟩ => rfl)
  have eb : idx_main_v143 (idx_main_v144 (ix2 r j)) = ix1 j := funext fun a => Fin.ext (by match a with | ⟨0, _⟩ => rfl)
  rw [val_main_v145_apply, val_main_v142_apply, val_main_v144_apply, val_main_v143_apply, eb, Ideal.addf_def]
  simp only [el, er]
  rw [sum256]
  simp only [catN_left, catN_right]
  rfl

/-- The sum of a row of the first node map. -/
private theorem v146N (r : Fin 25000) :
    val_main_v146 (F := Ideal) x0 x1 x2 x3 x4 x5 x6 x7 x8 x9 x10 x11 x12 x13 (ix1 r) = ∑ k : Fin 128, (preN x0 x1 x2 x3 x4 x5 x6 x7 x8 x9 x10 x11 x12 x13) r k := by
  have e : ∀ k : Fin 128, idx_main_v146 (ix1 r) k = ix2 r k := fun k => funext fun a => Fin.ext (by match a with | ⟨0, _⟩ => rfl | ⟨1, _⟩ => rfl)
  rw [val_main_v146_apply, val_main_cst_26_apply, Ideal.ofBits_def, Ideal.ofBits_zero_f32, zero_add]
  simp only [e, v145N]

/-- The mean of a row of the first node map. -/
private theorem v149N (r : Fin 25000) (z : Fin 1) :
    val_main_v149 (F := Ideal) x0 x1 x2 x3 x4 x5 x6 x7 x8 x9 x10 x11 x12 x13 (ix2 r z) = mean (preN x0 x1 x2 x3 x4 x5 x6 x7 x8 x9 x10 x11 x12 x13) r := by
  have e : idx_main_v147 (ix2 r z) = ix1 r := funext fun a => Fin.ext (by match a with | ⟨0, _⟩ => rfl)
  rw [val_main_v149_apply, val_main_v147_apply, e, v146N, val_main_v148_apply, val_main_cst_27_apply,
    Ideal.hostDivf_def, Ideal.ofBits_def]
  rfl

/-- A row of the first node map with its mean taken off (the copy the variance is taken of). -/
private theorem v151N (r : Fin 25000) (j : Fin 128) :
    val_main_v151 (F := Ideal) x0 x1 x2 x3 x4 x5 x6 x7 x8 x9 x10 x11 x12 x13 (ix2 r j) = cen (preN x0 x1 x2 x3 x4 x5 x6 x7 x8 x9 x10 x11 x12 x13) r j := by
  have e : idx_main_v150 (ix2 r j) = ix2 r (0 : Fin 1) := funext fun a => Fin.ext (by match a with | ⟨0, _⟩ => rfl | ⟨1, _⟩ => rfl)
  rw [val_main_v151_apply, val_main_v150_apply, e, v149N, v145N, Ideal.subf_def]
  rfl

/-- The variance of a row of the first node map. -/
private theorem v156N (r : Fin 25000) (z : Fin 1) :
    val_main_v156 (F := Ideal) x0 x1 x2 x3 x4 x5 x6 x7 x8 x9 x10 x11 x12 x13 (ix2 r z) = var (preN x0 x1 x2 x3 x4 x5 x6 x7 x8 x9 x10 x11 x12 x13) r := by
  have e : idx_main_v154 (ix2 r z) = ix1 r := funext fun a => Fin.ext (by match a with | ⟨0, _⟩ => rfl)
  have e2 : ∀ k : Fin 128, idx_main_v153 (ix1 r) k = ix2 r k := fun k => funext fun a => Fin.ext (by match a with | ⟨0, _⟩ => rfl | ⟨1, _⟩ => rfl)
  rw [val_main_v156_apply, val_main_v154_apply, e, val_main_v153_apply, val_main_cst_28_apply, val_main_v155_apply,
    val_main_cst_29_apply, Ideal.hostDivf_def]
  simp only [Ideal.ofBits_def, Ideal.ofBits_zero_f32, zero_add, e2, val_main_v152_apply, v151N, Ideal.mulf_def]
  rfl

/-- A row of the first node map with its mean taken off (the copy that is scaled). -/
private theorem v158N (r : Fin 25000) (j : Fin 128) :
    val_main_v158 (F := Ideal) x0 x1 x2 x3 x4 x5 x6 x7 x8 x9 x10 x11 x12 x13 (ix2 r j) = cen (preN x0 x1 x2 x3 x4 x5 x6 x7 x8 x9 x10 x11 x12 x13) r j := by
  have e : idx_main_v157 (ix2 r j) = ix2 r (0 : Fin 1) := funext fun a => Fin.ext (by match a with | ⟨0, _⟩ => rfl | ⟨1, _⟩ => rfl)
  rw [val_main_v158_apply, val_main_v157_apply, e, v149N, v145N, Ideal.subf_def]
  rfl

/-- The inverse square root of the guarded variance of a row. -/
private theorem v161N (r : Fin 25000) (z : Fin 1) :
    val_main_v161 (F := Ideal) x0 x1 x2 x3 x4 x5 x6 x7 x8 x9 x10 x11 x12 x13 (ix2 r z) = Ideal.rsqrt (var (preN x0 x1 x2 x3 x4 x5 x6 x7 x8 x9 x10 x11 x12 x13) r + wEps) := by
  rw [val_main_v161_apply, val_main_v160_apply, v156N, val_main_v159_apply, val_main_cst_30_apply,
    Ideal.hostUnary_rsqrt_def, Ideal.addf_def, Ideal.ofBits_def]

/-- The normalised row, scaled and shifted. -/
private theorem v169N (r : Fin 25000) (j : Fin 128) :
    val_main_v169 (F := Ideal) x0 x1 x2 x3 x4 x5 x6 x7 x8 x9 x10 x11 x12 x13 x14 x15 (ix2 r j) = norm (preN x0 x1 x2 x3 x4 x5 x6 x7 x8 x9 x10 x11 x12 x13) (fun j => x14 (ix1 j)) (fun j => x15 (ix1 j)) r j := by
  have e1 : idx_main_v162 (ix2 r j) = ix2 r (0 : Fin 1) := funext fun a => Fin.ext (by match a with | ⟨0, _⟩ => rfl | ⟨1, _⟩ => rfl)
  have eg : idx_main_v164 (idx_main_v165 (ix2 r j)) = ix1 j := funext fun a => Fin.ext (by match a with | ⟨0, _⟩ => rfl)
  have eb : idx_main_v167 (idx_main_v168 (ix2 r j)) = ix1 j := funext fun a => Fin.ext (by match a with | ⟨0, _⟩ => rfl)
  rw [val_main_v169_apply, val_main_v166_apply, val_main_v163_apply, v158N, val_main_v162_apply, e1, v161N,
    val_main_v165_apply, val_main_v164_apply, eg, val_main_v168_apply, val_main_v167_apply, eb]
  rfl

/-- The gate of the normalised row: `y · 1 / (1 + e^(-y))`. -/
private theorem v170N (r : Fin 25000) (j : Fin 128) :
    val_main_v170 (F := Ideal) x0 x1 x2 x3 x4 x5 x6 x7 x8 x9 x10 x11 x12 x13 x14 x15 (ix2 r j) = act (preN x0 x1 x2 x3 x4 x5 x6 x7 x8 x9 x10 x11 x12 x13) (fun j => x14 (ix1 j)) (fun j => x15 (ix1 j)) r j := by
  rw [val_main_v170_apply, val_main_call3_v5_apply, val_main_call3_v4_apply, val_main_call3_cst_0_apply,
    val_main_call3_v3_apply, val_main_call3_v2_apply, val_main_call3_cst_apply, val_main_call3_v1_apply,
    val_main_call3_v0_apply, v169N]
  simp only [Ideal.ofBits_def, ofBits_one, Ideal.hostDivf_def, Ideal.addf_def, Ideal.mulf_def,
    Ideal.hostUnary_exp_def, Ideal.hostNegf_def, Ideal.negf_def]
  rfl

/-- The second node map of the gated row. -/
private theorem v174N (r : Fin 25000) (j : Fin 128) :
    val_main_v174 (F := Ideal) x0 x1 x2 x3 x4 x5 x6 x7 x8 x9 x10 x11 x12 x13 x14 x15 x16 x17 (ix2 r j)
      = dense (act (preN x0 x1 x2 x3 x4 x5 x6 x7 x8 x9 x10 x11 x12 x13) (fun j => x14 (ix1 j)) (fun j => x15 (ix1 j))) (fun k j => x16 (ix2 k j)) (fun j => x17 (ix1 j)) r j := by
  have el : ∀ k : Fin 128, lidx_main_v171 (ix2 r j) k = ix2 r k := fun k => funext fun a => Fin.ext (by match a with | ⟨0, _⟩ => rfl | ⟨1, _⟩ => rfl)
  have er : ∀ k : Fin 128, ridx_main_v171 (ix2 r j) k = ix2 k j := fun k => funext fun a => Fin.ext (by match a with | ⟨0, _⟩ => rfl | ⟨1, _⟩ => rfl)
  have eb : idx_main_v172 (idx_main_v173 (ix2 r j)) = ix1 j := funext fun a => Fin.ext (by match a with | ⟨0, _⟩ => rfl)
  rw [val_main_v174_apply, val_main_v171_apply, val_main_v173_apply, val_main_v172_apply, eb, Ideal.addf_def]
  simp only [el, er, v170N]
  rfl

end NodeStages

/-- The reference's node update at node `r` and channel `j`, over the aggregated messages `val_main_v140`. -/
theorem nodeOut_apply (x0 : (⟨S25000x128, .f32⟩ : BufTy).Contents (Elt Ideal)) (x1 : (⟨S2x400000, .i32⟩ : BufTy).Contents (Elt Ideal)) (x2 : (⟨S25000x3, .f32⟩ : BufTy).Contents (Elt Ideal))
    (x3 : (⟨S400000x1, .f32⟩ : BufTy).Contents (Elt Ideal)) (x4 : (⟨S258x128, .f32⟩ : BufTy).Contents (Elt Ideal)) (x5 x6 x7 : (⟨S128, .f32⟩ : BufTy).Contents (Elt Ideal))
    (x8 : (⟨S128x128, .f32⟩ : BufTy).Contents (Elt Ideal)) (x9 x10 x11 : (⟨S128, .f32⟩ : BufTy).Contents (Elt Ideal))
    (x12 : (⟨S256x128, .f32⟩ : BufTy).Contents (Elt Ideal)) (x13 x14 x15 : (⟨S128, .f32⟩ : BufTy).Contents (Elt Ideal)) (x16 : (⟨S128x128, .f32⟩ : BufTy).Contents (Elt Ideal))
    (x17 : (⟨S128, .f32⟩ : BufTy).Contents (Elt Ideal)) (r : Fin 25000) (j : Fin 128) :
    val_main_v175 (F := Ideal) x0 x1 x2 x3 x4 x5 x6 x7 x8 x9 x10 x11 x12 x13 x14 x15 x16 x17 (ix2 r j)
      = nodeOut (fun r k => x0 (ix2 r k))
          (fun r k => val_main_v140 (F := Ideal) x0 x1 x2 x3 x4 x5 x6 x7 x8 x9 x10 x11 (ix2 r k))
          (fun k j => x12 (ix2 k j)) (fun j => x13 (ix1 j)) (fun j => x14 (ix1 j)) (fun j => x15 (ix1 j))
          (fun k j => x16 (ix2 k j)) (fun j => x17 (ix1 j)) r j := by
  rw [val_main_v175_apply, v174N, Ideal.addf_def]
  rfl

end Cert.ReferenceIdeal.RefValue

end
-- ==== Proof.Bridge.lean ====
/-
  The reference's stages are the kernel program's arrays. With both rows of the edge table in range the kernel's
  filling gathers are the reference's gathers, so the gathered tables, the coordinate differences and their squared
  lengths agree; the kernel's four row blocks of the first edge weight are the reference's weight at the blocks' own
  rows; hence the edge messages and the weighted coordinate differences agree edge by edge, their segment sums agree,
  and the node update and the updated coordinates agree.
-/
import proofs.«419454_j9414568313009_1_alg».proof.Proof.KerArrays
import proofs.«419454_j9414568313009_1_alg».proof.Proof.HostBridge
import proofs.«419454_j9414568313009_1_alg».proof.Proof.RefEdge
import proofs.«419454_j9414568313009_1_alg».proof.Proof.RefNode

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Take Cert.Egnn Cert.HostBridge

variable (m : (ℓ : Loc nD τ sig) → Buf (Elt Ideal) ℓ) (ρ : Dev nD → PrngReg) (c : Dev nD)

/-- The edge messages agree, edge by edge. -/
theorem ef_eq (h0 : InRange (edgeRow0 (m ((c.tc : Thread nD τ).loc main_arg1)))) (h1 : InRange (edgeRow1 (m ((c.tc : Thread nD τ).loc main_arg1)))) :
    Cert.ReferenceIdeal.Read.val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = fun i => efK m ρ c (i 0) (i 1) := by
  funext i
  obtain ⟨e, j, rfl⟩ : ∃ (e : Fin 400000) (j : Fin 128), i = ix2 e j := ⟨i 0, i 1, eq_ix2 i⟩
  rw [Cert.ReferenceIdeal.RefValue.edgeFeat_apply]
  show _ = efK m ρ c e j
  unfold efK
  have e4 : (V6 m ρ c main_v4 : S400000x128.Idx → EReal) = Cert.ReferenceIdeal.Read.val_main_v35 (F := Ideal) (m ((c.tc : Thread nD τ).loc main_arg0)) (m ((c.tc : Thread nD τ).loc main_arg1)) := by
    rw [ref_v35]; exact (W6_v4 m ρ c).trans (take128_of_inRange _ _ h0)
  have e5 : (V6 m ρ c main_v5 : S400000x128.Idx → EReal) = Cert.ReferenceIdeal.Read.val_main_v42 (F := Ideal) (m ((c.tc : Thread nD τ).loc main_arg0)) (m ((c.tc : Thread nD τ).loc main_arg1)) := by
    rw [ref_v42]; exact (W6_v5 m ρ c).trans (take128_of_inRange _ _ h1)
  have e11 : (V6 m ρ c main_v11 : S400000x1.Idx → EReal) = Cert.ReferenceIdeal.Read.val_main_v21 (F := Ideal) (m ((c.tc : Thread nD τ).loc main_arg1)) (m ((c.tc : Thread nD τ).loc main_arg2)) := by
    rw [ref_v21]; exact (W6_v11 m ρ c).trans (by rw [take3_of_inRange _ _ h0, take3_of_inRange _ _ h1])
  have e3 : (V6 m ρ c main_arg3 : S400000x1.Idx → EReal) = (m ((c.tc : Thread nD τ).loc main_arg3)) := W6_arg3 m ρ c
  have eh : (fun (k j : Fin 128) => (V6 m ρ c main_v19 : S128x128.Idx → EReal) (ix2 k j))
      = fun k j => (m ((c.tc : Thread nD τ).loc main_arg4)) (ix2 (⟨k.val, by omega⟩ : Fin 258) j) := by
    funext k j; rw [show (V6 m ρ c main_v19 : S128x128.Idx → EReal) = w1h (F := Ideal) (m ((c.tc : Thread nD τ).loc main_arg4)) from W6_v19 m ρ c]; exact w1h_apply _ k j
  have ec : (fun (k j : Fin 128) => (V6 m ρ c main_v20 : S128x128.Idx → EReal) (ix2 k j))
      = fun k j => (m ((c.tc : Thread nD τ).loc main_arg4)) (ix2 (⟨128 + k.val, by omega⟩ : Fin 258) j) := by
    funext k j; rw [show (V6 m ρ c main_v20 : S128x128.Idx → EReal) = w1c (F := Ideal) (m ((c.tc : Thread nD τ).loc main_arg4)) from W6_v20 m ρ c]; exact w1c_apply _ k j
  have er : (fun (j : Fin 128) => (V6 m ρ c main_v22 : S128.Idx → EReal) (ix1 j))
      = fun j => (m ((c.tc : Thread nD τ).loc main_arg4)) (ix2 (⟨256, by omega⟩ : Fin 258) j) := by
    funext j; rw [show (V6 m ρ c main_v22 : S128.Idx → EReal) = w1r (F := Ideal) (m ((c.tc : Thread nD τ).loc main_arg4)) from W6_v22 m ρ c]; exact w1r_apply _ j
  have ee : (fun (j : Fin 128) => (V6 m ρ c main_v24 : S128.Idx → EReal) (ix1 j))
      = fun j => (m ((c.tc : Thread nD τ).loc main_arg4)) (ix2 (⟨257, by omega⟩ : Fin 258) j) := by
    funext j; rw [show (V6 m ρ c main_v24 : S128.Idx → EReal) = w1e (F := Ideal) (m ((c.tc : Thread nD τ).loc main_arg4)) from W6_v24 m ρ c]; exact w1e_apply _ j
  have e5' : (V6 m ρ c main_arg5 : S128.Idx → EReal) = (m ((c.tc : Thread nD τ).loc main_arg5)) := W6_arg5 m ρ c
  have e6' : (V6 m ρ c main_arg6 : S128.Idx → EReal) = (m ((c.tc : Thread nD τ).loc main_arg6)) := W6_arg6 m ρ c
  have e7' : (V6 m ρ c main_arg7 : S128.Idx → EReal) = (m ((c.tc : Thread nD τ).loc main_arg7)) := W6_arg7 m ρ c
  have e8' : (V6 m ρ c main_arg8 : S128x128.Idx → EReal) = (m ((c.tc : Thread nD τ).loc main_arg8)) := W6_arg8 m ρ c
  have e9' : (V6 m ρ c main_arg9 : S128.Idx → EReal) = (m ((c.tc : Thread nD τ).loc main_arg9)) := W6_arg9 m ρ c
  have e10' : (V6 m ρ c main_arg10 : S128.Idx → EReal) = (m ((c.tc : Thread nD τ).loc main_arg10)) := W6_arg10 m ρ c
  have e11' : (V6 m ρ c main_arg11 : S128.Idx → EReal) = (m ((c.tc : Thread nD τ).loc main_arg11)) := W6_arg11 m ρ c
  rw [eh, ec, er, ee, e4, e5, e11, e3, e5', e6', e7', e8', e9', e10', e11']

/-- The weighted coordinate differences agree, edge by edge. -/
theorem tr_eq (h0 : InRange (edgeRow0 (m ((c.tc : Thread nD τ).loc main_arg1)))) (h1 : InRange (edgeRow1 (m ((c.tc : Thread nD τ).loc main_arg1)))) :
    Cert.ReferenceIdeal.Read.val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) = fun i => trK m ρ c (i 0) (i 1) := by
  funext i
  obtain ⟨e, a, rfl⟩ : ∃ (e : Fin 400000) (a : Fin 3), i = ix2 e a := ⟨i 0, i 1, eq_ix2 i⟩
  rw [Cert.ReferenceIdeal.RefValue.trans_apply, ef_eq m ρ c h0 h1]
  show _ = trK m ρ c e a
  unfold trK
  have e18 : (V6 m ρ c main_v18 : S400000x3.Idx → EReal) = Cert.ReferenceIdeal.Read.val_main_v28 (F := Ideal) (m ((c.tc : Thread nD τ).loc main_arg1)) (m ((c.tc : Thread nD τ).loc main_arg2)) := by
    rw [ref_v28]; exact (W6_v18 m ρ c).trans (by rw [take3_of_inRange _ _ h0, take3_of_inRange _ _ h1])
  have e18' : (V6 m ρ c main_arg18 : S128x128.Idx → EReal) = (m ((c.tc : Thread nD τ).loc main_arg18)) := W6_arg18 m ρ c
  have e19' : (V6 m ρ c main_arg19 : S128.Idx → EReal) = (m ((c.tc : Thread nD τ).loc main_arg19)) := W6_arg19 m ρ c
  have e20' : (V6 m ρ c main_arg20 : S128.Idx → EReal) = (m ((c.tc : Thread nD τ).loc main_arg20)) := W6_arg20 m ρ c
  have e21' : (V6 m ρ c main_arg21 : S128.Idx → EReal) = (m ((c.tc : Thread nD τ).loc main_arg21)) := W6_arg21 m ρ c
  have e22' : (V6 m ρ c main_arg22 : S128x1.Idx → EReal) = (m ((c.tc : Thread nD τ).loc main_arg22)) := W6_arg22 m ρ c
  rw [e18, e18', e19', e20', e21', e22']

/-- The node updates agree. -/
theorem out_eq (h0 : InRange (edgeRow0 (m ((c.tc : Thread nD τ).loc main_arg1)))) (h1 : InRange (edgeRow1 (m ((c.tc : Thread nD τ).loc main_arg1)))) :
    Cert.ReferenceIdeal.Read.val_main_v175 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) = fun i => outK m ρ c (i 0) (i 1) := by
  funext i
  obtain ⟨r, j, rfl⟩ : ∃ (r : Fin 25000) (j : Fin 128), i = ix2 r j := ⟨i 0, i 1, eq_ix2 i⟩
  rw [Cert.ReferenceIdeal.RefValue.nodeOut_apply]
  show _ = outK m ρ c r j
  unfold outK
  have g0 : (V8 m ρ c main_arg0 : S25000x128.Idx → EReal) = (m ((c.tc : Thread nD τ).loc main_arg0)) := W8_arg0 m ρ c
  have g32 : (V8 m ρ c main_v32 : S25000x128.Idx → EReal) = Cert.ReferenceIdeal.Read.val_main_v140 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
    rw [ref_v140, ef_eq m ρ c h0 h1]
    exact (W8_v32 m ρ c).trans (by rw [arr21]; rfl)
  have g12 : (V8 m ρ c main_arg12 : S256x128.Idx → EReal) = (m ((c.tc : Thread nD τ).loc main_arg12)) := W8_arg12 m ρ c
  have g13 : (V8 m ρ c main_arg13 : S128.Idx → EReal) = (m ((c.tc : Thread nD τ).loc main_arg13)) := W8_arg13 m ρ c
  have g14 : (V8 m ρ c main_arg14 : S128.Idx → EReal) = (m ((c.tc : Thread nD τ).loc main_arg14)) := W8_arg14 m ρ c
  have g15 : (V8 m ρ c main_arg15 : S128.Idx → EReal) = (m ((c.tc : Thread nD τ).loc main_arg15)) := W8_arg15 m ρ c
  have g16 : (V8 m ρ c main_arg16 : S128x128.Idx → EReal) = (m ((c.tc : Thread nD τ).loc main_arg16)) := W8_arg16 m ρ c
  have g17 : (V8 m ρ c main_arg17 : S128.Idx → EReal) = (m ((c.tc : Thread nD τ).loc main_arg17)) := W8_arg17 m ρ c
  rw [g0, g32, g12, g13, g14, g15, g16, g17]

/-- The updated coordinates agree. -/
theorem coord_eq (h0 : InRange (edgeRow0 (m ((c.tc : Thread nD τ).loc main_arg1)))) (h1 : InRange (edgeRow1 (m ((c.tc : Thread nD τ).loc main_arg1)))) :
    Cert.ReferenceIdeal.Read.val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) = coordK m ρ c := by
  rw [ref_v137, tr_eq m ρ c h0 h1]
  rfl

end Cert.Bridge

end
-- ==== Proof.lean ====
/-
  The certificate of one layer of an equivariant graph network: the kernel program (gathers on the host, the edge maps
  as a pipelined kernel over blocks of 2000 edges, segment sums on the host, the node maps as a pipelined kernel over
  blocks of 5000 nodes) against the same layer in plain array operations.

  Frames: the two kernel programs' frames are the generated ones; the reference's frame is its run with the results
  dropped. Nothing is owed for the idealization (the pass rewrote no operation).

  Equal results over the extended reals, under the precondition that every float input is finite and every entry of
  the edge table lies in [-25000, 25000): both rows of the edge table are then valid row indices of the two node
  tables, the kernel's filling gathers never fill and are the reference's gathers, and from there on the two programs
  apply the same maps row by row — the kernel to a block of rows at a time, the reference to whole tables. Row by row:
  the first edge map is one matrix product over the 258 entries of `[h[row], h[col], radial, edge_attr]` in the
  reference and the sum of its four row blocks in the kernel (a sum over an index set split into four); every
  normalisation, gate and later map is the same function of a row on both sides (a lane sum is a row sum; the kernel's
  logistic is 1 / (1 + e^(-x)), the reference writes it out); the segment sums are one operation applied to equal
  tables. No law beyond the associativity and commutativity of sums is used, so finiteness is not needed.
-/
import proofs.«419454_j9414568313009_1_alg».proof.Defs
import proofs.«419454_j9414568313009_1_alg».proof.Proof.Gen.Kernel
import proofs.«419454_j9414568313009_1_alg».proof.Proof.Gen.Kernel.Frame
import proofs.«419454_j9414568313009_1_alg».proof.Proof.Gen.KernelIdeal
import proofs.«419454_j9414568313009_1_alg».proof.Proof.Gen.KernelIdeal.Frame
import proofs.«419454_j9414568313009_1_alg».proof.Proof.Gen.ReferenceIdeal
import proofs.«419454_j9414568313009_1_alg».proof.Proof.Gen.Pre_finite_inputs
import proofs.«419454_j9414568313009_1_alg».proof.Proof.RefRun
import proofs.«419454_j9414568313009_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Line.run (F := Ideal) m ρ)

theorem preserves : Cert.preserves_Kernel_KernelIdeal := trivial

/-- From memories agreeing on the arguments the two idealized programs end with equal node updates and equal
    updated coordinates. -/
theorem algebraic : Cert.algebraic_KernelIdeal_ReferenceIdeal := by
  intro m g m' g' hpre hagree
  refine ⟨fun c => fun i => Cert.KernelIdeal.Gen.outK m g c (i 0) (i 1), fun c => Cert.KernelIdeal.Gen.coordK m g c,
    Cert.KernelIdeal.Gen.kernel_run m g, ?_⟩
  refine (θ_run Cert.ReferenceIdeal.defs _ _).mono (fun _ h c => ?_) (Cert.ReferenceIdeal.Line.run (F := Ideal) m' g')
  obtain ⟨hr0, hr1, hargs⟩ := h c
  obtain ⟨q0, q1, q2, q3, q4, q5, q6, q7, q8, q9, q10, q11, q12, q13, q14, q15, q16, q17, q18, q19, q20, q21, q22⟩ := hagree c
  obtain ⟨h0, h1⟩ := Cert.KernelIdeal.Take.inRange_of_pre m hpre c
  refine ⟨hr0.trans ?_, hr1.trans ?_, hargs⟩
  · rw [q0, q1, q2, q3, q4, q5, q6, q7, q8, q9, q10, q11, q12, q13, q14, q15, q16, q17]
    exact Cert.Bridge.out_eq m g c h0 h1
  · rw [q0, q1, q2, q3, q4, q5, q6, q7, q8, q9, q10, q11, q18, q19, q20, q21, q22]
    exact Cert.Bridge.coord_eq m g c h0 h1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
